-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096 : S_.BroadcastsInDim S8x4096 (![] : Fin 0 → Fin S8x4096.rank)
  reducesTo_S8x4096_S_d0_1 : S8x4096.ReducesTo [0, 1] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : IVec S8192 32) (main_arg5 : FVec F S8x1024 .f32) (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  let main_v19 : FVec F S8x1024 .f32 := Host.absf main_arg5
  let main_cst_6 : FVec F S_ .f32 := constant S_ .f32 0x7F800000#32
  let main_v20 : FVec F S8x1024 .f32 := broadcastInDim S8x1024 ![] bcast_S_S8x1024 main_cst_6
  let main_v21 : IVec S8x1024 1 := cmpf .olt main_v19 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v18 main_v22
  let main_c_8 : IVec S_ 32 := constantI S_ 32 0#32
  let main_v24 : IVec S8192 32 := broadcastInDim S8192 ![] bcast_S_S8192 main_c_8
  let main_v25 : IVec S8192 1 := cmpi .sge main_arg1 main_v24
  let main_c_9 : IVec S_ 1 := constantI S_ 1 1#1
  let main_v26 : IVec S_ 1 := (fun x v => Host.reduce IntOp.andi x v reducesTo_S8192_S_d0 h_S_) main_v25 main_c_9
  let main_v27 : IVec S_ 1 := andi main_v23 main_v26
  let main_c_10 : IVec S_ 32 := constantI S_ 32 8#32
  let main_v28 : IVec S8192 32 := broadcastInDim S8192 ![] bcast_S_S8192 main_c_10
  let main_v29 : IVec S8192 1 := cmpi .slt main_arg1 main_v28
  let main_c_11 : IVec S_ 1 := constantI S_ 1 1#1
  let main_v30 : IVec S_ 1 := (fun x v => Host.reduce IntOp.andi x v reducesTo_S8192_S_d0 h_S_) main_v29 main_c_11
  let main_v31 : IVec S_ 1 := andi main_v27 main_v30
  main_v31

def fn {F : FTy → Type} [FloatOps F] (main_arg0 : FVec F S8192x1024 .f32) (main_arg1 : IVec S8192 32) (main_arg2 : FVec F S8x1024x4096 .f32) (main_arg3 : FVec F S8x4096 .f32) (main_arg4 : FVec F S8x4096x1024 .f32) (main_arg5 : FVec F S8x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8x1024x4096 .f32 := Host.absf main_arg2
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x4096 .f32 := Host.absf main_arg3
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S8x4096x1024 .f32 := Host.absf main_arg4
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_arg1 main_arg5 main_v13 main_v16
-- ==== Kernel.lean ====
abbrev S8192x1024 : Shape := ⟨2, ![8192, 1024]⟩
abbrev S8192 : Shape := ⟨1, ![8192]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S_ : Shape := ⟨0, ![]⟩
abbrev S8 : Shape := ⟨1, ![8]⟩
abbrev S8192x1 : Shape := ⟨2, ![8192, 1]⟩
abbrev S40 : Shape := ⟨1, ![40]⟩
abbrev S40x1 : Shape := ⟨2, ![40, 1]⟩
abbrev S1x8 : Shape := ⟨2, ![1, 8]⟩
abbrev S40x8 : Shape := ⟨2, ![40, 8]⟩
abbrev S10240 : Shape := ⟨1, ![10240]⟩
abbrev S10240x1 : Shape := ⟨2, ![10240, 1]⟩
abbrev S10240x1024 : Shape := ⟨2, ![10240, 1024]⟩
abbrev S256x1024 : Shape := ⟨2, ![256, 1024]⟩
abbrev S1x1024x4096 : Shape := ⟨3, ![1, 1024, 4096]⟩
abbrev S1 : Shape := ⟨1, ![1]⟩
abbrev S1x4096x1024 : Shape := ⟨3, ![1, 4096, 1024]⟩
abbrev S1024x4096 : Shape := ⟨2, ![1024, 4096]⟩
abbrev S4096x1024 : Shape := ⟨2, ![4096, 1024]⟩
abbrev S4096 : Shape := ⟨1, ![4096]⟩
abbrev S1024 : Shape := ⟨1, ![1024]⟩
abbrev S256x4096 : Shape := ⟨2, ![256, 4096]⟩
abbrev S1x4096 : Shape := ⟨2, ![1, 4096]⟩
abbrev S1x1024 : Shape := ⟨2, ![1, 1024]⟩

abbrev nBuf : Space → Nat
  | .hbm => 181
  | .vmem => 10
  | .smem => 1
  | _ => 0

abbrev hbmTy0_0 (i : Nat) : BufTy := match i % 128 with
  | 0 => ⟨S8192x1024, .f32⟩
  | 1 => ⟨S8192, .i32⟩
  | 2 => ⟨S8x1024x4096, .f32⟩
  | 3 => ⟨S8x4096, .f32⟩
  | 4 => ⟨S8x4096x1024, .f32⟩
  | 5 => ⟨S8x1024, .f32⟩
  | 6 => ⟨S_, .i32⟩
  | 7 => ⟨S8, .i32⟩
  | 8 => ⟨S_, .i32⟩
  | 9 => ⟨S_, .i32⟩
  | 10 => ⟨S8192, .i32⟩
  | 11 => ⟨S8192, .i32⟩
  | 12 => ⟨S_, .i32⟩
  | 13 => ⟨S8192, .i32⟩
  | 14 => ⟨S8192, .i1⟩
  | 15 => ⟨S_, .i32⟩
  | 16 => ⟨S8192, .i32⟩
  | 17 => ⟨S8192, .i32⟩
  | 18 => ⟨S8192, .i32⟩
  | 19 => ⟨S8192x1, .i32⟩
  | 20 => ⟨S_, .i32⟩
  | 21 => ⟨S8192, .i32⟩
  | 22 => ⟨S8, .i32⟩
  | 23 => ⟨S_, .i32⟩
  | 24 => ⟨S_, .i32⟩
  | 25 => ⟨S8, .i32⟩
  | 26 => ⟨S8, .i32⟩
  | 27 => ⟨S_, .i32⟩
  | 28 => ⟨S8, .i32⟩
  | 29 => ⟨S8, .i32⟩
  | 30 => ⟨S_, .i32⟩
  | 31 => ⟨S8, .i32⟩
  | 32 => ⟨S8, .i32⟩
  | 33 => ⟨S_, .i32⟩
  | 34 => ⟨S_, .i32⟩
  | 35 => ⟨S8, .i32⟩
  | 36 => ⟨S8, .i32⟩
  | 37 => ⟨S8, .i32⟩
  | 38 => ⟨S_, .i32⟩
  | 39 => ⟨S8, .i32⟩
  | 40 => ⟨S8, .i1⟩
  | 41 => ⟨S8, .i32⟩
  | 42 => ⟨S8, .i32⟩
  | 43 => ⟨S_, .i32⟩
  | 44 => ⟨S8, .i32⟩
  | 45 => ⟨S8, .i1⟩
  | 46 => ⟨S8, .i1⟩
  | 47 => ⟨S_, .i32⟩
  | 48 => ⟨S8, .i32⟩
  | 49 => ⟨S8, .i32⟩
  | 50 => ⟨S8, .i32⟩
  | 51 => ⟨S_, .i32⟩
  | 52 => ⟨S_, .i32⟩
  | 53 => ⟨S8, .i32⟩
  | 54 => ⟨S8, .i32⟩
  | 55 => ⟨S8192, .i32⟩
  | 56 => ⟨S8192, .i32⟩
  | 57 => ⟨S8192, .i32⟩
  | 58 => ⟨S_, .i32⟩
  | 59 => ⟨S8192, .i32⟩
  | 60 => ⟨S8192, .i1⟩
  | 61 => ⟨S_, .i32⟩
  | 62 => ⟨S8192, .i32⟩
  | 63 => ⟨S8192, .i32⟩
  | 64 => ⟨S8192, .i32⟩
  | 65 => ⟨S8192x1, .i32⟩
  | 66 => ⟨S8192, .i32⟩
  | 67 => ⟨S8192, .i32⟩
  | 68 => ⟨S_, .i32⟩
  | 69 => ⟨S8192, .i32⟩
  | 70 => ⟨S8192, .i1⟩
  | 71 => ⟨S_, .i32⟩
  | 72 => ⟨S8192, .i32⟩
  | 73 => ⟨S8192, .i32⟩
  | 74 => ⟨S8192, .i32⟩
  | 75 => ⟨S8192x1, .i32⟩
  | 76 => ⟨S8192, .i32⟩
  | 77 => ⟨S8192, .i32⟩
  | 78 => ⟨S_, .i32⟩
  | 79 => ⟨S8192, .i32⟩
  | 80 => ⟨S8192, .i1⟩
  | 81 => ⟨S_, .i32⟩
  | 82 => ⟨S8192, .i32⟩
  | 83 => ⟨S8192, .i32⟩
  | 84 => ⟨S8192, .i32⟩
  | 85 => ⟨S8192x1, .i32⟩
  | 86 => ⟨S8192, .i32⟩
  | 87 => ⟨S_, .i32⟩
  | 88 => ⟨S8192, .i32⟩
  | 89 => ⟨S8192, .i32⟩
  | 90 => ⟨S8192, .i32⟩
  | 91 => ⟨S40, .i32⟩
  | 92 => ⟨S40x1, .i32⟩
  | 93 => ⟨S1x8, .i32⟩
  | 94 => ⟨S40x8, .i32⟩
  | 95 => ⟨S40x8, .i32⟩
  | 96 => ⟨S40x8, .i1⟩
  | 97 => ⟨S40x8, .i32⟩
  | 98 => ⟨S_, .i32⟩
  | 99 => ⟨S40, .i32⟩
  | 100 => ⟨S_, .i32⟩
  | 101 => ⟨S40, .i32⟩
  | 102 => ⟨S40, .i32⟩
  | 103 => ⟨S_, .i32⟩
  | 104 => ⟨S_, .i32⟩
  | 105 => ⟨S_, .i32⟩
  | 106 => ⟨S40, .i32⟩
  | 107 => ⟨S40, .i32⟩
  | 108 => ⟨S_, .i32⟩
  | 109 => ⟨S40, .i32⟩
  | 110 => ⟨S_, .i32⟩
  | 111 => ⟨S10240, .i32⟩
  | 112 => ⟨S_, .i32⟩
  | 113 => ⟨S8192, .i32⟩
  | 114 => ⟨S8192, .i1⟩
  | 115 => ⟨S_, .i32⟩
  | 116 => ⟨S8192, .i32⟩
  | 117 => ⟨S8192, .i32⟩
  | 118 => ⟨S8192, .i32⟩
  | 119 => ⟨S8192x1, .i32⟩
  | 120 => ⟨S10240, .i32⟩
  | 121 => ⟨S_, .i32⟩
  | 122 => ⟨S10240, .i32⟩
  | 123 => ⟨S10240, .i1⟩
  | 124 => ⟨S_, .i32⟩
  | 125 => ⟨S_, .i32⟩
  | 126 => ⟨S_, .i32⟩
  | 127 => ⟨S10240, .i32⟩
  | _ => ⟨S8192x1024, .f32⟩

abbrev hbmTy0_1 (i : Nat) : BufTy := match i % 128 with
  | 0 => ⟨S10240, .i32⟩
  | 1 => ⟨S_, .i32⟩
  | 2 => ⟨S10240, .i32⟩
  | 3 => ⟨S10240, .i32⟩
  | 4 => ⟨S_, .i32⟩
  | 5 => ⟨S10240, .i32⟩
  | 6 => ⟨S10240, .i1⟩
  | 7 => ⟨S_, .i32⟩
  | 8 => ⟨S10240, .i32⟩
  | 9 => ⟨S10240, .i32⟩
  | 10 => ⟨S10240, .i32⟩
  | 11 => ⟨S10240x1, .i32⟩
  | 12 => ⟨S10240x1024, .f32⟩
  | 13 => ⟨S10240x1, .i1⟩
  | 14 => ⟨S_, .f32⟩
  | 15 => ⟨S_, .f32⟩
  | 16 => ⟨S10240x1024, .i1⟩
  | 17 => ⟨S10240x1024, .f32⟩
  | 18 => ⟨S10240x1024, .f32⟩
  | 19 => ⟨S10240x1024, .bf16⟩
  | 20 => ⟨S8x1024x4096, .bf16⟩
  | 21 => ⟨S8x4096x1024, .bf16⟩
  | 22 => ⟨S10240x1024, .f32⟩
  | 23 => ⟨S_, .i32⟩
  | 24 => ⟨S8192, .i32⟩
  | 25 => ⟨S8192, .i32⟩
  | 26 => ⟨S_, .i32⟩
  | 27 => ⟨S8192, .i32⟩
  | 28 => ⟨S8192, .i1⟩
  | 29 => ⟨S_, .i32⟩
  | 30 => ⟨S8192, .i32⟩
  | 31 => ⟨S8192, .i32⟩
  | 32 => ⟨S8192, .i32⟩
  | 33 => ⟨S8192x1, .i32⟩
  | 34 => ⟨S8192, .i32⟩
  | 35 => ⟨S_, .i32⟩
  | 36 => ⟨S8192, .i32⟩
  | 37 => ⟨S8192, .i1⟩
  | 38 => ⟨S_, .i32⟩
  | 39 => ⟨S8192, .i32⟩
  | 40 => ⟨S8192, .i32⟩
  | 41 => ⟨S8192, .i32⟩
  | 42 => ⟨S8192x1, .i32⟩
  | 43 => ⟨S8192, .i32⟩
  | 44 => ⟨S_, .i32⟩
  | 45 => ⟨S8192, .i32⟩
  | 46 => ⟨S8192, .i1⟩
  | 47 => ⟨S_, .i32⟩
  | 48 => ⟨S8192, .i32⟩
  | 49 => ⟨S8192, .i32⟩
  | 50 => ⟨S8192, .i32⟩
  | 51 => ⟨S8192x1, .i32⟩
  | 52 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S8x4096, .f32⟩
  | .local _ .vmem, ⟨5, _⟩ => ⟨S1x4096x1024, .bf16⟩
  | .local _ .vmem, ⟨6, _⟩ => ⟨S1x4096x1024, .bf16⟩
  | .local _ .vmem, ⟨7, _⟩ => ⟨S8x1024, .f32⟩
  | .local _ .vmem, ⟨8, _⟩ => ⟨S256x1024, .f32⟩
  | .local _ .vmem, ⟨9, _⟩ => ⟨S256x1024, .f32⟩
  | .local _ .smem, ⟨0, _⟩ => ⟨S40, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v1 : Ref sig .tc := ⟨.hbm, 11, rfl⟩
abbrev main_c_1 : Ref sig .tc := ⟨.hbm, 12, rfl⟩
abbrev main_v2 : Ref sig .tc := ⟨.hbm, 13, rfl⟩
abbrev main_v3 : Ref sig .tc := ⟨.hbm, 14, rfl⟩
abbrev main_c_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_3 : Ref sig .tc := ⟨.hbm, 20, rfl⟩
abbrev main_v8 : Ref sig .tc := ⟨.hbm, 21, rfl⟩
abbrev main_v9 : Ref sig .tc := ⟨.hbm, 22, rfl⟩
abbrev main_call1_call0_c : Ref sig .tc := ⟨.hbm, 23, rfl⟩
abbrev main_call1_call0_v0 : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_c_5 : Ref sig .tc := ⟨.hbm, 30, rfl⟩
abbrev main_v14 : Ref sig .tc := ⟨.hbm, 31, rfl⟩
abbrev main_v15 : Ref sig .tc := ⟨.hbm, 32, rfl⟩
abbrev main_c_6 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_c : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_0 : Ref sig .tc := ⟨.hbm, 47, rfl⟩
abbrev main_call2_v12 : Ref sig .tc := ⟨.hbm, 48, rfl⟩
abbrev main_call2_v13 : Ref sig .tc := ⟨.hbm, 49, rfl⟩
abbrev main_v16 : Ref sig .tc := ⟨.hbm, 50, rfl⟩
abbrev main_call3_call0_c : Ref sig .tc := ⟨.hbm, 51, rfl⟩
abbrev main_call3_call0_v0 : Ref sig .tc := ⟨.hbm, 52, rfl⟩
abbrev main_v17 : Ref sig .tc := ⟨.hbm, 53, rfl⟩
abbrev main_v18 : Ref sig .tc := ⟨.hbm, 54, rfl⟩
abbrev main_call4_v0 : Ref sig .tc := ⟨.hbm, 55, rfl⟩
abbrev main_call4_v1_0 : Ref sig .tc := ⟨.hbm, 56, rfl⟩
abbrev main_v19 : Ref sig .tc := ⟨.hbm, 57, rfl⟩
abbrev main_c_7 : Ref sig .tc := ⟨.hbm, 58, rfl⟩
abbrev main_v20 : Ref sig .tc := ⟨.hbm, 59, rfl⟩
abbrev main_v21 : Ref sig .tc := ⟨.hbm, 60, rfl⟩
abbrev main_c_8 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_c_9 : Ref sig .tc := ⟨.hbm, 68, rfl⟩
abbrev main_v28 : Ref sig .tc := ⟨.hbm, 69, rfl⟩
abbrev main_v29 : Ref sig .tc := ⟨.hbm, 70, rfl⟩
abbrev main_c_10 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_c_11 : Ref sig .tc := ⟨.hbm, 78, rfl⟩
abbrev main_v36 : Ref sig .tc := ⟨.hbm, 79, rfl⟩
abbrev main_v37 : Ref sig .tc := ⟨.hbm, 80, rfl⟩
abbrev main_c_12 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_c_13 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_c_14 : Ref sig .tc := ⟨.hbm, 98, rfl⟩
abbrev main_v53 : Ref sig .tc := ⟨.hbm, 99, rfl⟩
abbrev main_c_15 : Ref sig .tc := ⟨.hbm, 100, rfl⟩
abbrev main_v54 : Ref sig .tc := ⟨.hbm, 101, rfl⟩
abbrev main_v55 : Ref sig .tc := ⟨.hbm, 102, rfl⟩
abbrev main_c_16 : Ref sig .tc := ⟨.hbm, 103, rfl⟩
abbrev main_c_17 : Ref sig .tc := ⟨.hbm, 104, rfl⟩
abbrev main_call5_v0 : Ref sig .tc := ⟨.hbm, 105, rfl⟩
abbrev main_call5_v1 : Ref sig .tc := ⟨.hbm, 106, rfl⟩
abbrev main_call5_v2 : Ref sig .tc := ⟨.hbm, 107, rfl⟩
abbrev main_call5_v3 : Ref sig .tc := ⟨.hbm, 108, rfl⟩
abbrev main_call5_v4 : Ref sig .tc := ⟨.hbm, 109, rfl⟩
abbrev main_c_18 : Ref sig .tc := ⟨.hbm, 110, rfl⟩
abbrev main_v57 : Ref sig .tc := ⟨.hbm, 111, rfl⟩
abbrev main_c_19 : Ref sig .tc := ⟨.hbm, 112, rfl⟩
abbrev main_v58 : Ref sig .tc := ⟨.hbm, 113, rfl⟩
abbrev main_v59 : Ref sig .tc := ⟨.hbm, 114, rfl⟩
abbrev main_c_20 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_c_21 : Ref sig .tc := ⟨.hbm, 121, rfl⟩
abbrev main_v65 : Ref sig .tc := ⟨.hbm, 122, rfl⟩
abbrev main_v66 : Ref sig .tc := ⟨.hbm, 123, rfl⟩
abbrev main_c_22 : Ref sig .tc := ⟨.hbm, 124, rfl⟩
abbrev main_c_23 : Ref sig .tc := ⟨.hbm, 125, rfl⟩
abbrev main_call6_v0 : Ref sig .tc := ⟨.hbm, 126, rfl⟩
abbrev main_call6_v1 : Ref sig .tc := ⟨.hbm, 127, rfl⟩
abbrev main_call6_v2 : Ref sig .tc := ⟨.hbm, 128, rfl⟩
abbrev main_call6_v3 : Ref sig .tc := ⟨.hbm, 129, rfl⟩
abbrev main_call6_v4 : Ref sig .tc := ⟨.hbm, 130, rfl⟩
abbrev main_v67 : Ref sig .tc := ⟨.hbm, 131, rfl⟩
abbrev main_c_24 : Ref sig .tc := ⟨.hbm, 132, rfl⟩
abbrev main_v68 : Ref sig .tc := ⟨.hbm, 133, rfl⟩
abbrev main_v69 : Ref sig .tc := ⟨.hbm, 134, rfl⟩
abbrev main_c_25 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_cst : Ref sig .tc := ⟨.hbm, 142, rfl⟩
abbrev main_call7_v0 : Ref sig .tc := ⟨.hbm, 143, rfl⟩
abbrev main_call7_v1 : Ref sig .tc := ⟨.hbm, 144, rfl⟩
abbrev main_call7_v2 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_c_26 : Ref sig .tc := ⟨.hbm, 151, rfl⟩
abbrev main_v81 : Ref sig .tc := ⟨.hbm, 152, rfl⟩
abbrev main_v82 : Ref sig .tc := ⟨.hbm, 153, rfl⟩
abbrev main_c_27 : Ref sig .tc := ⟨.hbm, 154, rfl⟩
abbrev main_v83 : Ref sig .tc := ⟨.hbm, 155, rfl⟩
abbrev main_v84 : Ref sig .tc := ⟨.hbm, 156, rfl⟩
abbrev main_c_28 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_c_29 : Ref sig .tc := ⟨.hbm, 163, rfl⟩
abbrev main_v90 : Ref sig .tc := ⟨.hbm, 164, rfl⟩
abbrev main_v91 : Ref sig .tc := ⟨.hbm, 165, rfl⟩
abbrev main_c_30 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_c_31 : Ref sig .tc := ⟨.hbm, 172, rfl⟩
abbrev main_v97 : Ref sig .tc := ⟨.hbm, 173, rfl⟩
abbrev main_v98 : Ref sig .tc := ⟨.hbm, 174, rfl⟩
abbrev main_c_32 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v56 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![40], ![false]⟩

abbrev pre0 : Pipeline.Prefetch sig := ⟨1, ![main_v56.idx], fun | 0 => main_v56.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S8 : S_.BroadcastsInDim S8 (![] : Fin 0 → Fin S8.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bcast_S40_S40x1_0 : S40.BroadcastsInDim S40x1 (![0] : Fin 1 → Fin S40x1.rank)
  bcast_S8_S1x8_1 : S8.BroadcastsInDim S1x8 (![1] : Fin 1 → Fin S1x8.rank)
  bcast_S1x8_S40x8_0_1 : S1x8.BroadcastsInDim S40x8 (![0, 1] : Fin 2 → Fin S40x8.rank)
  bcast_S40x1_S40x8_0_1 : S40x1.BroadcastsInDim S40x8 (![0, 1] : Fin 2 → Fin S40x8.rank)
  natLt_1_32 : 1 < 32
  reducesTo_S40x8_S40_d1 : S40x8.ReducesTo [1] S40
  bcast_S_S40 : S_.BroadcastsInDim S40 (![] : Fin 0 → Fin S40.rank)
  bcast_S_S10240 : S_.BroadcastsInDim S10240 (![] : Fin 0 → Fin S10240.rank)
  bcast_S10240_S10240x1_0 : S10240.BroadcastsInDim S10240x1 (![0] : Fin 1 → Fin S10240x1.rank)
  bcast_S10240x1_S10240x1024_0_1 : S10240x1.BroadcastsInDim S10240x1024 (![0, 1] : Fin 2 → Fin S10240x1024.rank)
  bcast_S_S10240x1024 : S_.BroadcastsInDim S10240x1024 (![] : Fin 0 → Fin S10240x1024.rank)
  bitsLt_bf16_f32 : FTy.bits .bf16 < FTy.bits .f32
  numel1_S1 : S1.numel = 1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  inb_S8x4096_S8x4096_0_0 : ∀ a, (![0, 0] : Fin 2 → Nat) a + S8x4096.size a ≤ S8x4096.size a
  h_S8x4096 : 0 < S8x4096.numel
  iota_S8x4096_d0_w32 : S8x4096.Iotas .tc 32 [0]
  reduces_S8x4096_S4096 : S8x4096.Reduces [0] S4096
  inb_S8x1024_S8x1024_0_0 : ∀ a, (![0, 0] : Fin 2 → Nat) a + S8x1024.size a ≤ S8x1024.size a
  h_S8x1024 : 0 < S8x1024.numel
  iota_S8x1024_d0_w32 : S8x1024.Iotas .tc 32 [0]
  reduces_S8x1024_S1024 : S8x1024.Reduces [0] S1024
  shapeCasts_S4096_S1x4096 : S4096.ShapeCasts S1x4096
  broadcasts_S1x4096_S256x4096 : S1x4096.Broadcasts S256x4096
  shapeCasts_S1024_S1x1024 : S1024.ShapeCasts S1x1024
  broadcasts_S1x1024_S256x1024 : S1x1024.Broadcasts S256x1024
  scatter_S8_S8192x1_S8192_n_0_0_1_wf : ScatterDims.WF S8 S8192x1 S8192 [] [0] [0] 1
  gather_S8192_S8192x1_S8192_n_0_n_n_0_1_1_wf : GatherDims.WF S8192 S8192x1 S8192 [] [0] [] [0] [] 1 ![1]
  gather_S8_S8192x1_S8192_n_0_n_n_0_1_1_wf : GatherDims.WF S8 S8192x1 S8192 [] [0] [] [0] [] 1 ![1]
  scatter_S10240_S8192x1_S8192_n_0_0_1_wf : ScatterDims.WF S10240 S8192x1 S8192 [] [0] [0] 1
  gather_S8192x1024_S10240x1_S10240x1024_1_0_n_n_0_1_11024_wf : GatherDims.WF S8192x1024 S10240x1 S10240x1024 [1] [0] [] [0] [] 1 ![1, 1024]
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  scatter_S8192_S8192x1_S8192_n_0_0_1_wf : ScatterDims.WF S8192 S8192x1 S8192 [] [0] [0] 1
  gather_S10240x1024_S8192x1_S8192x1024_1_0_n_n_0_1_11024_wf : GatherDims.WF S10240x1024 S8192x1 S8192x1024 [1] [0] [] [0] [] 1 ![1, 1024]
  hrank0 : 0 < grid0.rank
  k0_off1_inb : ∀ i : grid0.Coords, ∀ a, (k0_off1 i) a + S1.size a ≤ S40.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S10240x1024.size a
  hwx0_0 : ∀ i : grid0.Coords, EltTy.bits .bf16 = 32 ∨ (Rect.block (s := S10240x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .f32 = 32 ∨ (Rect.block (s := S8x4096) S8x4096.size (cc0_transform_2 i) (hinb0_2 i)).WholeWords (EltTy.packing .f32)
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S8x1024.size a
  hwx0_4 : ∀ i : grid0.Coords, EltTy.bits .f32 = 32 ∨ (Rect.block (s := S8x1024) S8x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S10240x1024.size a
  hwx0_5 : ∀ i : grid0.Coords, EltTy.bits .f32 = 32 ∨ (Rect.block (s := S10240x1024) S256x1024.size (cc0_transform_5 i) (hinb0_5 i)).WholeWords (EltTy.packing .f32)

variable [Facts₀]

def scatter_S8_S8192x1_S8192_n_0_0_1 : ScatterDims S8 S8192x1 S8192 where
  updateWindowDims := []
  insertedWindowDims := [0]
  scatterDimsToOperandDims := [0]
  indexVectorDim := 1
  wf := scatter_S8_S8192x1_S8192_n_0_0_1_wf
def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def gather_S8_S8192x1_S8192_n_0_n_n_0_1_1 : GatherDims S8 S8192x1 S8192 where
  offsetDims := []
  collapsedSliceDims := [0]
  operandBatchingDims := []
  startIndicesBatchingDims := []
  startIndexMap := [0]
  indexVectorDim := 1
  sliceSizes := ![1]
  wf := gather_S8_S8192x1_S8192_n_0_n_n_0_1_1_wf
def scatter_S10240_S8192x1_S8192_n_0_0_1 : ScatterDims S10240 S8192x1 S8192 where
  updateWindowDims := []
  insertedWindowDims := [0]
  scatterDimsToOperandDims := [0]
  indexVectorDim := 1
  wf := scatter_S10240_S8192x1_S8192_n_0_0_1_wf
def gather_S8192x1024_S10240x1_S10240x1024_1_0_n_n_0_1_11024 : GatherDims S8192x1024 S10240x1 S10240x1024 where
  offsetDims := [1]
  collapsedSliceDims := [0]
  operandBatchingDims := []
  startIndicesBatchingDims := []
  startIndexMap := [0]
  indexVectorDim := 1
  sliceSizes := ![1, 1024]
  wf := gather_S8192x1024_S10240x1_S10240x1024_1_0_n_n_0_1_11024_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def scatter_S8192_S8192x1_S8192_n_0_0_1 : ScatterDims S8192 S8192x1 S8192 where
  updateWindowDims := []
  insertedWindowDims := [0]
  scatterDimsToOperandDims := [0]
  indexVectorDim := 1
  wf := scatter_S8192_S8192x1_S8192_n_0_0_1_wf
def gather_S10240x1024_S8192x1_S8192x1024_1_0_n_n_0_1_11024 : GatherDims S10240x1024 S8192x1 S8192x1024 where
  offsetDims := [1]
  collapsedSliceDims := [0]
  operandBatchingDims := []
  startIndicesBatchingDims := []
  startIndexMap := [0]
  indexVectorDim := 1
  sliceSizes := ![1, 1024]
  wf := gather_S10240x1024_S8192x1_S8192x1024_1_0_n_n_0_1_11024_wf

abbrev spec0_0 : Pipeline.WinSpec sig grid0.rank :=
  Pipeline.WinSpec.ofSpec (Memref.whole main_v77) S256x1024.size reads0_0 false false 2 stage0_0 sem0_0 nbuf0_0 hstage0_0

abbrev spec0_1 : Pipeline.WinSpec sig grid0.rank :=
  Pipeline.WinSpec.ofSpec (Memref.whole main_v78) S1x1024x4096.size reads0_1 false false 2 stage0_1 sem0_1 nbuf0_1 hstage0_1

abbrev spec0_2 : Pipeline.WinSpec sig grid0.rank :=
  Pipeline.WinSpec.ofSpec (Memref.whole main_arg3) S8x4096.size reads0_2 false true 1 stage0_2 sem0_2 nbuf0_2 hstage0_2

abbrev spec0_3 : Pipeline.WinSpec sig grid0.rank :=
  Pipeline.WinSpec.ofSpec (Memref.whole main_v79) S1x4096x1024.size reads0_3 false false 2 stage0_3 sem0_3 nbuf0_3 hstage0_3

abbrev spec0_4 : Pipeline.WinSpec sig grid0.rank :=
  Pipeline.WinSpec.ofSpec (Memref.whole main_arg5) S8x1024.size reads0_4 false true 1 stage0_4 sem0_4 nbuf0_4 hstage0_4

abbrev spec0_5 : Pipeline.WinSpec sig grid0.rank :=
  Pipeline.WinSpec.ofSpec (Memref.whole main_v80) S256x1024.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 k0_off1_inb numel1_S1 pf | 2 => cc0_transform_2 | 3 => cc0_transform_3 k0_off1_inb numel1_S1 pf | 4 => cc0_transform_4 | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | 3 => hreads0_3 pf | 4 => hreads0_4 | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1024x4096.size a ≤ S8x1024x4096.size a), EltTy.bits .bf16 = 32 ∨ (Rect.block (s := S8x1024x4096) S1x1024x4096.size (cc0_transform_1 k0_off1_inb numel1_S1 pf i) h).WholeWords (EltTy.packing .bf16)) ∧
  (∀ i : grid0.Coords, ∃ h : (∀ a, (cc0_transform_3 k0_off1_inb numel1_S1 pf i a + 1) * S1x4096x1024.size a ≤ S8x4096x1024.size a), EltTy.bits .bf16 = 32 ∨ (Rect.block (s := S8x4096x1024) S1x4096x1024.size (cc0_transform_3 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => hinb0_2 | 3 => fun i a => (hok.2 i).elim fun h _ => h a | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => hwx0_2 | 3 => fun i => (hok.2 i).elim fun _ h => h | 4 => hwx0_4 | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S8192x1024 : Shape := ⟨2, ![8192, 1024]⟩
abbrev S8192 : Shape := ⟨1, ![8192]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S_ : Shape := ⟨0, ![]⟩
abbrev S1x1024x4096 : Shape := ⟨3, ![1, 1024, 4096]⟩
abbrev S1024x4096 : Shape := ⟨2, ![1024, 4096]⟩
abbrev S8192x4096 : Shape := ⟨2, ![8192, 4096]⟩
abbrev S1x4096 : Shape := ⟨2, ![1, 4096]⟩
abbrev S4096 : Shape := ⟨1, ![4096]⟩
abbrev S1x4096x1024 : Shape := ⟨3, ![1, 4096, 1024]⟩
abbrev S4096x1024 : Shape := ⟨2, ![4096, 1024]⟩
abbrev S1x1024 : Shape := ⟨2, ![1, 1024]⟩
abbrev S1024 : Shape := ⟨1, ![1024]⟩
abbrev S8192x1 : Shape := ⟨2, ![8192, 1]⟩

abbrev nBuf : Space → Nat
  | .hbm => 208
  | .vmem => 0
  | .smem => 0
  | _ => 0

abbrev hbmTy0_0 (i : Nat) : BufTy := match i % 128 with
  | 0 => ⟨S8192x1024, .f32⟩
  | 1 => ⟨S8192, .i32⟩
  | 2 => ⟨S8x1024x4096, .f32⟩
  | 3 => ⟨S8x4096, .f32⟩
  | 4 => ⟨S8x4096x1024, .f32⟩
  | 5 => ⟨S8x1024, .f32⟩
  | 6 => ⟨S_, .f32⟩
  | 7 => ⟨S8192x1024, .f32⟩
  | 8 => ⟨S1x1024x4096, .f32⟩
  | 9 => ⟨S1024x4096, .f32⟩
  | 10 => ⟨S8192x4096, .f32⟩
  | 11 => ⟨S1x4096, .f32⟩
  | 12 => ⟨S4096, .f32⟩
  | 13 => ⟨S1x4096, .f32⟩
  | 14 => ⟨S8192x4096, .f32⟩
  | 15 => ⟨S8192x4096, .f32⟩
  | 16 => ⟨S_, .f32⟩
  | 17 => ⟨S8192x4096, .f32⟩
  | 18 => ⟨S8192x4096, .f32⟩
  | 19 => ⟨S1x4096x1024, .f32⟩
  | 20 => ⟨S4096x1024, .f32⟩
  | 21 => ⟨S8192x1024, .f32⟩
  | 22 => ⟨S1x1024, .f32⟩
  | 23 => ⟨S1024, .f32⟩
  | 24 => ⟨S1x1024, .f32⟩
  | 25 => ⟨S8192x1024, .f32⟩
  | 26 => ⟨S8192x1024, .f32⟩
  | 27 => ⟨S_, .i32⟩
  | 28 => ⟨S8192, .i32⟩
  | 29 => ⟨S8192, .i1⟩
  | 30 => ⟨S8192x1, .i1⟩
  | 31 => ⟨S8192x1024, .i1⟩
  | 32 => ⟨S8192x1024, .f32⟩
  | 33 => ⟨S1x1024x4096, .f32⟩
  | 34 => ⟨S1024x4096, .f32⟩
  | 35 => ⟨S8192x4096, .f32⟩
  | 36 => ⟨S1x4096, .f32⟩
  | 37 => ⟨S4096, .f32⟩
  | 38 => ⟨S1x4096, .f32⟩
  | 39 => ⟨S8192x4096, .f32⟩
  | 40 => ⟨S8192x4096, .f32⟩
  | 41 => ⟨S_, .f32⟩
  | 42 => ⟨S8192x4096, .f32⟩
  | 43 => ⟨S8192x4096, .f32⟩
  | 44 => ⟨S1x4096x1024, .f32⟩
  | 45 => ⟨S4096x1024, .f32⟩
  | 46 => ⟨S8192x1024, .f32⟩
  | 47 => ⟨S1x1024, .f32⟩
  | 48 => ⟨S1024, .f32⟩
  | 49 => ⟨S1x1024, .f32⟩
  | 50 => ⟨S8192x1024, .f32⟩
  | 51 => ⟨S8192x1024, .f32⟩
  | 52 => ⟨S_, .i32⟩
  | 53 => ⟨S8192, .i32⟩
  | 54 => ⟨S8192, .i1⟩
  | 55 => ⟨S8192x1, .i1⟩
  | 56 => ⟨S8192x1024, .i1⟩
  | 57 => ⟨S8192x1024, .f32⟩
  | 58 => ⟨S1x1024x4096, .f32⟩
  | 59 => ⟨S1024x4096, .f32⟩
  | 60 => ⟨S8192x4096, .f32⟩
  | 61 => ⟨S1x4096, .f32⟩
  | 62 => ⟨S4096, .f32⟩
  | 63 => ⟨S1x4096, .f32⟩
  | 64 => ⟨S8192x4096, .f32⟩
  | 65 => ⟨S8192x4096, .f32⟩
  | 66 => ⟨S_, .f32⟩
  | 67 => ⟨S8192x4096, .f32⟩
  | 68 => ⟨S8192x4096, .f32⟩
  | 69 => ⟨S1x4096x1024, .f32⟩
  | 70 => ⟨S4096x1024, .f32⟩
  | 71 => ⟨S8192x1024, .f32⟩
  | 72 => ⟨S1x1024, .f32⟩
  | 73 => ⟨S1024, .f32⟩
  | 74 => ⟨S1x1024, .f32⟩
  | 75 => ⟨S8192x1024, .f32⟩
  | 76 => ⟨S8192x1024, .f32⟩
  | 77 => ⟨S_, .i32⟩
  | 78 => ⟨S8192, .i32⟩
  | 79 => ⟨S8192, .i1⟩
  | 80 => ⟨S8192x1, .i1⟩
  | 81 => ⟨S8192x1024, .i1⟩
  | 82 => ⟨S8192x1024, .f32⟩
  | 83 => ⟨S1x1024x4096, .f32⟩
  | 84 => ⟨S1024x4096, .f32⟩
  | 85 => ⟨S8192x4096, .f32⟩
  | 86 => ⟨S1x4096, .f32⟩
  | 87 => ⟨S4096, .f32⟩
  | 88 => ⟨S1x4096, .f32⟩
  | 89 => ⟨S8192x4096, .f32⟩
  | 90 => ⟨S8192x4096, .f32⟩
  | 91 => ⟨S_, .f32⟩
  | 92 => ⟨S8192x4096, .f32⟩
  | 93 => ⟨S8192x4096, .f32⟩
  | 94 => ⟨S1x4096x1024, .f32⟩
  | 95 => ⟨S4096x1024, .f32⟩
  | 96 => ⟨S8192x1024, .f32⟩
  | 97 => ⟨S1x1024, .f32⟩
  | 98 => ⟨S1024, .f32⟩
  | 99 => ⟨S1x1024, .f32⟩
  | 100 => ⟨S8192x1024, .f32⟩
  | 101 => ⟨S8192x1024, .f32⟩
  | 102 => ⟨S_, .i32⟩
  | 103 => ⟨S8192, .i32⟩
  | 104 => ⟨S8192, .i1⟩
  | 105 => ⟨S8192x1, .i1⟩
  | 106 => ⟨S8192x1024, .i1⟩
  | 107 => ⟨S8192x1024, .f32⟩
  | 108 => ⟨S1x1024x4096, .f32⟩
  | 109 => ⟨S1024x4096, .f32⟩
  | 110 => ⟨S8192x4096, .f32⟩
  | 111 => ⟨S1x4096, .f32⟩
  | 112 => ⟨S4096, .f32⟩
  | 113 => ⟨S1x4096, .f32⟩
  | 114 => ⟨S8192x4096, .f32⟩
  | 115 => ⟨S8192x4096, .f32⟩
  | 116 => ⟨S_, .f32⟩
  | 117 => ⟨S8192x4096, .f32⟩
  | 118 => ⟨S8192x4096, .f32⟩
  | 119 => ⟨S1x4096x1024, .f32⟩
  | 120 => ⟨S4096x1024, .f32⟩
  | 121 => ⟨S8192x1024, .f32⟩
  | 122 => ⟨S1x1024, .f32⟩
  | 123 => ⟨S1024, .f32⟩
  | 124 => ⟨S1x1024, .f32⟩
  | 125 => ⟨S8192x1024, .f32⟩
  | 126 => ⟨S8192x1024, .f32⟩
  | 127 => ⟨S_, .i32⟩
  | _ => ⟨S8192x1024, .f32⟩

abbrev hbmTy0_1 (i : Nat) : BufTy := match i % 128 with
  | 0 => ⟨S8192, .i32⟩
  | 1 => ⟨S8192, .i1⟩
  | 2 => ⟨S8192x1, .i1⟩
  | 3 => ⟨S8192x1024, .i1⟩
  | 4 => ⟨S8192x1024, .f32⟩
  | 5 => ⟨S1x1024x4096, .f32⟩
  | 6 => ⟨S1024x4096, .f32⟩
  | 7 => ⟨S8192x4096, .f32⟩
  | 8 => ⟨S1x4096, .f32⟩
  | 9 => ⟨S4096, .f32⟩
  | 10 => ⟨S1x4096, .f32⟩
  | 11 => ⟨S8192x4096, .f32⟩
  | 12 => ⟨S8192x4096, .f32⟩
  | 13 => ⟨S_, .f32⟩
  | 14 => ⟨S8192x4096, .f32⟩
  | 15 => ⟨S8192x4096, .f32⟩
  | 16 => ⟨S1x4096x1024, .f32⟩
  | 17 => ⟨S4096x1024, .f32⟩
  | 18 => ⟨S8192x1024, .f32⟩
  | 19 => ⟨S1x1024, .f32⟩
  | 20 => ⟨S1024, .f32⟩
  | 21 => ⟨S1x1024, .f32⟩
  | 22 => ⟨S8192x1024, .f32⟩
  | 23 => ⟨S8192x1024, .f32⟩
  | 24 => ⟨S_, .i32⟩
  | 25 => ⟨S8192, .i32⟩
  | 26 => ⟨S8192, .i1⟩
  | 27 => ⟨S8192x1, .i1⟩
  | 28 => ⟨S8192x1024, .i1⟩
  | 29 => ⟨S8192x1024, .f32⟩
  | 30 => ⟨S1x1024x4096, .f32⟩
  | 31 => ⟨S1024x4096, .f32⟩
  | 32 => ⟨S8192x4096, .f32⟩
  | 33 => ⟨S1x4096, .f32⟩
  | 34 => ⟨S4096, .f32⟩
  | 35 => ⟨S1x4096, .f32⟩
  | 36 => ⟨S8192x4096, .f32⟩
  | 37 => ⟨S8192x4096, .f32⟩
  | 38 => ⟨S_, .f32⟩
  | 39 => ⟨S8192x4096, .f32⟩
  | 40 => ⟨S8192x4096, .f32⟩
  | 41 => ⟨S1x4096x1024, .f32⟩
  | 42 => ⟨S4096x1024, .f32⟩
  | 43 => ⟨S8192x1024, .f32⟩
  | 44 => ⟨S1x1024, .f32⟩
  | 45 => ⟨S1024, .f32⟩
  | 46 => ⟨S1x1024, .f32⟩
  | 47 => ⟨S8192x1024, .f32⟩
  | 48 => ⟨S8192x1024, .f32⟩
  | 49 => ⟨S_, .i32⟩
  | 50 => ⟨S8192, .i32⟩
  | 51 => ⟨S8192, .i1⟩
  | 52 => ⟨S8192x1, .i1⟩
  | 53 => ⟨S8192x1024, .i1⟩
  | 54 => ⟨S8192x1024, .f32⟩
  | 55 => ⟨S1x1024x4096, .f32⟩
  | 56 => ⟨S1024x4096, .f32⟩
  | 57 => ⟨S8192x4096, .f32⟩
  | 58 => ⟨S1x4096, .f32⟩
  | 59 => ⟨S4096, .f32⟩
  | 60 => ⟨S1x4096, .f32⟩
  | 61 => ⟨S8192x4096, .f32⟩
  | 62 => ⟨S8192x4096, .f32⟩
  | 63 => ⟨S_, .f32⟩
  | 64 => ⟨S8192x4096, .f32⟩
  | 65 => ⟨S8192x4096, .f32⟩
  | 66 => ⟨S1x4096x1024, .f32⟩
  | 67 => ⟨S4096x1024, .f32⟩
  | 68 => ⟨S8192x1024, .f32⟩
  | 69 => ⟨S1x1024, .f32⟩
  | 70 => ⟨S1024, .f32⟩
  | 71 => ⟨S1x1024, .f32⟩
  | 72 => ⟨S8192x1024, .f32⟩
  | 73 => ⟨S8192x1024, .f32⟩
  | 74 => ⟨S_, .i32⟩
  | 75 => ⟨S8192, .i32⟩
  | 76 => ⟨S8192, .i1⟩
  | 77 => ⟨S8192x1, .i1⟩
  | 78 => ⟨S8192x1024, .i1⟩
  | 79 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_cst : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call1_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call2_cst : Ref sig .tc := ⟨.hbm, 41, rfl⟩
abbrev main_call2_v0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_0 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call3_v0 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_call4_cst : Ref sig .tc := ⟨.hbm, 66, rfl⟩
abbrev main_call4_v0 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_1 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_call5_v0 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_call6_cst : Ref sig .tc := ⟨.hbm, 91, rfl⟩
abbrev main_call6_v0 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_c_2 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_call7_v0 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_call8_cst : Ref sig .tc := ⟨.hbm, 116, rfl⟩
abbrev main_call8_v0 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_c_3 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_call9_v0 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_call10_cst : Ref sig .tc := ⟨.hbm, 141, rfl⟩
abbrev main_call10_v0 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_c_4 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_call11_v0 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_call12_cst : Ref sig .tc := ⟨.hbm, 166, rfl⟩
abbrev main_call12_v0 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_c_5 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_call13_v0 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_call14_cst : Ref sig .tc := ⟨.hbm, 191, rfl⟩
abbrev main_call14_v0 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_c_6 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_call15_v0 : Ref sig .tc := ⟨.hbm, 206, rfl⟩
abbrev main_v168 : Ref sig .tc := ⟨.hbm, 207, rfl⟩

abbrev nD : Nat := 1
abbrev τ : Topo := Topo.v7x

variable {F : FTy → Type} [FloatOps F]

class Facts₀ : Prop where
  bcast_S_S8192x1024 : S_.BroadcastsInDim S8192x1024 (![] : Fin 0 → Fin S8192x1024.rank)
  slices_S8x1024x4096_S1x1024x4096_0_0_0 : S8x1024x4096.Slices ![0, 0, 0] S1x1024x4096
  shapeCasts_S1x1024x4096_S1024x4096 : S1x1024x4096.ShapeCasts S1024x4096
  slices_S8x4096_S1x4096_0_0 : S8x4096.Slices ![0, 0] S1x4096
  shapeCasts_S1x4096_S4096 : S1x4096.ShapeCasts S4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  slices_S8x4096x1024_S1x4096x1024_0_0_0 : S8x4096x1024.Slices ![0, 0, 0] S1x4096x1024
  shapeCasts_S1x4096x1024_S4096x1024 : S1x4096x1024.ShapeCasts S4096x1024
  slices_S8x1024_S1x1024_0_0 : S8x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  slices_S8x1024x4096_S1x1024x4096_1_0_0 : S8x1024x4096.Slices ![1, 0, 0] S1x1024x4096
  slices_S8x4096_S1x4096_1_0 : S8x4096.Slices ![1, 0] S1x4096
  slices_S8x4096x1024_S1x4096x1024_1_0_0 : S8x4096x1024.Slices ![1, 0, 0] S1x4096x1024
  slices_S8x1024_S1x1024_1_0 : S8x1024.Slices ![1, 0] S1x1024
  slices_S8x1024x4096_S1x1024x4096_2_0_0 : S8x1024x4096.Slices ![2, 0, 0] S1x1024x4096
  slices_S8x4096_S1x4096_2_0 : S8x4096.Slices ![2, 0] S1x4096
  slices_S8x4096x1024_S1x4096x1024_2_0_0 : S8x4096x1024.Slices ![2, 0, 0] S1x4096x1024
  slices_S8x1024_S1x1024_2_0 : S8x1024.Slices ![2, 0] S1x1024
  slices_S8x1024x4096_S1x1024x4096_3_0_0 : S8x1024x4096.Slices ![3, 0, 0] S1x1024x4096
  slices_S8x4096_S1x4096_3_0 : S8x4096.Slices ![3, 0] S1x4096
  slices_S8x4096x1024_S1x4096x1024_3_0_0 : S8x4096x1024.Slices ![3, 0, 0] S1x4096x1024
  slices_S8x1024_S1x1024_3_0 : S8x1024.Slices ![3, 0] S1x1024
  slices_S8x1024x4096_S1x1024x4096_4_0_0 : S8x1024x4096.Slices ![4, 0, 0] S1x1024x4096
  slices_S8x4096_S1x4096_4_0 : S8x4096.Slices ![4, 0] S1x4096
  slices_S8x4096x1024_S1x4096x1024_4_0_0 : S8x4096x1024.Slices ![4, 0, 0] S1x4096x1024
  slices_S8x1024_S1x1024_4_0 : S8x1024.Slices ![4, 0] S1x1024
  slices_S8x1024x4096_S1x1024x4096_5_0_0 : S8x1024x4096.Slices ![5, 0, 0] S1x1024x4096
  slices_S8x4096_S1x4096_5_0 : S8x4096.Slices ![5, 0] S1x4096
  slices_S8x4096x1024_S1x4096x1024_5_0_0 : S8x4096x1024.Slices ![5, 0, 0] S1x4096x1024
  slices_S8x1024_S1x1024_5_0 : S8x1024.Slices ![5, 0] S1x1024
  slices_S8x1024x4096_S1x1024x4096_6_0_0 : S8x1024x4096.Slices ![6, 0, 0] S1x1024x4096
  slices_S8x4096_S1x4096_6_0 : S8x4096.Slices ![6, 0] S1x4096
  slices_S8x4096x1024_S1x4096x1024_6_0_0 : S8x4096x1024.Slices ![6, 0, 0] S1x4096x1024
  slices_S8x1024_S1x1024_6_0 : S8x1024.Slices ![6, 0] S1x1024
  slices_S8x1024x4096_S1x1024x4096_7_0_0 : S8x1024x4096.Slices ![7, 0, 0] S1x1024x4096
  slices_S8x4096_S1x4096_7_0 : S8x4096.Slices ![7, 0] S1x4096
  slices_S8x4096x1024_S1x4096x1024_7_0_0 : S8x4096x1024.Slices ![7, 0, 0] S1x4096x1024
  slices_S8x1024_S1x1024_7_0 : S8x1024.Slices ![7, 0] S1x1024
  dot_S8192x1024_S1024x4096_S8192x4096_1_0_0_1_n_n_wf : DotDims.WF S8192x1024 S1024x4096 S8192x4096 [1] [0] [0] [1] [] []
  dot_S8192x4096_S4096x1024_S8192x1024_1_0_0_1_n_n_wf : DotDims.WF S8192x4096 S4096x1024 S8192x1024 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.PreNote.lean ====
/-
  What the precondition says about the expert words: it is a conjunction of "all" statements, the last two of which are
  `0 ≤ note i` and `note i < 8` for every row `i`, compared as signed words. A signed word that is at least 0 and less
  than 8 is, read as a natural number, less than 8.
-/
import proofs.«419510_j63247688401701_3_alg».proof.Pre_finite_inputs
import Idealize.ShloMosaic.Lib.ReduceAll
import Idealize.ShloMosaic.Lib.StableHlo.Predicate
import Idealize.ShloMosaic.Lib.ValueIdx

noncomputable section

namespace Cert.PreNote

open Idealize.ShloMosaic Cert.Pre_finite_inputs Cert.Pre_finite_inputs.Facts

variable {F : FTy → Type} [FloatOps F] [Cert.Pre_finite_inputs.Facts]

/-- A rank-zero array has one index. -/
instance : Subsingleton S_.Idx := ⟨fun a b => funext fun d => d.elim0⟩

/-- Under the precondition every expert word, read as a natural number, is less than 8: the conjunction splits into its
    last two conjuncts, each an "all" over the rows, which hold at row `i`; there they say `0 ≤ w` and `w < 8` of the
    signed word `w`. -/
theorem note_range (a0 : FVec F S8192x1024 .f32) (a1 : IVec S8192 32) (a2 : FVec F S8x1024x4096 .f32) (a3 : FVec F S8x4096 .f32)
    (a4 : FVec F S8x4096x1024 .f32) (a5 : FVec F S8x1024 .f32)
    (h : fn (F := F) a0 a1 a2 a3 a4 a5 = fun _ => 1#1) (i : Fin 8192) : (a1 (Shape.Idx.ofFin i)).toNat < 8 := by
  have h0 := congrFun h ValueIdx.ix0
  dsimp only [fn, fn_part1] at h0
  obtain ⟨h27, h30⟩ := IntOp.andi_eq_one.mp h0
  obtain ⟨_, h26⟩ := IntOp.andi_eq_one.mp h27
  have g26 := Host.reduce_andi_all _ _ _ _ _ h26 (Shape.Idx.ofFin i)
  have g30 := Host.reduce_andi_all _ _ _ _ _ h30 (Shape.Idx.ofFin i)
  have e26 : IntOp.cmpi .sge (a1 (Shape.Idx.ofFin i)) (0#32) = 1#1 := g26
  have e30 : IntOp.cmpi .slt (a1 (Shape.Idx.ofFin i)) (8#32) = 1#1 := g30
  simp only [IntOp.cmpi, BitVec.slt, BitVec.sle, StableHlo.Predicate.ofBool_eq_one_iff, decide_eq_true_eq] at e26 e30
  have h8 : (8#32 : BitVec 32).toInt = 8 := by decide
  have h00 : (0#32 : BitVec 32).toInt = 0 := by decide
  rw [h8] at e30; rw [h00] at e26
  have hc := BitVec.toInt_eq_toNat_cond (a1 (Shape.Idx.ofFin i))
  split at hc <;> omega

end Cert.PreNote

end
-- ==== Proof.OkKernel.lean ====
/-
  The pipeline's side condition on the prefetched table, from the program text alone.

  The kernel's W1 and W2 windows are indexed by the table word of the grid point: block (word, 0, 0) of an array of
  8 experts. The side condition asks that each such block lie inside its array and that the transfer ends be whole words.
  The first holds when every table word is below 8 (unsigned); the second because each block takes every row of its
  slab (offset 0 and full extent on the row axis), whatever the word.

  The table is the result of a clip: the elementwise signed minimum of 7 with the signed maximum of 0 and the unclipped
  words. A word min 7 (max 0 y) lies in [0, 7] signed for EVERY y, so it is below 8 unsigned: no precondition on the
  inputs is needed. The unclipped words are never looked at: they stay a variable throughout.
-/
import proofs.«419510_j63247688401701_3_alg».proof.Proof.Gen.Kernel.Frame
import Idealize.ShloMosaic.Lib.SortFacts

set_option maxRecDepth 16384

noncomputable section

namespace Cert.Kernel.OkProof

open Cert.Kernel Cert.Kernel.Gen
open Idealize.ShloMosaic Idealize.ShloMosaic.TcCoe Idealize.SL.Sem

variable {F : FTy → Type} [FloatOps F]

/-! ## The scalar fact -/

/-- A word clipped to [0, 7] signed is below 8 unsigned, whatever the word was. -/
theorem clip_lt (y : BitVec 32) : (IntOp.minsi (7#32) (IntOp.maxsi (0#32) y)).toNat < 8 := by
  unfold IntOp.minsi IntOp.maxsi
  have h0 : (0#32 : BitVec 32).toInt = 0 := by decide
  have h7 : (7#32 : BitVec 32).toInt = 7 := by decide
  have hy := y.isLt
  by_cases hneg : y.slt (0#32) = true
  · rw [if_pos hneg]
    have : ¬ ((7#32 : BitVec 32).slt (0#32) = true) := by decide
    rw [if_neg this]; decide
  · rw [if_neg hneg]
    by_cases hbig : (7#32 : BitVec 32).slt y = true
    · rw [if_pos hbig]; decide
    · rw [if_neg hbig]
      simp only [BitVec.slt, decide_eq_true_eq, h0, h7] at hneg hbig
      unfold BitVec.toInt at hneg hbig
      split at hneg <;> omega

/-! ## The side condition, for ANY table contents whose words are below 8 -/

set_option maxHeartbeats 400000 in
/-- With every table word below 8, block (word, 0, 0) of sizes [1, 1024, 4096] lies inside [8, 1024, 4096] and block
    (word, 0, 0) of sizes [1, 4096, 1024] inside [8, 4096, 1024]; each starts at row 0 and takes all rows of its slab. -/
theorem ok0_of_lt (pf : pre0.Contents (Elt F)) (h : ∀ x, (pf 0 x).toNat < 8) : ok0 pf := by
  refine ⟨fun i => ?_, fun i => ?_⟩
  · obtain ⟨w, hw, e⟩ : ∃ w : BitVec 32, w.toNat < 8 ∧ cc0_transform_1 k0_off1_inb numel1_S1 pf i = ![w.toNat, 0, 0] :=
      ⟨_, h _, rfl⟩
    have hin : ∀ a, (cc0_transform_1 k0_off1_inb numel1_S1 pf i a + 1) * S1x1024x4096.size a ≤ S8x1024x4096.size a := by
      intro a; rw [e]
      fin_cases a <;> simp [S1x1024x4096, S8x1024x4096] <;> omega
    refine ⟨hin, Or.inr (Or.inr ⟨by decide, rfl, ?_, rfl⟩)⟩
    show cc0_transform_1 k0_off1_inb numel1_S1 pf i _ * _ = 0
    rw [e]; rfl
  · obtain ⟨w, hw, e⟩ : ∃ w : BitVec 32, w.toNat < 8 ∧ cc0_transform_3 k0_off1_inb numel1_S1 pf i = ![w.toNat, 0, 0] :=
      ⟨_, h _, rfl⟩
    have hin : ∀ a, (cc0_transform_3 k0_off1_inb numel1_S1 pf i a + 1) * S1x4096x1024.size a ≤ S8x4096x1024.size a := by
      intro a; rw [e]
      fin_cases a <;> simp [S1x4096x1024, S8x4096x1024] <;> omega
    refine ⟨hin, Or.inr (Or.inr ⟨by decide, rfl, ?_, rfl⟩)⟩
    show cc0_transform_3 k0_off1_inb numel1_S1 pf i _ * _ = 0
    rw [e]; rfl

/-! ## The table's contents: a clip of words that stay unknown -/

/-- Running two lines of host operations one after the other is running their concatenation. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

set_option maxHeartbeats 400000 in
/-- The clip's six operations, from any contents V: the table is (the upper bound, broadcast) min ((the lower bound,
    broadcast) max the unclipped words), with the bounds and the words as V holds them. -/
theorem clip_line (V : Valuation τ sig (Elt F)) :
    (StableHlo.after (hostOps0_10 (F := F)) V (Proc.devRef .tc main_v56) : (⟨S40, .i32⟩ : BufTy).Contents (Elt F))
      = minsi (broadcastInDim S40 ![] bcast_S_S40 (V (Proc.devRef .tc main_c_17) : (⟨S_, .i32⟩ : BufTy).Contents (Elt F)))
          (maxsi (broadcastInDim S40 ![] bcast_S_S40 (V (Proc.devRef .tc main_c_16) : (⟨S_, .i32⟩ : BufTy).Contents (Elt F)))
            (V (Proc.devRef .tc main_v55) : (⟨S40, .i32⟩ : BufTy).Contents (Elt F))) := by
  simp only [hostOps0_10]
  open StableHlo in after_results
  rfl

set_option maxHeartbeats 1000000 in
/-- The line before the clip ends by writing the two bounds: the constants 0 and 7. -/
theorem bounds_line (V : Valuation τ sig (Elt F)) :
    (StableHlo.after (hostOps0_9 (F := F)) V (Proc.devRef .tc main_c_17) : (⟨S_, .i32⟩ : BufTy).Contents (Elt F)) = constantI S_ 32 7#32
    ∧ (StableHlo.after (hostOps0_9 (F := F)) V (Proc.devRef .tc main_c_16) : (⟨S_, .i32⟩ : BufTy).Contents (Elt F)) = constantI S_ 32 0#32 := by
  constructor
  · simp only [hostOps0_9]
    open StableHlo in after_results
  · simp only [hostOps0_9]
    open StableHlo in after_results

/-- No operation of this line writes the table. -/
theorem tail11 (V : Valuation τ sig (Elt F)) :
    StableHlo.after (hostOps0_11 (F := F)) V (Proc.devRef .tc main_v56) = V (Proc.devRef .tc main_v56) :=
  StableHlo.after_of_forall_not_mem (b := Proc.devRef .tc main_v56) _ _ (List.forall_iff_forall_mem.mp (by
    simp only [hostOps0_11, List.Forall, StableHlo.nullary_writes, StableHlo.unary_writes, StableHlo.binary_writes,
      StableHlo.ternary_writes, StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

/-- No operation of this line writes the table. -/
theorem tail12 (V : Valuation τ sig (Elt F)) :
    StableHlo.after (hostOps0_12 (F := F)) V (Proc.devRef .tc main_v56) = V (Proc.devRef .tc main_v56) :=
  StableHlo.after_of_forall_not_mem (b := Proc.devRef .tc main_v56) _ _ (List.forall_iff_forall_mem.mp (by
    simp only [hostOps0_12, List.Forall, StableHlo.nullary_writes, StableHlo.unary_writes, StableHlo.binary_writes,
      StableHlo.ternary_writes, StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

/-- No operation of this line writes the table. -/
theorem tail13 (V : Valuation τ sig (Elt F)) :
    StableHlo.after (hostOps0_13 (F := F)) V (Proc.devRef .tc main_v56) = V (Proc.devRef .tc main_v56) :=
  StableHlo.after_of_forall_not_mem (b := Proc.devRef .tc main_v56) _ _ (List.forall_iff_forall_mem.mp (by
    simp only [hostOps0_13, List.Forall, StableHlo.nullary_writes, StableHlo.unary_writes, StableHlo.binary_writes,
      StableHlo.ternary_writes, StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

/-- No operation of this line writes the table. -/
theorem tail14 (V : Valuation τ sig (Elt F)) :
    StableHlo.after (hostOps0_14 (F := F)) V (Proc.devRef .tc main_v56) = V (Proc.devRef .tc main_v56) :=
  StableHlo.after_of_forall_not_mem (b := Proc.devRef .tc main_v56) _ _ (List.forall_iff_forall_mem.mp (by
    simp only [hostOps0_14, List.Forall, StableHlo.nullary_writes, StableHlo.unary_writes, StableHlo.binary_writes,
      StableHlo.ternary_writes, StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

/-- No operation of this line writes the table. -/
theorem tail15 (V : Valuation τ sig (Elt F)) :
    StableHlo.after (hostOps0_15 (F := F)) V (Proc.devRef .tc main_v56) = V (Proc.devRef .tc main_v56) :=
  StableHlo.after_of_forall_not_mem (b := Proc.devRef .tc main_v56) _ _ (List.forall_iff_forall_mem.mp (by
    simp only [hostOps0_15, List.Forall, StableHlo.nullary_writes, StableHlo.unary_writes, StableHlo.binary_writes,
      StableHlo.ternary_writes, StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

/-! ## The table of this program -/

variable (m : (ℓ : Loc nD τ sig) → Buf (Elt F) ℓ)

set_option maxHeartbeats 1000000 in
/-- The table the region reads is the clip to [0, 7] of SOME words Y (what the lines before the clip left as the
    unclipped words; nothing is said of them). The lines after the clip do not write the table; the clip's line gives
    its form; the line before it gives the two bounds. -/
theorem tbl_form : ∃ Y : (⟨S40, .i32⟩ : BufTy).Contents (Elt F),
    (tbl m 0 : (⟨S40, .i32⟩ : BufTy).Contents (Elt F))
      = minsi (broadcastInDim S40 ![] bcast_S_S40 (constantI S_ 32 7#32))
          (maxsi (broadcastInDim S40 ![] bcast_S_S40 (constantI S_ 32 0#32)) Y) := by
  exact ⟨_, by
    unfold tbl
    show V m 0 main_v56 = _
    unfold V V0
    simp only [List.flatten_cons, List.flatten_nil, List.append_nil, after_append]
    rw [tail15, tail14, tail13, tail12, tail11, clip_line, (bounds_line _).1, (bounds_line _).2]⟩

/-- Every word of the table is below 8. -/
theorem tbl_lt_idx (x : S40.Idx) : ((tbl m 0 : (⟨S40, .i32⟩ : BufTy).Contents (Elt F)) x).toNat < 8 := by
  obtain ⟨Y, e⟩ := tbl_form m
  rw [congrFun e x]
  exact clip_lt (Y x)

/-- The table word at position b is below 8. -/
theorem tbl_lt (b : Fin 40) : ((tbl m 0) (Shape.Idx.ofFin b)).toNat < 8 := tbl_lt_idx m (Shape.Idx.ofFin b)

/-- The pipeline's side condition holds of this program's table, for every launch memory. -/
theorem ok : Ok (F := F) m := ok0_of_lt (tbl m) (tbl_lt_idx m)

end Cert.Kernel.OkProof
end
-- ==== Proof.OkKernelIdeal.lean ====
/-
  The pipeline's side condition on the prefetched table, from the program text alone.

  The kernel's W1 and W2 windows are indexed by the table word of the grid point: block (word, 0, 0) of an array of
  8 experts. The side condition asks that each such block lie inside its array and that the transfer ends be whole words.
  The first holds when every table word is below 8 (unsigned); the second because each block takes every row of its
  slab (offset 0 and full extent on the row axis), whatever the word.

  The table is the result of a clip: the elementwise signed minimum of 7 with the signed maximum of 0 and the unclipped
  words. A word min 7 (max 0 y) lies in [0, 7] signed for EVERY y, so it is below 8 unsigned: no precondition on the
  inputs is needed. The unclipped words are never looked at: they stay a variable throughout.
-/
import proofs.«419510_j63247688401701_3_alg».proof.Proof.Gen.KernelIdeal.Frame
import Idealize.ShloMosaic.Lib.SortFacts

set_option maxRecDepth 16384

noncomputable section

namespace Cert.KernelIdeal.OkProof

open Cert.KernelIdeal Cert.KernelIdeal.Gen
open Idealize.ShloMosaic Idealize.ShloMosaic.TcCoe Idealize.SL.Sem

variable {F : FTy → Type} [FloatOps F]

/-! ## The scalar fact -/

/-- A word clipped to [0, 7] signed is below 8 unsigned, whatever the word was. -/
theorem clip_lt (y : BitVec 32) : (IntOp.minsi (7#32) (IntOp.maxsi (0#32) y)).toNat < 8 := by
  unfold IntOp.minsi IntOp.maxsi
  have h0 : (0#32 : BitVec 32).toInt = 0 := by decide
  have h7 : (7#32 : BitVec 32).toInt = 7 := by decide
  have hy := y.isLt
  by_cases hneg : y.slt (0#32) = true
  · rw [if_pos hneg]
    have : ¬ ((7#32 : BitVec 32).slt (0#32) = true) := by decide
    rw [if_neg this]; decide
  · rw [if_neg hneg]
    by_cases hbig : (7#32 : BitVec 32).slt y = true
    · rw [if_pos hbig]; decide
    · rw [if_neg hbig]
      simp only [BitVec.slt, decide_eq_true_eq, h0, h7] at hneg hbig
      unfold BitVec.toInt at hneg hbig
      split at hneg <;> omega

/-! ## The side condition, for ANY table contents whose words are below 8 -/

set_option maxHeartbeats 400000 in
/-- With every table word below 8, block (word, 0, 0) of sizes [1, 1024, 4096] lies inside [8, 1024, 4096] and block
    (word, 0, 0) of sizes [1, 4096, 1024] inside [8, 4096, 1024]; each starts at row 0 and takes all rows of its slab. -/
theorem ok0_of_lt (pf : pre0.Contents (Elt F)) (h : ∀ x, (pf 0 x).toNat < 8) : ok0 pf := by
  refine ⟨fun i => ?_, fun i => ?_⟩
  · obtain ⟨w, hw, e⟩ : ∃ w : BitVec 32, w.toNat < 8 ∧ cc0_transform_1 k0_off1_inb numel1_S1 pf i = ![w.toNat, 0, 0] :=
      ⟨_, h _, rfl⟩
    have hin : ∀ a, (cc0_transform_1 k0_off1_inb numel1_S1 pf i a + 1) * S1x1024x4096.size a ≤ S8x1024x4096.size a := by
      intro a; rw [e]
      fin_cases a <;> simp [S1x1024x4096, S8x1024x4096] <;> omega
    refine ⟨hin, Or.inr (Or.inr ⟨by decide, rfl, ?_, rfl⟩)⟩
    show cc0_transform_1 k0_off1_inb numel1_S1 pf i _ * _ = 0
    rw [e]; rfl
  · obtain ⟨w, hw, e⟩ : ∃ w : BitVec 32, w.toNat < 8 ∧ cc0_transform_3 k0_off1_inb numel1_S1 pf i = ![w.toNat, 0, 0] :=
      ⟨_, h _, rfl⟩
    have hin : ∀ a, (cc0_transform_3 k0_off1_inb numel1_S1 pf i a + 1) * S1x4096x1024.size a ≤ S8x4096x1024.size a := by
      intro a; rw [e]
      fin_cases a <;> simp [S1x4096x1024, S8x4096x1024] <;> omega
    refine ⟨hin, Or.inr (Or.inr ⟨by decide, rfl, ?_, rfl⟩)⟩
    show cc0_transform_3 k0_off1_inb numel1_S1 pf i _ * _ = 0
    rw [e]; rfl

/-! ## The table's contents: a clip of words that stay unknown -/

/-- Running two lines of host operations one after the other is running their concatenation. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

set_option maxHeartbeats 400000 in
/-- The clip's six operations, from any contents V: the table is (the upper bound, broadcast) min ((the lower bound,
    broadcast) max the unclipped words), with the bounds and the words as V holds them. -/
theorem clip_line (V : Valuation τ sig (Elt F)) :
    (StableHlo.after (hostOps0_10 (F := F)) V (Proc.devRef .tc main_v56) : (⟨S40, .i32⟩ : BufTy).Contents (Elt F))
      = minsi (broadcastInDim S40 ![] bcast_S_S40 (V (Proc.devRef .tc main_c_17) : (⟨S_, .i32⟩ : BufTy).Contents (Elt F)))
          (maxsi (broadcastInDim S40 ![] bcast_S_S40 (V (Proc.devRef .tc main_c_16) : (⟨S_, .i32⟩ : BufTy).Contents (Elt F)))
            (V (Proc.devRef .tc main_v55) : (⟨S40, .i32⟩ : BufTy).Contents (Elt F))) := by
  simp only [hostOps0_10]
  open StableHlo in after_results
  rfl

set_option maxHeartbeats 1000000 in
/-- The line before the clip ends by writing the two bounds: the constants 0 and 7. -/
theorem bounds_line (V : Valuation τ sig (Elt F)) :
    (StableHlo.after (hostOps0_9 (F := F)) V (Proc.devRef .tc main_c_17) : (⟨S_, .i32⟩ : BufTy).Contents (Elt F)) = constantI S_ 32 7#32
    ∧ (StableHlo.after (hostOps0_9 (F := F)) V (Proc.devRef .tc main_c_16) : (⟨S_, .i32⟩ : BufTy).Contents (Elt F)) = constantI S_ 32 0#32 := by
  constructor
  · simp only [hostOps0_9]
    open StableHlo in after_results
  · simp only [hostOps0_9]
    open StableHlo in after_results

/-- No operation of this line writes the table. -/
theorem tail11 (V : Valuation τ sig (Elt F)) :
    StableHlo.after (hostOps0_11 (F := F)) V (Proc.devRef .tc main_v56) = V (Proc.devRef .tc main_v56) :=
  StableHlo.after_of_forall_not_mem (b := Proc.devRef .tc main_v56) _ _ (List.forall_iff_forall_mem.mp (by
    simp only [hostOps0_11, List.Forall, StableHlo.nullary_writes, StableHlo.unary_writes, StableHlo.binary_writes,
      StableHlo.ternary_writes, StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

/-- No operation of this line writes the table. -/
theorem tail12 (V : Valuation τ sig (Elt F)) :
    StableHlo.after (hostOps0_12 (F := F)) V (Proc.devRef .tc main_v56) = V (Proc.devRef .tc main_v56) :=
  StableHlo.after_of_forall_not_mem (b := Proc.devRef .tc main_v56) _ _ (List.forall_iff_forall_mem.mp (by
    simp only [hostOps0_12, List.Forall, StableHlo.nullary_writes, StableHlo.unary_writes, StableHlo.binary_writes,
      StableHlo.ternary_writes, StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

/-- No operation of this line writes the table. -/
theorem tail13 (V : Valuation τ sig (Elt F)) :
    StableHlo.after (hostOps0_13 (F := F)) V (Proc.devRef .tc main_v56) = V (Proc.devRef .tc main_v56) :=
  StableHlo.after_of_forall_not_mem (b := Proc.devRef .tc main_v56) _ _ (List.forall_iff_forall_mem.mp (by
    simp only [hostOps0_13, List.Forall, StableHlo.nullary_writes, StableHlo.unary_writes, StableHlo.binary_writes,
      StableHlo.ternary_writes, StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

/-- No operation of this line writes the table. -/
theorem tail14 (V : Valuation τ sig (Elt F)) :
    StableHlo.after (hostOps0_14 (F := F)) V (Proc.devRef .tc main_v56) = V (Proc.devRef .tc main_v56) :=
  StableHlo.after_of_forall_not_mem (b := Proc.devRef .tc main_v56) _ _ (List.forall_iff_forall_mem.mp (by
    simp only [hostOps0_14, List.Forall, StableHlo.nullary_writes, StableHlo.unary_writes, StableHlo.binary_writes,
      StableHlo.ternary_writes, StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

/-- No operation of this line writes the table. -/
theorem tail15 (V : Valuation τ sig (Elt F)) :
    StableHlo.after (hostOps0_15 (F := F)) V (Proc.devRef .tc main_v56) = V (Proc.devRef .tc main_v56) :=
  StableHlo.after_of_forall_not_mem (b := Proc.devRef .tc main_v56) _ _ (List.forall_iff_forall_mem.mp (by
    simp only [hostOps0_15, List.Forall, StableHlo.nullary_writes, StableHlo.unary_writes, StableHlo.binary_writes,
      StableHlo.ternary_writes, StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

/-! ## The table of this program -/

variable (m : (ℓ : Loc nD τ sig) → Buf (Elt F) ℓ)

set_option maxHeartbeats 1000000 in
/-- The table the region reads is the clip to [0, 7] of SOME words Y (what the lines before the clip left as the
    unclipped words; nothing is said of them). The lines after the clip do not write the table; the clip's line gives
    its form; the line before it gives the two bounds. -/
theorem tbl_form : ∃ Y : (⟨S40, .i32⟩ : BufTy).Contents (Elt F),
    (tbl m 0 : (⟨S40, .i32⟩ : BufTy).Contents (Elt F))
      = minsi (broadcastInDim S40 ![] bcast_S_S40 (constantI S_ 32 7#32))
          (maxsi (broadcastInDim S40 ![] bcast_S_S40 (constantI S_ 32 0#32)) Y) := by
  exact ⟨_, by
    unfold tbl
    show V m 0 main_v56 = _
    unfold V V0
    simp only [List.flatten_cons, List.flatten_nil, List.append_nil, after_append]
    rw [tail15, tail14, tail13, tail12, tail11, clip_line, (bounds_line _).1, (bounds_line _).2]⟩

/-- Every word of the table is below 8. -/
theorem tbl_lt_idx (x : S40.Idx) : ((tbl m 0 : (⟨S40, .i32⟩ : BufTy).Contents (Elt F)) x).toNat < 8 := by
  obtain ⟨Y, e⟩ := tbl_form m
  rw [congrFun e x]
  exact clip_lt (Y x)

/-- The table word at position b is below 8. -/
theorem tbl_lt (b : Fin 40) : ((tbl m 0) (Shape.Idx.ofFin b)).toNat < 8 := tbl_lt_idx m (Shape.Idx.ofFin b)

/-- The pipeline's side condition holds of this program's table, for every launch memory. -/
theorem ok : Ok (F := F) m := ok0_of_lt (tbl m) (tbl_lt_idx m)

end Cert.KernelIdeal.OkProof
end
-- ==== Proof.Spec.lean ====
/-
  The function both programs compute, stated once over literal shapes and the extended reals.

  Row `r` of the result is the two-layer perceptron of the expert `e = note r` applied to row `r` of `x`:
  hidden unit `f` is `max (∑ k, x[r,k] · W1[e,k,f] + b1[e,f]) 0`, and output column `q` is
  `∑ f, hidden f · W2[e,f,q] + b2[e,q]`. The expert index is a word in `[0, 8)`; it is read modulo 8 so that the
  definition is total, and every theorem that uses it carries the range as a hypothesis.
-/
import Idealize.ShloMosaic.PureOps.Ideal
import Idealize.ShloMosaic.Lib.ValueIdx

noncomputable section

namespace Cert.Spec

open Idealize.ShloMosaic Idealize.ShloMosaic.ValueIdx

/-- One expert's perceptron at one row: `xr` the row, `w1`, `c1` the first layer's weights and bias, `w2`, `c2` the
    second's; the value at output column `q`. -/
def mlp (xr : Fin 1024 → EReal) (w1 : Fin 1024 → Fin 4096 → EReal) (c1 : Fin 4096 → EReal)
    (w2 : Fin 4096 → Fin 1024 → EReal) (c2 : Fin 1024 → EReal) (q : Fin 1024) : EReal :=
  (∑ f : Fin 4096, max ((∑ k : Fin 1024, xr k * w1 k f) + c1 f) 0 * w2 f q) + c2 q

/-- The expert a word names, modulo 8. -/
def expertOf (w : BitVec 32) : Fin 8 := ⟨w.toNat % 8, Nat.mod_lt _ (by decide)⟩

theorem expertOf_val (w : BitVec 32) (h : w.toNat < 8) : (expertOf w).val = w.toNat := Nat.mod_eq_of_lt h

/-- The routed result: row `r` through the perceptron of expert `note r`. -/
def G (x : (⟨2, ![8192, 1024]⟩ : Shape).Idx → EReal) (note : (⟨1, ![8192]⟩ : Shape).Idx → BitVec 32)
    (W1 : (⟨3, ![8, 1024, 4096]⟩ : Shape).Idx → EReal) (b1 : (⟨2, ![8, 4096]⟩ : Shape).Idx → EReal)
    (W2 : (⟨3, ![8, 4096, 1024]⟩ : Shape).Idx → EReal) (b2 : (⟨2, ![8, 1024]⟩ : Shape).Idx → EReal)
    (r : Fin 8192) (q : Fin 1024) : EReal :=
  mlp (fun k => x (ix2 r k)) (fun k f => W1 (ix3 (expertOf (note (ix1 r))) k f)) (fun f => b1 (ix2 (expertOf (note (ix1 r))) f))
    (fun f q' => W2 (ix3 (expertOf (note (ix1 r))) f q')) (fun q' => b2 (ix2 (expertOf (note (ix1 r))) q')) q

end Cert.Spec

end
-- ==== Proof.SpecPad.lean ====
/-
  The padded result as one function: padded row `p` lies in block `p / 256`, whose expert the table `T` names; the row
  goes through that expert's perceptron. (The rows of the routed result are rows of this array read back.)
-/
import proofs.«419510_j63247688401701_3_alg».proof.Proof.Spec
import Idealize.ShloMosaic.Lib.SortFacts

noncomputable section

namespace Cert.Spec

open Idealize.ShloMosaic Idealize.ShloMosaic.ValueIdx

/-- The block of 256 rows a padded row lies in. -/
def blockOf (p : Fin 10240) : Fin 40 := ⟨p.val / 256, by have := p.isLt; omega⟩

/-- The padded result at row `p`, column `q`: `T` the block-expert table, `xp` the padded rows, the weights and biases
    indexed by expert. -/
def outPad (T : (⟨1, ![40]⟩ : Shape).Idx → BitVec 32) (xp : (⟨2, ![10240, 1024]⟩ : Shape).Idx → EReal)
    (W1 : (⟨3, ![8, 1024, 4096]⟩ : Shape).Idx → EReal) (b1 : (⟨2, ![8, 4096]⟩ : Shape).Idx → EReal)
    (W2 : (⟨3, ![8, 4096, 1024]⟩ : Shape).Idx → EReal) (b2 : (⟨2, ![8, 1024]⟩ : Shape).Idx → EReal)
    (p : Fin 10240) (q : Fin 1024) : EReal :=
  mlp (fun k => xp (ix2 p k)) (fun k f => W1 (ix3 (expertOf (T (Shape.Idx.ofFin (blockOf p)))) k f))
    (fun f => b1 (ix2 (expertOf (T (Shape.Idx.ofFin (blockOf p)))) f))
    (fun f q' => W2 (ix3 (expertOf (T (Shape.Idx.ofFin (blockOf p)))) f q'))
    (fun q' => b2 (ix2 (expertOf (T (Shape.Idx.ofFin (blockOf p)))) q')) q

end Cert.Spec

end
-- ==== Proof.Payload.lean ====
/-
  The block the kernel body stores, read at an index.

  The body computes ONE value from what it loads: the word `e` of the expert table at the grid point, a 256 × 1024 block of
  (padded, sorted) rows of `x`, the expert's two weight matrices as 1 × 1024 × 4096 and 1 × 4096 × 1024 blocks, and the two
  WHOLE bias tables (8 × 4096 and 8 × 1024). Each bias row is picked by a one-hot mask: the table is multiplied by the
  indicator "row number = e" and summed over the eight rows, which leaves row `e` when `e < 8`. Then

    hidden[p, f] = max (∑ k, x[p, k] · W1[0, k, f] + b1[e, f]) 0,      out[p, q] = ∑ f, hidden[p, f] · W2[0, f, q] + b2[e, q],

  the narrowing of the hidden layer to the shorter float format being the identity on extended reals. This is
  `Cert.Spec.mlp` at the block's row `p` (`k0_pay1_apply`). The second theorem (`out0_A_5_eq`) says that what the body
  leaves in the output's buffer is that value of the loaded word and the five input blocks.
-/
import proofs.«419510_j63247688401701_3_alg».proof.Proof.Gen.KernelIdeal.Frame
import proofs.«419510_j63247688401701_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadValue

open Idealize.ShloMosaic Idealize.ShloMosaic.ValueIdx Idealize.SL.Sem
open Cert.KernelIdeal Cert.KernelIdeal.Gen

/-! ## Words: the one-hot condition -/

/-- The condition "row `k` is the expert `v1`" selects between two values as the `if` on `k`. -/
theorem select_row_eq (v1 : BitVec 32) (he : v1.toNat < 8) (k : Fin 8) (A B : EReal) :
    Scalar.select (IntOp.cmpi .eq (BitVec.ofNat 32 k.val) v1) A B = if k = ⟨v1.toNat, he⟩ then A else B := by
  have hc : IntOp.cmpi .eq (BitVec.ofNat 32 k.val) v1 = BitVec.ofBool (BitVec.ofNat 32 k.val == v1) := rfl
  unfold Scalar.select
  rw [hc]
  by_cases h : k = ⟨v1.toNat, he⟩
  · subst h
    simp
  · have hne : (BitVec.ofNat 32 k.val == v1) = false := by
      rw [beq_eq_false_iff_ne]
      intro e
      apply h
      apply Fin.ext
      have := congrArg BitVec.toNat e
      rw [BitVec.toNat_ofNat] at this
      have hk := k.isLt
      show k.val = v1.toNat
      omega
    rw [if_neg h, hne]
    exact if_neg (by decide)

/-! ## The bias row of the expert: a one-hot select summed over the eight rows -/

/-- Summing over the eight rows the table `b` masked to the row whose number is the word `v1` leaves row `v1`. -/
theorem onehot_sum {n : ℕ} (v1 : BitVec 32) (he : v1.toNat < 8) (b : (⟨2, ![8, n]⟩ : Shape).Idx → EReal)
    (hi : (⟨2, ![8, n]⟩ : Shape).Iotas .tc 32 [0]) (hr : (⟨2, ![8, n]⟩ : Shape).Reduces [0] ⟨1, ![n]⟩)
    (hφ : FKind.Formats .f32) (hacc : (0x00000000#32 : BitVec 32) = FKind.add.neutral .f32 hφ) (f : Fin n) :
    multiReduction (F := Ideal) (φ := .f32) .add [0] ⟨1, ![n]⟩
      (select (cmpi .eq (iota .tc ⟨2, ![8, n]⟩ 32 [0] hi) (broadcast ⟨2, ![8, n]⟩ v1)) b
        (broadcast ⟨2, ![8, n]⟩ (FloatOps.ofBits (F := Ideal) .f32 0x00000000#32)))
      0x00000000#32 hr hφ hacc (ix1 f) = b (ix2 ⟨v1.toNat, he⟩ f) := by
  refine (Ideal.multiReduction_add_single _ _ hr hφ hacc (ix1 f)).trans ?_
  have hl : ∀ k : Fin 8, hr.lift (ix1 f) k = ix2 k f := fun k => funext fun a => Fin.ext (by
    match a with
    | ⟨0, _⟩ => rfl
    | ⟨1, _⟩ => rfl)
  have hterm : ∀ k : Fin 8,
      (select (cmpi .eq (iota .tc ⟨2, ![8, n]⟩ 32 [0] hi) (broadcast ⟨2, ![8, n]⟩ v1)) b
        (broadcast ⟨2, ![8, n]⟩ (FloatOps.ofBits (F := Ideal) .f32 0x00000000#32))) (hr.lift (ix1 f) k)
        = if k = ⟨v1.toNat, he⟩ then b (ix2 k f) else 0 := by
    intro k
    rw [hl k]
    show Scalar.select (IntOp.cmpi .eq (iota .tc ⟨2, ![8, n]⟩ 32 [0] hi (ix2 k f)) v1) (b (ix2 k f)) (Ideal.ofBits .f32 0x00000000#32) = _
    rw [iota_single_apply, Ideal.ofBits_zero_f32]
    exact select_row_eq v1 he k _ _
  show ∑ k : Fin 8, _ = _
  refine (Finset.sum_congr rfl fun k _ => hterm k).trans ?_
  rw [Finset.sum_ite_eq' Finset.univ (⟨v1.toNat, he⟩ : Fin 8) fun k => b (ix2 k f)]
  exact if_pos (Finset.mem_univ _)

/-! ## The two products read at an index -/

theorem lhs_dot1_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhs_dot1_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhs_dot1_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhs_dot1_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- The first product, rows of `x` against columns of the first layer's weights, into the zero accumulator: at
    `(p, f)` the sum over the 1024 input features. -/
theorem matmul1_apply (a : FVec Ideal S256x1024 .bf16) (b : FVec Ideal S1024x4096 .bf16) (p : Fin 256) (f : Fin 4096) :
    matmul dot_S256x1024_S1024x4096_S256x4096_1_0_0_1_n_n none a b (constant (F := Ideal) S256x4096 .f32 0x00000000#32) (ix2 p f)
      = ∑ k : Fin 1024, a (ix2 p k) * b (ix2 k f) := by
  refine (Ideal.matmul_constant_zero_apply dot_S256x1024_S1024x4096_S256x4096_1_0_0_1_n_n none a b (ix2 p f)).trans ?_
  rw [← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p f) ((contrEquiv1 dot_S256x1024_S1024x4096_S256x4096_1_0_0_1_n_n 1024 rfl rfl).symm k) = ix2 p k := funext fun a => Fin.ext (by
    match a with
    | ⟨0, _⟩ => exact lhs_dot1_0 _ _
    | ⟨1, _⟩ => exact (lhs_dot1_1 _ _).trans hk)
  have er : dot_S256x1024_S1024x4096_S256x4096_1_0_0_1_n_n.rhsIdx (ix2 p f) ((contrEquiv1 dot_S256x1024_S1024x4096_S256x4096_1_0_0_1_n_n 1024 rfl rfl).symm k) = ix2 k f := funext fun a => Fin.ext (by
    match a with
    | ⟨0, _⟩ => exact (rhs_dot1_0 _ _).trans hk
    | ⟨1, _⟩ => exact rhs_dot1_1 _ _)
  rw [el, er]

theorem lhs_dot2_0 (i : S256x1024.Idx) (q : dot_S256x4096_S4096x1024_S256x1024_1_0_0_1_n_n.contr.Idx) :
    (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
theorem lhs_dot2_1 (i : S256x1024.Idx) (q : dot_S256x4096_S4096x1024_S256x1024_1_0_0_1_n_n.contr.Idx) :
    (dot_S256x4096_S4096x1024_S256x1024_1_0_0_1_n_n.lhsIdx i q 1).val = (q ⟨0, by decide⟩).val :=
  dot_S256x4096_S4096x1024_S256x1024_1_0_0_1_n_n.lhsIdx_val_of_single rfl i q
theorem rhs_dot2_0 (i : S256x1024.Idx) (q : dot_S256x4096_S4096x1024_S256x1024_1_0_0_1_n_n.contr.Idx) :
    (dot_S256x4096_S4096x1024_S256x1024_1_0_0_1_n_n.rhsIdx i q 0).val = (q ⟨0, by decide⟩).val :=
  dot_S256x4096_S4096x1024_S256x1024_1_0_0_1_n_n.rhsIdx_val_of_single rfl i q
theorem rhs_dot2_1 (i : S256x1024.Idx) (q : dot_S256x4096_S4096x1024_S256x1024_1_0_0_1_n_n.contr.Idx) :
    (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- The second product, the hidden layer against the second layer's weights, into the zero accumulator: at `(p, q)`
    the sum over the 4096 hidden units. -/
theorem matmul2_apply (a : FVec Ideal S256x4096 .bf16) (b : FVec Ideal S4096x1024 .bf16) (p : Fin 256) (q : Fin 1024) :
    matmul dot_S256x4096_S4096x1024_S256x1024_1_0_0_1_n_n none a b (constant (F := Ideal) S256x1024 .f32 0x00000000#32) (ix2 p q)
      = ∑ f : Fin 4096, a (ix2 p f) * b (ix2 f q) := by
  refine (Ideal.matmul_constant_zero_apply dot_S256x4096_S4096x1024_S256x1024_1_0_0_1_n_n none a b (ix2 p q)).trans ?_
  rw [← Equiv.sum_comp (contrEquiv1 dot_S256x4096_S4096x1024_S256x1024_1_0_0_1_n_n 4096 rfl rfl).symm]
  refine Finset.sum_congr rfl fun k _ => ?_
  have hk := contrEquiv1_symm_val dot_S256x4096_S4096x1024_S256x1024_1_0_0_1_n_n 4096 rfl rfl k
  have el : dot_S256x4096_S4096x1024_S256x1024_1_0_0_1_n_n.lhsIdx (ix2 p q) ((contrEquiv1 dot_S256x4096_S4096x1024_S256x1024_1_0_0_1_n_n 4096 rfl rfl).symm k) = ix2 p k := funext fun a => Fin.ext (by
    match a with
    | ⟨0, _⟩ => exact lhs_dot2_0 _ _
    | ⟨1, _⟩ => exact (lhs_dot2_1 _ _).trans hk)
  have er : dot_S256x4096_S4096x1024_S256x1024_1_0_0_1_n_n.rhsIdx (ix2 p q) ((contrEquiv1 dot_S256x4096_S4096x1024_S256x1024_1_0_0_1_n_n 4096 rfl rfl).symm k) = ix2 k q := funext fun a => Fin.ext (by
    match a with
    | ⟨0, _⟩ => exact (rhs_dot2_0 _ _).trans hk
    | ⟨1, _⟩ => exact rhs_dot2_1 _ _)
  rw [el, er]

/-! ## The payload at an index -/

set_option maxHeartbeats 400000 in
/-- The block the kernel body stores, at row `p` and column `q`: the perceptron of the expert the word `v1` names, applied
    to row `p` of the block of `x`, with that expert's weights (the two weight blocks) and its rows of the two bias tables. -/
theorem k0_pay1_apply (v1 : BitVec 32) (he : v1.toNat < 8)
    (v2 : (⟨2, ![256, 1024]⟩ : Shape).Idx → EReal) (v4 : (⟨3, ![1, 1024, 4096]⟩ : Shape).Idx → EReal)
    (v6 : (⟨3, ![1, 4096, 1024]⟩ : Shape).Idx → EReal) (v8 : (⟨2, ![8, 4096]⟩ : Shape).Idx → EReal)
    (v15 : (⟨2, ![8, 1024]⟩ : Shape).Idx → EReal) (p : Fin 256) (q : Fin 1024) :
    Cert.KernelIdeal.Gen.k0_pay1 (F := Ideal) v1 v2 v4 v6 v8 v15 (ValueIdx.ix2 p q)
      = Cert.Spec.mlp (fun k => v2 (ValueIdx.ix2 p k)) (fun k f => v4 (ValueIdx.ix3 0 k f))
          (fun f => v8 (ValueIdx.ix2 ⟨v1.toNat, he⟩ f)) (fun f q' => v6 (ValueIdx.ix3 0 f q'))
          (fun q' => v15 (ValueIdx.ix2 ⟨v1.toNat, he⟩ q')) q := by
  unfold Gen.k0_pay1 Cert.Spec.mlp
  refine (addf_apply _ _ (ix2 p q)).trans ?_
  refine congrArg₂ (· + ·) ?_ ?_
  · -- the second product over the hidden layer
    refine (matmul2_apply _ _ p q).trans ?_
    refine Finset.sum_congr rfl fun f _ => ?_
    refine congrArg₂ (· * ·) ?_ (shapeCast_1ab_ab_apply v6 _ f q)
    refine (truncf_apply (s := S256x4096) (φ := .f32) (ψ := .bf16) _ bitsLt_bf16_f32 (ix2 p f)).trans ?_
    refine (maximumf_apply _ _ (ix2 p f)).trans ?_
    refine congrArg₂ max ?_ Ideal.ofBits_zero_f32
    refine (addf_apply _ _ (ix2 p f)).trans ?_
    refine congrArg₂ (· + ·) ?_ ?_
    · refine (matmul1_apply _ _ p f).trans ?_
      refine Finset.sum_congr rfl fun k _ => ?_
      exact congrArg₂ (· * ·) (congrFun (shapeCast_self v2 _) (ix2 p k)) (shapeCast_1ab_ab_apply v4 _ k f)
    · refine (broadcastTo_1b_ab_apply _ _ p f).trans ?_
      refine (shapeCast_a_1a_apply _ _ (0 : Fin 1) f).trans ?_
      exact onehot_sum v1 he v8 _ _ _ _ f
  · refine (broadcastTo_1b_ab_apply _ _ p q).trans ?_
    refine (shapeCast_a_1a_apply _ _ (0 : Fin 1) q).trans ?_
    exact onehot_sum v1 he v15 _ _ _ _ q

/-! ## What the body leaves in the output's buffer -/

open Idealize.ShloMosaic.TcCoe Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

/-- The zero offsets of a rank-2 rectangle, as the constant function. -/
theorem hz2 : (![0, 0] : Fin 2 → Nat) = fun _ => 0 := funext fun a => by fin_cases a <;> rfl
/-- The zero offsets of a rank-3 rectangle, as the constant function. -/
theorem hz3 : (![0, 0, 0] : Fin 3 → Nat) = fun _ => 0 := funext fun a => by fin_cases a <;> rfl

set_option maxHeartbeats 400000 in
/-- The body's one store covers the output's whole block, and its loads read the whole input buffers: so the output's
    buffer ends holding the payload of the table's word at the grid point and of the five input blocks. -/
theorem out0_A_5_eq (c : Dev nD) (i : grid0.Coords) (arg2 : Memref sig .tc .vmem S256x1024 .bf16) (harg2 : arg2.IsWhole) (arg3 : Memref sig .tc .vmem S1x1024x4096 .bf16) (harg3 : arg3.IsWhole) (arg4 : Memref sig .tc .vmem S8x4096 .f32) (harg4 : arg4.IsWhole) (arg5 : Memref sig .tc .vmem S1x4096x1024 .bf16) (harg5 : arg5.IsWhole) (arg6 : Memref sig .tc .vmem S8x1024 .f32) (harg6 : arg6.IsWhole) (arg7 : Memref sig .tc .vmem S256x1024 .f32) (harg7 : arg7.IsWhole)
    (x0 : Vec Ideal S256x1024 .bf16) (x1 : Vec Ideal S1x1024x4096 .bf16) (x2 : Vec Ideal S8x4096 .f32) (x3 : Vec Ideal S1x4096x1024 .bf16) (x4 : Vec Ideal S8x1024 .f32) (xt0 : TbBuf0 (F := Ideal) c tbM0_0) :
    Gen.out0_A_5 (F := Ideal) c i arg2 harg2 arg3 harg3 arg4 harg4 arg5 harg5 arg6 harg6 arg7 harg7 x0 x1 x2 x3 x4 xt0
      = Gen.k0_pay1 (F := Ideal)
          (View.readAt (Elt Ideal) tbM0_0.view (Rect.unit (s := S40) (k0_off1 i) S1.size (k0_off1_inb i)).toLoadRect xt0
            (Shape.Idx.first (numel1_S1.symm ▸ Nat.one_pos)))
          x0 x1 x3 x2 x4 := by
  unfold Gen.out0_A_5
  rw [View.read_writes_eq_canon _ _ _ (cover0_A_5 c i arg2 harg2 arg3 harg3 arg4 harg4 arg5 harg5 arg6 harg6 arg7 harg7 x0 x1 x2 x3 x4 xt0)]
  unfold kernelRun0_A
  dsimp only
  sl_unfold_words
  rw [View.canon_unit_zero hz2]
  simp only [View.readAt_eq_ld, harg2.read_unread, harg3.read_unread, harg4.read_unread, harg5.read_unread, harg6.read_unread,
    View.ld_unit_zero (S := S256x1024) hz2, View.ld_unit_zero (S := S1x1024x4096) hz3, View.ld_unit_zero (S := S1x4096x1024) hz3,
    View.ld_unit_zero (S := S8x4096) hz2, View.ld_unit_zero (S := S8x1024) hz2]

/-- The loaded word is the table's entry under the one index of the unit rectangle at the grid point's offset. -/
theorem tblWord_eq (c : Dev nD) (i : grid0.Coords) (xt0 : TbBuf0 (F := Ideal) c tbM0_0) :
    View.readAt (Elt Ideal) tbM0_0.view (Rect.unit (s := S40) (k0_off1 i) S1.size (k0_off1_inb i)).toLoadRect xt0
        (Shape.Idx.first (numel1_S1.symm ▸ Nat.one_pos))
      = xt0 ((Rect.unit (s := S40) (k0_off1 i) S1.size (k0_off1_inb i)).emb (Shape.Idx.first (numel1_S1.symm ▸ Nat.one_pos))) := rfl

end Cert.KernelIdeal.PayloadValue

end
-- ==== Proof.Blocks.lean ====
/-
  The padded output array after the run, as ONE function of the arrays the region finds.

  The pipeline visits 40 points. Point t stages rows [256 t, 256 t + 256) of the padded input, slab T[t] of each weight
  array (T the block-expert table, read at position t), both bias arrays whole, and writes rows [256 t, 256 t + 256) of
  the output. The body's value at row r, column q of its block is the two-layer perceptron of the staged slabs applied to
  the staged row, the bias rows picked at the word T[t] (the payload module). A staged block's coordinate in its array is
  always (block index) × (block size) + (coordinate inside the block); so row r of point t is padded row p = 256 t + r,
  and p / 256 = t: the expert of p's block is the word the point read. With every table word below 8, reading it modulo 8
  changes nothing. Each point's write-back is therefore its block of one whole-array function, the blocks tile the rows,
  and the array ends holding that function.

  Every fact about the windows' index maps is stated for ARBITRARY admissible contents of the table and only then read
  at the program's own table: nothing here depends on what the table holds beyond its words being below 8.
-/
import proofs.«419510_j63247688401701_3_alg».proof.Proof.Gen.KernelIdeal.Frame
import proofs.«419510_j63247688401701_3_alg».proof.Proof.SpecPad
import proofs.«419510_j63247688401701_3_alg».proof.Proof.Payload
import Idealize.ShloMosaic.Lib.Pipeline.Value
import Idealize.ShloMosaic.Lib.ValueIdx
import Idealize.ShloMosaic.Lib.SortFacts

set_option maxRecDepth 16384

noncomputable section

namespace Cert.KernelIdeal.BlocksValue

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

/-- The grid's one coordinate at point t is t. -/
theorem coord_val : ∀ t : Fin grid0.N, ((grid0.coords t) 0).val = t.val := by decide +kernel

/-! ## The index maps over the grid

The maps that read no table, decided point by point: the padded input's and the output's block index is (t, 0), the
bias arrays' is (0, 0). -/

theorem idx0 : ∀ t : Fin grid0.N, cc0_transform_0 (grid0.coords t) 0 = t.val ∧ cc0_transform_0 (grid0.coords t) 1 = 0 := by decide +kernel
theorem idx5 : ∀ t : Fin grid0.N, cc0_transform_5 (grid0.coords t) 0 = t.val ∧ cc0_transform_5 (grid0.coords t) 1 = 0 := by decide +kernel
theorem idx2 : ∀ t : Fin grid0.N, cc0_transform_2 (grid0.coords t) 0 = 0 ∧ cc0_transform_2 (grid0.coords t) 1 = 0 := by decide +kernel
theorem idx4 : ∀ t : Fin grid0.N, cc0_transform_4 (grid0.coords t) 0 = 0 ∧ cc0_transform_4 (grid0.coords t) 1 = 0 := by decide +kernel

/-- The offset of the table word read at point t is t. -/
theorem off1_val (t : Fin grid0.N) : k0_off1 (grid0.coords t) 0 = t.val := by
  rw [k0_off1_eq]; exact coord_val t

set_option maxHeartbeats 400000 in
/-- The table word read at point t (by the body and by the weight windows' index maps alike) is the table's entry t. -/
theorem word_at (T : S40.Idx → BitVec 32) (t : Fin grid0.N) :
    T ((Rect.unit (s := S40) (k0_off1 (grid0.coords t)) S1.size (k0_off1_inb (grid0.coords t))).emb (Shape.Idx.first (numel1_S1.symm ▸ Nat.one_pos)))
      = T (Shape.Idx.ofFin (n := 40) ⟨t.val, t.isLt⟩) := by
  refine congrArg T (funext fun a => Fin.ext ?_)
  match a with
  | ⟨0, _⟩ =>
    show k0_off1 (grid0.coords t) 0 + 1 * 0 = t.val
    rw [off1_val t]; omega

/-- The weight windows' index maps at any table contents: block (word, 0, 0), the word the table's entry read at the point's offset. -/
theorem tr1_eq (pf : pre0.Contents (Elt F)) (i : grid0.Coords) :
    cc0_transform_1 k0_off1_inb numel1_S1 pf i
      = ![(pf 0 ((Rect.unit (s := S40) (k0_off1 i) S1.size (k0_off1_inb i)).emb (Shape.Idx.first (numel1_S1.symm ▸ Nat.one_pos)))).toNat, 0, 0] := rfl
/-- The same for the second-layer weights. -/
theorem tr3_eq (pf : pre0.Contents (Elt F)) (i : grid0.Coords) :
    cc0_transform_3 k0_off1_inb numel1_S1 pf i
      = ![(pf 0 ((Rect.unit (s := S40) (k0_off1 i) S1.size (k0_off1_inb i)).emb (Shape.Idx.first (numel1_S1.symm ▸ Nat.one_pos)))).toNat, 0, 0] := rfl

/-! ## Each window's block read at an index, at ANY admissible table contents -/

section reads
variable (a : (pcfg0 (F := Ideal)).Adm)

set_option maxHeartbeats 400000 in
/-- Window 0: row r of the block at point t is padded row 256 t + r. -/
theorem read0 (t : Fin (cfg0 a).N) (X : S10240x1024.Idx → EReal) (r : Fin 256) (k : Fin 1024) (p : Fin 10240)
    (hp : p.val = 256 * t.val + r.val) :
    (((cfg0 a).win 0).blk t).view.read (Elt Ideal) X (ix2 r k) = X (ix2 p k) := by
  show X _ = X _
  refine congrArg X (funext fun d => Fin.ext ?_)
  match d with
  | ⟨0, _⟩ =>
    show cc0_transform_0 (grid0.coords t) 0 * 256 + 1 * r.val = p.val
    rw [(idx0 t).1, hp]; omega
  | ⟨1, _⟩ =>
    show cc0_transform_0 (grid0.coords t) 1 * 1024 + 1 * k.val = k.val
    rw [(idx0 t).2]; omega

set_option maxHeartbeats 400000 in
/-- Window 5 (the output): the same rows. -/
theorem read5 (t : Fin (cfg0 a).N) (X : S10240x1024.Idx → EReal) (r : Fin 256) (k : Fin 1024) (p : Fin 10240)
    (hp : p.val = 256 * t.val + r.val) :
    (((cfg0 a).win 5).blk t).view.read (Elt Ideal) X (ix2 r k) = X (ix2 p k) := by
  show X _ = X _
  refine congrArg X (funext fun d => Fin.ext ?_)
  match d with
  | ⟨0, _⟩ =>
    show cc0_transform_5 (grid0.coords t) 0 * 256 + 1 * r.val = p.val
    rw [(idx5 t).1, hp]; omega
  | ⟨1, _⟩ =>
    show cc0_transform_5 (grid0.coords t) 1 * 1024 + 1 * k.val = k.val
    rw [(idx5 t).2]; omega

set_option maxHeartbeats 400000 in
/-- Window 2 is the whole first-layer bias array. -/
theorem read2 (t : Fin (cfg0 a).N) (X : S8x4096.Idx → EReal) (e : Fin 8) (f : Fin 4096) :
    (((cfg0 a).win 2).blk t).view.read (Elt Ideal) X (ix2 e f) = X (ix2 e f) := by
  show X _ = X _
  refine congrArg X (funext fun d => Fin.ext ?_)
  match d with
  | ⟨0, _⟩ =>
    show cc0_transform_2 (grid0.coords t) 0 * 8 + 1 * e.val = e.val
    rw [(idx2 t).1]; omega
  | ⟨1, _⟩ =>
    show cc0_transform_2 (grid0.coords t) 1 * 4096 + 1 * f.val = f.val
    rw [(idx2 t).2]; omega

set_option maxHeartbeats 400000 in
/-- Window 4 is the whole second-layer bias array. -/
theorem read4 (t : Fin (cfg0 a).N) (X : S8x1024.Idx → EReal) (e : Fin 8) (f : Fin 1024) :
    (((cfg0 a).win 4).blk t).view.read (Elt Ideal) X (ix2 e f) = X (ix2 e f) := by
  show X _ = X _
  refine congrArg X (funext fun d => Fin.ext ?_)
  match d with
  | ⟨0, _⟩ =>
    show cc0_transform_4 (grid0.coords t) 0 * 8 + 1 * e.val = e.val
    rw [(idx4 t).1]; omega
  | ⟨1, _⟩ =>
    show cc0_transform_4 (grid0.coords t) 1 * 1024 + 1 * f.val = f.val
    rw [(idx4 t).2]; omega

set_option maxHeartbeats 400000 in
/-- Window 1: the one slab of the block at point t is slab (table word at t) of the first-layer weights. -/
theorem read1 (t : Fin (cfg0 a).N) (X : S8x1024x4096.Idx → EReal) (e : Fin 8) (k : Fin 1024) (f : Fin 4096)
    (he : e.val = (a.1 0 (Shape.Idx.ofFin (n := 40) ⟨t.val, t.isLt⟩)).toNat) :
    (((cfg0 a).win 1).blk t).view.read (Elt Ideal) X (ix3 0 k f) = X (ix3 e k f) := by
  show X _ = X _
  refine congrArg X (funext fun d => Fin.ext ?_)
  match d with
  | ⟨0, _⟩ =>
    show cc0_transform_1 k0_off1_inb numel1_S1 a.1 (grid0.coords t) 0 * 1 + 1 * 0 = e.val
    rw [tr1_eq, he]
    show (a.1 0 _).toNat * 1 + 1 * 0 = _
    rw [word_at (a.1 0) t]; omega
  | ⟨1, _⟩ =>
    show cc0_transform_1 k0_off1_inb numel1_S1 a.1 (grid0.coords t) 1 * 1024 + 1 * k.val = k.val
    rw [tr1_eq]
    show 0 * 1024 + 1 * k.val = k.val
    omega
  | ⟨2, _⟩ =>
    show cc0_transform_1 k0_off1_inb numel1_S1 a.1 (grid0.coords t) 2 * 4096 + 1 * f.val = f.val
    rw [tr1_eq]
    show 0 * 4096 + 1 * f.val = f.val
    omega

set_option maxHeartbeats 400000 in
/-- Window 3: the one slab of the block at point t is slab (table word at t) of the second-layer weights. -/
theorem read3 (t : Fin (cfg0 a).N) (X : S8x4096x1024.Idx → EReal) (e : Fin 8) (f : Fin 4096) (k : Fin 1024)
    (he : e.val = (a.1 0 (Shape.Idx.ofFin (n := 40) ⟨t.val, t.isLt⟩)).toNat) :
    (((cfg0 a).win 3).blk t).view.read (Elt Ideal) X (ix3 0 f k) = X (ix3 e f k) := by
  show X _ = X _
  refine congrArg X (funext fun d => Fin.ext ?_)
  match d with
  | ⟨0, _⟩ =>
    show cc0_transform_3 k0_off1_inb numel1_S1 a.1 (grid0.coords t) 0 * 1 + 1 * 0 = e.val
    rw [tr3_eq, he]
    show (a.1 0 _).toNat * 1 + 1 * 0 = _
    rw [word_at (a.1 0) t]; omega
  | ⟨1, _⟩ =>
    show cc0_transform_3 k0_off1_inb numel1_S1 a.1 (grid0.coords t) 1 * 4096 + 1 * f.val = f.val
    rw [tr3_eq]
    show 0 * 4096 + 1 * f.val = f.val
    omega
  | ⟨2, _⟩ =>
    show cc0_transform_3 k0_off1_inb numel1_S1 a.1 (grid0.coords t) 2 * 1024 + 1 * k.val = k.val
    rw [tr3_eq]
    show 0 * 1024 + 1 * k.val = k.val
    omega
end reads

/-! ## What one point computes -/

section point
variable (a : (pcfg0 (F := Ideal)).Adm)

set_option maxHeartbeats 400000 in
/-- At point t the body's payload over the six windows' blocks, at row r and column q, is the padded result at row
    256 t + r: the row lies in block t, whose expert is the table word at t (below 8, so reading it modulo 8 changes
    nothing); the weight slabs are that expert's and the bias rows are picked at that expert. The table contents are a
    variable throughout. -/
theorem point_value (t : Fin (cfg0 a).N) (pf : pre0.Contents (Elt Ideal)) (hpf : a.1 = pf)
    (hlt : ∀ b : Fin 40, (pf 0 (Shape.Idx.ofFin b)).toNat < 8)
    (w : BitVec 32) (hw : w = pf 0 (Shape.Idx.ofFin (n := 40) ⟨t.val, t.isLt⟩))
    (X0 : S10240x1024.Idx → EReal) (X1 : S8x1024x4096.Idx → EReal) (X2 : S8x4096.Idx → EReal)
    (X3 : S8x4096x1024.Idx → EReal) (X4 : S8x1024.Idx → EReal)
    (r : Fin 256) (q : Fin 1024) (p : Fin 10240) (hp : p.val = 256 * t.val + r.val) :
    Gen.k0_pay1 (F := Ideal) w ((((cfg0 a).win 0).blk t).view.read (Elt Ideal) X0)
        ((((cfg0 a).win 1).blk t).view.read (Elt Ideal) X1) ((((cfg0 a).win 3).blk t).view.read (Elt Ideal) X3)
        ((((cfg0 a).win 2).blk t).view.read (Elt Ideal) X2) ((((cfg0 a).win 4).blk t).view.read (Elt Ideal) X4) (ix2 r q)
      = Cert.Spec.outPad (pf 0) X0 X1 X2 X3 X4 p q := by
  subst hpf
  have hwlt : w.toNat < 8 := by rw [hw]; exact hlt _
  have hb : Cert.Spec.blockOf p = ⟨t.val, t.isLt⟩ := Fin.ext (by show p.val / 256 = t.val; rw [hp]; have := r.isLt; omega)
  have hE : (Cert.Spec.expertOf (a.1 0 (Shape.Idx.ofFin (Cert.Spec.blockOf p)))).val
      = (a.1 0 (Shape.Idx.ofFin (n := 40) ⟨t.val, t.isLt⟩)).toNat := by
    rw [hb]; exact Cert.Spec.expertOf_val _ (hlt _)
  have hwE : (⟨w.toNat, hwlt⟩ : Fin 8) = Cert.Spec.expertOf (a.1 0 (Shape.Idx.ofFin (Cert.Spec.blockOf p))) :=
    Fin.ext (hE.trans (congrArg BitVec.toNat hw).symm).symm
  refine (PayloadValue.k0_pay1_apply w hwlt _ _ _ _ _ r q).trans ?_
  unfold Cert.Spec.outPad
  rw [hwE]
  have e1 : (fun k => (((cfg0 a).win 0).blk t).view.read (Elt Ideal) X0 (ix2 r k)) = fun k => X0 (ix2 p k) :=
    funext fun k => read0 a t X0 r k p hp
  have e2 : (fun k f => (((cfg0 a).win 1).blk t).view.read (Elt Ideal) X1 (ix3 0 k f))
      = fun k f => X1 (ix3 (Cert.Spec.expertOf (a.1 0 (Shape.Idx.ofFin (Cert.Spec.blockOf p)))) k f) :=
    funext fun k => funext fun f => read1 a t X1 _ k f hE
  have e3 : (fun f => (((cfg0 a).win 2).blk t).view.read (Elt Ideal) X2 (ix2 (Cert.Spec.expertOf (a.1 0 (Shape.Idx.ofFin (Cert.Spec.blockOf p)))) f))
      = fun f => X2 (ix2 (Cert.Spec.expertOf (a.1 0 (Shape.Idx.ofFin (Cert.Spec.blockOf p)))) f) :=
    funext fun f => read2 a t X2 _ f
  have e4 : (fun f q' => (((cfg0 a).win 3).blk t).view.read (Elt Ideal) X3 (ix3 0 f q'))
      = fun f q' => X3 (ix3 (Cert.Spec.expertOf (a.1 0 (Shape.Idx.ofFin (Cert.Spec.blockOf p)))) f q') :=
    funext fun f => funext fun q' => read3 a t X3 _ f q' hE
  have e5 : (fun q' => (((cfg0 a).win 4).blk t).view.read (Elt Ideal) X4 (ix2 (Cert.Spec.expertOf (a.1 0 (Shape.Idx.ofFin (Cert.Spec.blockOf p)))) q'))
      = fun q' => X4 (ix2 (Cert.Spec.expertOf (a.1 0 (Shape.Idx.ofFin (Cert.Spec.blockOf p)))) q') :=
    funext fun q' => read4 a t X4 _ q'
  rw [e1, e2, e3, e4, e5]
end point

/-! ## From the points to the array -/

/-- The padded result as contents of the output array: entry (p, q) for every index. -/
def padArr (T : S40.Idx → BitVec 32) (X0 : S10240x1024.Idx → EReal) (X1 : S8x1024x4096.Idx → EReal) (X2 : S8x4096.Idx → EReal)
    (X3 : S8x4096x1024.Idx → EReal) (X4 : S8x1024.Idx → EReal) : S10240x1024.Idx → EReal :=
  fun i => Cert.Spec.outPad T X0 X1 X2 X3 X4 (i 0) (i 1)

section cover
variable (a : (pcfg0 (F := Ideal)).Adm)

set_option maxHeartbeats 400000 in
/-- Padded row p lies in the output block of point p / 256: the blocks tile the rows, each spans all columns. -/
theorem covered (i : S10240x1024.Idx) :
    ∃ t : Fin (cfg0 a).N, ((cfg0 a).win 5).flush t = true
      ∧ i ∈ ((((cfg0 a).win 5).blk t).view.set : Finset S10240x1024.Idx) := by
  have h0 : (i 0).val < 10240 := (i 0).isLt
  have h1 : (i 1).val < 1024 := (i 1).isLt
  have hN : (cfg0 a).N = 40 := N_0
  obtain ⟨t, ht⟩ : ∃ t : Fin (cfg0 a).N, t.val = (i 0).val / 256 := ⟨⟨(i 0).val / 256, by rw [hN]; omega⟩, rfl⟩
  refine ⟨t, flush0_5 a t, ?_⟩
  have hs : ((View.whole main_v80).slice (((cfg0 a).win 5).rect t)).set = (((cfg0 a).win 5).rect t).set :=
    View.set_slice_whole main_v80 (((cfg0 a).win 5).rect t)
  refine (Finset.ext_iff.mp hs i).mpr (Rect.mem_set_unit.mpr fun d => ?_)
  match d with
  | ⟨0, _⟩ =>
    show cc0_transform_5 (grid0.coords t) 0 * 256 ≤ (i 0).val
      ∧ (i 0).val < cc0_transform_5 (grid0.coords t) 0 * 256 + 256
    rw [(idx5 t).1, ht]
    omega
  | ⟨1, _⟩ =>
    show cc0_transform_5 (grid0.coords t) 1 * 1024 ≤ (i 1).val
      ∧ (i 1).val < cc0_transform_5 (grid0.coords t) 1 * 1024 + 1024
    rw [(idx5 t).2]
    omega
end cover

section final
variable (m : (ℓ : Loc nD τ sig) → Buf (Elt Ideal) ℓ)

set_option maxHeartbeats 400000 in
/-- What point t writes back is its block of the padded result. -/
theorem flushed_eq (hO : Gen.Ok m) (c : Dev nD)
    (htbl : ∀ b : Fin 40, ((Gen.tbl m 0) (Shape.Idx.ofFin b)).toNat < 8) (t : Fin (Gen.cfgM m hO).N) :
    (Gen.dats m hO 0 c).flushed 5 t
      = (((Gen.cfgM m hO).win 5).blk t).view.read (Elt Ideal)
          (padArr (Gen.tbl m 0) (Gen.V m c main_v77) (Gen.V m c main_v78) (Gen.V m c main_arg3) (Gen.V m c main_v79) (Gen.V m c main_arg5)) := by
  show ((Gen.cfgM m hO).win 5).cut (grid0.coords t) ((Gen.dats m hO 0 c).after 5 t) = _
  rw [after0_5]
  unfold outsAt0
  refine funext fun (j : S256x1024.Idx) => ?_
  obtain ⟨r, q, rfl⟩ : ∃ (r : Fin 256) (q : Fin 1024), j = ix2 r q := ⟨j 0, j 1, eq_ix2 j⟩
  have ht : t.val < 40 := t.isLt
  have hp : 256 * t.val + r.val < 10240 := by have := r.isLt; omega
  refine (congrFun (PayloadValue.out0_A_5_eq c (grid0.coords t) (ms0_0 m hO t) (hs0_0 m hO t) (ms0_1 m hO t) (hs0_1 m hO t)
    (ms0_2 m hO t) (hs0_2 m hO t) (ms0_3 m hO t) (hs0_3 m hO t) (ms0_4 m hO t) (hs0_4 m hO t) (ms0_5 m hO t) (hs0_5 m hO t)
    (iblk m hO c 0 t) (iblk m hO c 1 t) (iblk m hO c 2 t) (iblk m hO c 3 t) (iblk m hO c 4 t) (tbl m 0)) (ix2 r q)).trans ?_
  unfold iblk
  have hw := (PayloadValue.tblWord_eq c (grid0.coords t) (tbl m 0)).trans (word_at (tbl m 0) t)
  refine (point_value (adm m hO) t (tbl m) (Subtype.coe_mk (tbl m) hO) htbl _ hw
    (V m c main_v77) (V m c main_v78) (V m c main_arg3) (V m c main_v79) (V m c main_arg5) r q ⟨256 * t.val + r.val, hp⟩ rfl).trans ?_
  exact (read5 (adm m hO) t (padArr (tbl m 0) (V m c main_v77) (V m c main_v78) (V m c main_arg3) (V m c main_v79) (V m c main_arg5))
    r q ⟨256 * t.val + r.val, hp⟩ rfl).symm

set_option maxHeartbeats 400000 in
/-- THE OUTPUT ARRAY after the run, entry by entry: padded row p through the perceptron of its block's expert. -/
theorem final5 (hO : Gen.Ok m) (c : Dev nD)
    (htbl : ∀ b : Fin 40, ((Gen.tbl m 0) (Shape.Idx.ofFin b)).toNat < 8) (p : Fin 10240) (q : Fin 1024) :
    (Gen.dats m hO 0 c).arrAt 5 (Gen.cfgM m hO).N (ValueIdx.ix2 p q)
      = Cert.Spec.outPad (Gen.tbl m 0) (Gen.V m c main_v77) (Gen.V m c main_v78) (Gen.V m c main_arg3) (Gen.V m c main_v79) (Gen.V m c main_arg5) p q :=
  congrFun ((Gen.dats m hO 0 c).arrAt_eq_of_cover 5
    (padArr (Gen.tbl m 0) (Gen.V m c main_v77) (Gen.V m c main_v78) (Gen.V m c main_arg3) (Gen.V m c main_v79) (Gen.V m c main_arg5))
    (fun t _ => flushed_eq m hO c htbl t) (fun i => covered (adm m hO) i)) (ix2 p q)
end final

end Cert.KernelIdeal.BlocksValue
end
-- ==== Proof.GlueTerms.lean ====
/-
  The routing arithmetic of the kernel's host program, as pure functions of the expert words `note` (and of the rows `x`):
  one definition per stage, each the printed operations of that stage composed.

  counts      how many rows name each expert (ones added at the expert's position)
  cumsum      the running sums of eight words (a window of eight, padded seven low)
  offs        where each expert's rows start among the sorted rows: the running sum less the count
  bpe         how many blocks of 256 rows an expert needs: (count + 255) / 256, rounded down
  cex         the first block of each expert: the running sum of `bpe` less `bpe`
  sortIdx     the rows in order of their expert (a stable sort carrying the positions)
  sortedNote  the expert of the j-th sorted row
  localRank   the j-th sorted row's rank among its expert's rows
  destRow     the padded row the j-th sorted row is sent to: first block · 256 + rank
  table       the expert that owns each of the forty blocks, clipped into [0, 7]
  paddedSrc   for each padded row the source row sent there, or -1
  xPadded     the padded rows: the source row where there is one, zero elsewhere
  invSort     the sorted position of each row; outRowSrc the padded row of each row; result the rows read back
-/
import proofs.«419510_j63247688401701_3_alg».proof.Proof.Gen.KernelIdeal

noncomputable section

namespace Cert.KernelIdeal.Glue

open Idealize.ShloMosaic Cert.KernelIdeal Cert.KernelIdeal.Facts₀ Cert.KernelIdeal.Facts

variable {F : FTy → Type} [FloatOps F]

/-- A word on every position of a rank-1 array of 8192. -/
def all8192 (n : BitVec 32) : IVec S8192 32 := broadcastInDim S8192 ![] bcast_S_S8192 (constantI S_ 32 n)
/-- A word on every position of a rank-1 array of 8. -/
def all8 (n : BitVec 32) : IVec S8 32 := broadcastInDim S8 ![] bcast_S_S8 (constantI S_ 32 n)
/-- A word on every position of a rank-1 array of 40. -/
def all40 (n : BitVec 32) : IVec S40 32 := broadcastInDim S40 ![] bcast_S_S40 (constantI S_ 32 n)
/-- A word on every position of a rank-1 array of 10240. -/
def all10240 (n : BitVec 32) : IVec S10240 32 := broadcastInDim S10240 ![] bcast_S_S10240 (constantI S_ 32 n)

/-- A negative index counts from the end of an axis of extent `n`: `v < 0 ? v + n : v`. -/
def wrap (n : BitVec 32) (v : IVec S8192 32) : IVec S8192 32 := select (cmpi .slt v (all8192 0#32)) (addi v (all8192 n)) v
/-- The same over 10240 positions. -/
def wrapL (n : BitVec 32) (v : IVec S10240 32) : IVec S10240 32 := select (cmpi .slt v (all10240 0#32)) (addi v (all10240 n)) v
/-- A vector of 8192 indices as the column of start indices a gather or a scatter reads. -/
def col (v : IVec S8192 32) : IVec S8192x1 32 := broadcastInDim S8192x1 ![0] bcast_S8192_S8192x1_0 v
/-- The same over 10240 positions. -/
def colL (v : IVec S10240 32) : IVec S10240x1 32 := broadcastInDim S10240x1 ![0] bcast_S10240_S10240x1_0 v

/-- The expert words with negatives raised to zero. -/
def clip0 (note : IVec S8192 32) : IVec S8192 32 := maxsi (all8192 0#32) note

/-- How many rows name each expert. -/
def counts (note : IVec S8192 32) : IVec S8 32 :=
  Host.scatter scatter_S8_S8192x1_S8192_n_0_0_1 IntOp.addi (all8 0#32) (col (wrap 8#32 (clip0 note))) (all8192 1#32)

/-- Running sums of eight words. -/
def cumsum (v : IVec S8 32) : IVec S8 32 :=
  Host.reduceWindow IntOp.addi ![8] ![1] ![7] ![0] v (broadcastInDim S_ ![] bcast_S_S_ (constantI S_ 32 0#32)) reduceWindows_S8_S8_w8s1p7_0 h_S_

/-- The quotient by 256 rounded toward minus infinity: the truncated quotient, less one where the signs differ and the division is inexact. -/
def floorDiv256 (v : IVec S8 32) : IVec S8 32 :=
  select (andi (cmpi .ne (signi v) (broadcastInDim S8 ![] bcast_S_S8 (signi (constantI S_ 32 256#32))))
      (cmpi .ne (Host.remsi v (all8 256#32)) (all8 0#32)))
    (subi (Host.divsi v (all8 256#32)) (all8 1#32)) (Host.divsi v (all8 256#32))

def offs (note : IVec S8192 32) : IVec S8 32 := subi (cumsum (counts note)) (counts note)
def bpe (note : IVec S8192 32) : IVec S8 32 := floorDiv256 (subi (addi (counts note) (all8 256#32)) (all8 1#32))
def cex (note : IVec S8192 32) : IVec S8 32 := subi (cumsum (bpe note)) (bpe note)

/-- The rows in order of their expert: the positions carried through a stable sort of the words. -/
def sortIdx (note : IVec S8192 32) : IVec S8192 32 := (Host.sort2 S8192 0 comparator_i32_i32_d0 note (iotaInDim S8192 32 0)).2

def sortedNote (note : IVec S8192 32) : IVec S8192 32 :=
  Host.gather gather_S8192_S8192x1_S8192_n_0_n_n_0_1_1 note (col (wrap 8192#32 (sortIdx note)))

def localRank (note : IVec S8192 32) : IVec S8192 32 :=
  subi (iotaInDim S8192 32 0) (Host.gather gather_S8_S8192x1_S8192_n_0_n_n_0_1_1 (offs note) (col (wrap 8#32 (sortedNote note))))

def destRow (note : IVec S8192 32) : IVec S8192 32 :=
  addi (muli (Host.gather gather_S8_S8192x1_S8192_n_0_n_n_0_1_1 (cex note) (col (wrap 8#32 (sortedNote note)))) (all8192 256#32)) (localRank note)

/-- For each block, how many experts start at or before it, less one. -/
def blockRaw (note : IVec S8192 32) : IVec S40 32 :=
  subi (Host.reduce IntOp.addi
      (extui 32 (cmpi .sle (broadcastInDim S40x8 ![0, 1] bcast_S1x8_S40x8_0_1 (broadcastInDim S1x8 ![1] bcast_S8_S1x8_1 (cex note)))
        (broadcastInDim S40x8 ![0, 1] bcast_S40x1_S40x8_0_1 (broadcastInDim S40x1 ![0] bcast_S40_S40x1_0 (iotaInDim S40 32 0)))) natLt_1_32)
      (constantI S_ 32 0#32) reducesTo_S40x8_S40_d1 h_S_) (all40 1#32)

/-- The expert that owns each block, clipped into [0, 7]. -/
def table (note : IVec S8192 32) : IVec S40 32 := minsi (all40 7#32) (maxsi (all40 0#32) (blockRaw note))

def paddedSrc (note : IVec S8192 32) : IVec S10240 32 :=
  Host.scatter scatter_S10240_S8192x1_S8192_n_0_0_1 (fun _ b => b) (all10240 4294967295#32) (col (wrap 10240#32 (destRow note))) (sortIdx note)

def validIn (note : IVec S8192 32) : IVec S10240 1 := cmpi .sge (paddedSrc note) (all10240 0#32)
def srcClipped (note : IVec S8192 32) : IVec S10240 32 := minsi (all10240 8191#32) (maxsi (all10240 0#32) (paddedSrc note))

def xGather (x : FVec F S8192x1024 .f32) (note : IVec S8192 32) : FVec F S10240x1024 .f32 :=
  Host.gather gather_S8192x1024_S10240x1_S10240x1024_1_0_n_n_0_1_11024 x (colL (wrapL 8192#32 (srcClipped note)))

/-- The padded rows before the change of format: the source row where there is one, zero elsewhere. -/
def xMasked (x : FVec F S8192x1024 .f32) (note : IVec S8192 32) : FVec F S10240x1024 .f32 :=
  select (broadcastInDim S10240x1024 ![0, 1] bcast_S10240x1_S10240x1024_0_1 (broadcastInDim S10240x1 ![0] bcast_S10240_S10240x1_0 (validIn note)))
    (xGather x note) (broadcastInDim S10240x1024 ![] bcast_S_S10240x1024 (constant S_ .f32 0x00000000#32))

def xPadded (x : FVec F S8192x1024 .f32) (note : IVec S8192 32) : FVec F S10240x1024 .bf16 := truncf .bf16 (xMasked x note) bitsLt_bf16_f32

/-- The sorted position of each row. -/
def invSort (note : IVec S8192 32) : IVec S8192 32 :=
  Host.scatter scatter_S8192_S8192x1_S8192_n_0_0_1 (fun _ b => b) (all8192 0#32) (col (wrap 8192#32 (sortIdx note))) (iotaInDim S8192 32 0)

/-- The padded row each row was sent to. -/
def outRowSrc (note : IVec S8192 32) : IVec S8192 32 :=
  Host.gather gather_S8192_S8192x1_S8192_n_0_n_n_0_1_1 (destRow note) (col (wrap 8192#32 (invSort note)))

/-- The rows read back from the padded result. -/
def result (op : FVec F S10240x1024 .f32) (note : IVec S8192 32) : FVec F S8192x1024 .f32 :=
  Host.gather gather_S10240x1024_S8192x1_S8192x1024_1_0_n_n_0_1_11024 op (col (wrap 10240#32 (outRowSrc note)))

end Cert.KernelIdeal.Glue

end
-- ==== Proof.GlueRun.lean ====
/-
  The host program around the region, read as pure functions of the argument arrays.

  Before the region the program computes, from the expert words `note` (argument 1) and the rows `x` (argument 0):
  the positions of a stable sort of the words (buffer 19), the padded row each sorted row is sent to (buffer 45), the
  expert owning each of the forty blocks (buffer 56, the table the region's index maps read), the padded rows in the
  narrower format (buffer 77), and the two weight arrays in the narrower format (buffers 78 and 79). Each buffer holds
  the composition of the printed operations that lead to it, which is the definition of that name in
  `Cert.KernelIdeal.Glue`: the equations below say so, with the argument arrays as the region finds them.

  After the region the program inverts the sort (a scatter of the positions), looks up each row's padded row, and
  reads the rows back from the region's output array: `Glue.result` of that array and the expert words.

  The operations of a function the program calls (a clip, a running sum, a rounded quotient, a selection) are printed
  over references that carry their tensor type, and move contents to and from the buffer's own type along an equation
  between the two types; these transports cancel in pairs and are the identity, and are removed before the two sides
  are compared.
-/
import proofs.«419510_j63247688401701_3_alg».proof.Proof.Gen.KernelIdeal.Frame
import proofs.«419510_j63247688401701_3_alg».proof.Proof.GlueTerms

noncomputable section

namespace Cert.KernelIdeal.GlueRun

open Idealize.ShloMosaic Idealize.ShloMosaic.TcCoe Cert.KernelIdeal Cert.KernelIdeal.Facts₀ Cert.KernelIdeal.Facts

variable {F : FTy → Type} [FloatOps F]
variable (m : (ℓ : Loc nD τ sig) → Buf (Elt F) ℓ)

/-- The contents of a buffer when the region is entered, as the fold of every operation before the region, each stretch
    of operations written out. -/
local macro "open_prefix" : tactic =>
  `(tactic| (dsimp only [Gen.V, Gen.V0]
             simp only [Gen.hostOps0, Gen.hostOps0_1, Gen.hostOps0_2, Gen.hostOps0_3, Gen.hostOps0_4, Gen.hostOps0_5,
               Gen.hostOps0_6, Gen.hostOps0_7, Gen.hostOps0_8, Gen.hostOps0_9, Gen.hostOps0_10, Gen.hostOps0_11,
               Gen.hostOps0_12, Gen.hostOps0_13, Gen.hostOps0_14, Gen.hostOps0_15, List.flatten_cons, List.flatten_nil,
               List.append_nil, List.cons_append, List.nil_append]))

/-- Each operation's result at its own buffer is its function's value, and at any other buffer what was there; then the
    transports along the typed references' type equations cancel. -/
local macro "read_prefix" : tactic =>
  `(tactic| (after_results_simp
             simp only [StableHlo.TRef.ofBuf, StableHlo.TRef.toBuf, cast_cast, cast_eq, id_eq]))

/-! ## Before the region -/

attribute [local irreducible] Host.sort2 Host.scatter Host.gather Host.reduce Host.reduceWindow in
set_option maxHeartbeats 2000000 in
/-- Buffer 19: the positions carried through the stable sort of the expert words. -/
theorem V_v19 (c : Dev nD) : Gen.V m c main_v19 = Cert.KernelIdeal.Glue.sortIdx (Gen.V m c main_arg1) := by
  rw [Gen.V_main_arg1]
  open_prefix
  read_prefix
  rfl

attribute [local irreducible] Host.sort2 Host.scatter Host.gather Host.reduce Host.reduceWindow in
set_option maxHeartbeats 2000000 in
/-- Buffer 45: the padded row each sorted row is sent to, first block of its expert times 256 plus its rank. -/
theorem V_v45 (c : Dev nD) : Gen.V m c main_v45 = Cert.KernelIdeal.Glue.destRow (Gen.V m c main_arg1) := by
  rw [Gen.V_main_arg1]
  open_prefix
  read_prefix
  rfl

attribute [local irreducible] Host.sort2 Host.scatter Host.gather Host.reduce Host.reduceWindow in
set_option maxHeartbeats 2000000 in
/-- Buffer 56, the table the index maps read: the expert owning each block, clipped into [0, 7]. -/
theorem V_v56 (c : Dev nD) : Gen.V m c main_v56 = Cert.KernelIdeal.Glue.table (Gen.V m c main_arg1) := by
  rw [Gen.V_main_arg1]
  open_prefix
  read_prefix
  rfl

/-! ## The padded rows: the prefix cut after the table

The padded rows are computed by the last five stretches of operations before the region from three earlier buffers
only: the rows (argument 0), the sort's positions (buffer 19) and the padded row of each sorted row (buffer 45). Read
with the contents before those stretches a variable, the three stay atoms. -/

open Cert.KernelIdeal.Glue in
/-- For each padded row the source row sent there, or -1, from the padded row `dest` of each sorted row and the sort's
    positions `sidx`. -/
def paddedSrcOf (dest sidx : IVec S8192 32) : IVec S10240 32 :=
  Host.scatter scatter_S10240_S8192x1_S8192_n_0_0_1 (fun _ b => b) (all10240 4294967295#32) (col (wrap 10240#32 dest)) sidx

open Cert.KernelIdeal.Glue in
/-- The padded rows in the narrower format from the rows `x` and the source row `ps` of each padded row: the source
    row, clipped and wrapped as an index, where `ps` is not negative, zero elsewhere. -/
def xPaddedOf (x : FVec F S8192x1024 .f32) (ps : IVec S10240 32) : FVec F S10240x1024 .bf16 :=
  truncf .bf16
    (select
      (broadcastInDim S10240x1024 ![0, 1] bcast_S10240x1_S10240x1024_0_1
        (broadcastInDim S10240x1 ![0] bcast_S10240_S10240x1_0 (cmpi .sge ps (all10240 0#32))))
      (Host.gather gather_S8192x1024_S10240x1_S10240x1024_1_0_n_n_0_1_11024 x
        (colL (wrapL 8192#32 (minsi (all10240 8191#32) (maxsi (all10240 0#32) ps)))))
      (broadcastInDim S10240x1024 ![] bcast_S_S10240x1024 (constant S_ .f32 0x00000000#32)))
    Facts₀.bitsLt_bf16_f32

open Cert.KernelIdeal.Glue in
/-- At the padded rows and the positions the expert words give, these are the padded rows of `Glue`. -/
theorem xPaddedOf_eq (x : FVec F S8192x1024 .f32) (note : IVec S8192 32) :
    xPaddedOf x (paddedSrcOf (destRow note) (sortIdx note)) = xPadded x note := rfl

/-- The operations before the region up to the table, and those after it. -/
abbrev opsP : List (HloOp τ sig (Elt F)) :=
  List.flatten [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10]
abbrev opsQ : List (HloOp τ sig (Elt F)) :=
  List.flatten [Gen.hostOps0_11, Gen.hostOps0_12, Gen.hostOps0_13, Gen.hostOps0_14, Gen.hostOps0_15]

/-- The contents when the region is entered: the later operations run from what the earlier ones leave. -/
theorem V0_split (c : Dev nD) :
    Gen.V0 m c = StableHlo.after opsQ (StableHlo.after opsP (fun b => m (c, b))) := by
  show StableHlo.after _ _ = _
  rw [← StableHlo.after_append, ← List.flatten_append]
  rfl

local macro "open_opsQ" : tactic =>
  `(tactic| simp only [opsQ, Gen.hostOps0_11, Gen.hostOps0_12, Gen.hostOps0_13, Gen.hostOps0_14, Gen.hostOps0_15, List.flatten_cons,
      List.flatten_nil, List.append_nil, List.cons_append, List.nil_append])

local macro "not_written_opsQ" : tactic =>
  `(tactic| (refine StableHlo.after_of_forall_not_mem _ _ (List.forall_iff_forall_mem.mp ?_)
             simp only [opsQ, Gen.hostOps0_11, Gen.hostOps0_12, Gen.hostOps0_13, Gen.hostOps0_14, Gen.hostOps0_15, List.flatten_cons,
               List.flatten_nil, List.append_nil, List.cons_append, List.nil_append, List.Forall, StableHlo.nullary_writes,
               StableHlo.unary_writes, StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

set_option maxHeartbeats 1000000 in
/-- None of the later operations writes the rows, the positions or the padded row of each sorted row. -/
theorem opsQ_arg0 (W : Valuation τ sig (Elt F)) :
    StableHlo.after opsQ W (Proc.devRef .tc main_arg0) = W (Proc.devRef .tc main_arg0) := by not_written_opsQ
set_option maxHeartbeats 1000000 in
theorem opsQ_v19 (W : Valuation τ sig (Elt F)) :
    StableHlo.after opsQ W (Proc.devRef .tc main_v19) = W (Proc.devRef .tc main_v19) := by not_written_opsQ
set_option maxHeartbeats 1000000 in
theorem opsQ_v45 (W : Valuation τ sig (Elt F)) :
    StableHlo.after opsQ W (Proc.devRef .tc main_v45) = W (Proc.devRef .tc main_v45) := by not_written_opsQ

attribute [local irreducible] Host.sort2 Host.scatter Host.gather Host.reduce Host.reduceWindow in
set_option maxHeartbeats 2000000 in
/-- The later operations, from any contents `W`: buffer 77 holds the padded rows of `W`'s rows, positions and padded
    row of each sorted row. -/
theorem opsQ_v77 (W : Valuation τ sig (Elt F)) :
    StableHlo.after opsQ W (Proc.devRef .tc main_v77)
      = xPaddedOf (F := F) (W (Proc.devRef .tc main_arg0))
          (paddedSrcOf (W (Proc.devRef .tc main_v45)) (W (Proc.devRef .tc main_v19))) := by
  open_opsQ
  after_results_simp
  simp only [StableHlo.TRef.ofBuf, StableHlo.TRef.toBuf, cast_cast, cast_eq, id_eq]
  rfl

open Cert.KernelIdeal.Glue in
/-- Buffer 77 once buffers 19 and 45 are known. -/
theorem V_v77_of (c : Dev nD) (note : IVec S8192 32)
    (h19 : Gen.V m c main_v19 = sortIdx note) (h45 : Gen.V m c main_v45 = destRow note) :
    Gen.V m c main_v77 = xPadded (F := F) (Gen.V m c main_arg0) note := by
  have e0 : Gen.V m c main_arg0 = StableHlo.after opsP (fun b => m (c, b)) (Proc.devRef .tc main_arg0) := by
    show Gen.V0 m c _ = _; rw [V0_split, opsQ_arg0]
  have e19 : Gen.V m c main_v19 = StableHlo.after opsP (fun b => m (c, b)) (Proc.devRef .tc main_v19) := by
    show Gen.V0 m c _ = _; rw [V0_split, opsQ_v19]
  have e45 : Gen.V m c main_v45 = StableHlo.after opsP (fun b => m (c, b)) (Proc.devRef .tc main_v45) := by
    show Gen.V0 m c _ = _; rw [V0_split, opsQ_v45]
  have e77 : Gen.V m c main_v77 = xPaddedOf (F := F) (Gen.V m c main_arg0) (paddedSrcOf (Gen.V m c main_v45) (Gen.V m c main_v19)) := by
    rw [e0, e19, e45]
    show Gen.V0 m c _ = _
    rw [V0_split, opsQ_v77]
  rw [e77, h45, h19]
  exact xPaddedOf_eq _ note

/-- Buffer 77: the padded rows, the source row where a padded row has one and zero elsewhere, in the narrower format. -/
theorem V_v77 (c : Dev nD) :
    Gen.V m c main_v77 = Cert.KernelIdeal.Glue.xPadded (F := F) (Gen.V m c main_arg0) (Gen.V m c main_arg1) :=
  V_v77_of m c _ (V_v19 m c) (V_v45 m c)

set_option maxHeartbeats 1000000 in
/-- Buffer 78: the first weight array in the narrower format. -/
theorem V_v78 (c : Dev nD) :
    Gen.V m c main_v78 = truncf (F := F) .bf16 (Gen.V m c main_arg2) Facts₀.bitsLt_bf16_f32 := by
  rw [Gen.V_main_arg2]
  open_prefix
  after_results

set_option maxHeartbeats 1000000 in
/-- Buffer 79: the second weight array in the narrower format. -/
theorem V_v79 (c : Dev nD) :
    Gen.V m c main_v79 = truncf (F := F) .bf16 (Gen.V m c main_arg4) Facts₀.bitsLt_bf16_f32 := by
  rw [Gen.V_main_arg4]
  open_prefix
  after_results

/-! ## After the region -/

open Cert.KernelIdeal.Glue in
attribute [local irreducible] Host.sort2 Host.scatter Host.gather Host.reduce Host.reduceWindow in
set_option maxHeartbeats 1000000 in
/-- The operations after the region, from any contents `W` of the buffers when they start: the rows of buffer 80 read
    at the padded rows that buffer 45 gives at the inverse of the sort in buffer 19. -/
theorem tail_of (W : Valuation τ sig (Elt F)) :
    StableHlo.after (Gen.hostOps1 (F := F)) W (Proc.devRef .tc main_v103)
      = Host.gather gather_S10240x1024_S8192x1_S8192x1024_1_0_n_n_0_1_11024 (W (Proc.devRef .tc main_v80))
          (col (wrap 10240#32 (Host.gather gather_S8192_S8192x1_S8192_n_0_n_n_0_1_1 (W (Proc.devRef .tc main_v45))
            (col (wrap 8192#32 (Host.scatter scatter_S8192_S8192x1_S8192_n_0_0_1 (fun _ b => b) (all8192 0#32)
              (col (wrap 8192#32 (W (Proc.devRef .tc main_v19)))) (iotaInDim S8192 32 0))))))) := by
  dsimp only [Gen.hostOps1]
  after_results_simp
  rfl

open Cert.KernelIdeal.Glue in
set_option maxHeartbeats 1000000 in
/-- The program's result once buffers 19 and 45 are known (`h19`, `h45`): the operations after the region start from
    the region's output array at buffer 80 and from the contents before the region at every buffer that is no array of
    the region. -/
theorem tail_v103_of (hO : Gen.Ok m) (c : Dev nD) (note : IVec S8192 32)
    (h19 : Gen.V m c main_v19 = sortIdx note) (h45 : Gen.V m c main_v45 = destRow note) :
    Pipeline.afterTail pcfgs (fun _ => Gen.adm m hO) (Gen.dats m hO) 0 (Gen.V0 m) [Gen.hostOps1] c main_v103
      = result (F := F) ((Gen.dats m hO 0 c).arrAt 5 (Gen.cfgM m hO).N) note := by
  unfold Pipeline.afterTail
  show StableHlo.after Gen.hostOps1 _ (Proc.devRef .tc main_v103) = _
  rw [tail_of,
    Pipeline.withArrays_arr spec0 Gen.winFacts0.arr_inj c _ _ 5,
    Pipeline.withArrays_of_ne _ c (Gen.V0 m c) _ main_v45 (by exact (by decide : ∀ w, Pipeline.arrRef spec0 w ≠ main_v45)),
    Pipeline.withArrays_of_ne _ c (Gen.V0 m c) _ main_v19 (by exact (by decide : ∀ w, Pipeline.arrRef spec0 w ≠ main_v19))]
  show Host.gather _ _ (col (wrap 10240#32 (Host.gather _ (Gen.V m c main_v45) (col (wrap 8192#32 (Host.scatter _ _ _ (col (wrap 8192#32 (Gen.V m c main_v19))) _)))))) = _
  rw [h45, h19]
  rfl

/-- The program's result: the rows read back from the region's output array, as a function of that array and of the
    expert words. -/
theorem tail_v103 (hO : Gen.Ok m) (c : Dev nD) :
    Pipeline.afterTail pcfgs (fun _ => Gen.adm m hO) (Gen.dats m hO) 0 (Gen.V0 m) [Gen.hostOps1] c main_v103
      = Cert.KernelIdeal.Glue.result (F := F) ((Gen.dats m hO 0 c).arrAt 5 (Gen.cfgM m hO).N) (Gen.V m c main_arg1) :=
  tail_v103_of m hO c _ (V_v19 m c) (V_v45 m c)

end Cert.KernelIdeal.GlueRun

end
-- ==== Proof.LibSort.lean ====
import Idealize.ShloMosaic.Lib.SortFacts
import Idealize.ShloMosaic.Lib.StableHlo.Predicate

/-!
# A stable argsort of a rank-1 table of words, read as a permutation

A sort of two rank-1 operands along their one axis, by a comparator that looks at the FIRST operand only
(signed less-than on the key) reads both operands through one self-map `σ` of the positions. That map is a
bijection, and it lists the keys in non-decreasing signed order.
-/

namespace Cert.LibSort

open Idealize.ShloMosaic

/-- Signed less-than on words of any width, decoded to the integers. -/
theorem slt_iff_toInt {w : Nat} (a b : BitVec w) : IntOp.cmpi .slt a b = 1#1 ↔ a.toInt < b.toInt := by
  simp only [IntOp.cmpi, BitVec.slt, StableHlo.Predicate.ofBool_eq_one_iff, decide_eq_true_eq]

/-- On a rank-1 shape, a sort of two operands along axis 0 reads BOTH through one self-map of the positions:
    the stable sorting permutation of the comparator on the pairs of their words. -/
theorem sort2_rank1 {n : Nat} {α β : Type} (cmp : α × β → α × β → BitVec 1)
    (x : (⟨1, ![n]⟩ : Shape).Idx → α) (y : (⟨1, ![n]⟩ : Shape).Idx → β) :
    Host.sort2 ⟨1, ![n]⟩ 0 cmp x y
      = (fun j => x (Shape.Idx.ofFin (sortedFrom (fun k k' =>
            cmp (x (Shape.Idx.ofFin k), y (Shape.Idx.ofFin k)) (x (Shape.Idx.ofFin k'), y (Shape.Idx.ofFin k')) == 1#1) (j 0))),
         fun j => y (Shape.Idx.ofFin (sortedFrom (fun k k' =>
            cmp (x (Shape.Idx.ofFin k), y (Shape.Idx.ofFin k)) (x (Shape.Idx.ofFin k'), y (Shape.Idx.ofFin k')) == 1#1) (j 0)))) := by
  unfold Host.sort2
  simp

theorem argsort_facts {n : Nat} (cmp : BitVec 32 × BitVec 32 → BitVec 32 × BitVec 32 → BitVec 1)
    (hcmp : ∀ l r, cmp l r = IntOp.cmpi .slt l.1 r.1) (keys carried : IVec ⟨1, ![n]⟩ 32) :
    ∃ σ : Fin n → Fin n, Function.Bijective σ
      ∧ (∀ j : Fin n, (Host.sort2 ⟨1, ![n]⟩ 0 cmp keys carried).1 (Shape.Idx.ofFin j) = keys (Shape.Idx.ofFin (σ j)))
      ∧ (∀ j : Fin n, (Host.sort2 ⟨1, ![n]⟩ 0 cmp keys carried).2 (Shape.Idx.ofFin j) = carried (Shape.Idx.ofFin (σ j)))
      ∧ (∀ j j' : Fin n, j ≤ j' → (keys (Shape.Idx.ofFin (σ j))).toInt ≤ (keys (Shape.Idx.ofFin (σ j'))).toInt) := by
  -- "position k's pair sorts strictly before position k''s": the key at k is less, as signed integers
  let before : Fin n → Fin n → Bool := fun k k' =>
    cmp (keys (Shape.Idx.ofFin k), carried (Shape.Idx.ofFin k)) (keys (Shape.Idx.ofFin k'), carried (Shape.Idx.ofFin k')) == 1#1
  have hb : ∀ k k', before k k' = true ↔ (keys (Shape.Idx.ofFin k)).toInt < (keys (Shape.Idx.ofFin k')).toInt := by
    intro k k'
    simp only [before, beq_iff_eq, hcmp]
    exact slt_iff_toInt _ _
  have hbf : ∀ k k', before k k' = false ↔ (keys (Shape.Idx.ofFin k')).toInt ≤ (keys (Shape.Idx.ofFin k)).toInt := by
    intro k k'
    rw [← Bool.not_eq_true, hb, not_lt]
  refine ⟨sortedFrom before, ⟨sortedFrom_injective before, sortedFrom_surjective before⟩, ?_, ?_, ?_⟩
  · intro j
    rw [sort2_rank1]
    rfl
  · intro j
    rw [sort2_rank1]
    rfl
  · intro j j' hjj
    rcases lt_or_eq_of_le hjj with hlt | rfl
    · -- a strict weak order leaves no inversion: the later position's key is not strictly less
      have h := sortedFrom_noInversion before before
        (fun a b hab => by rw [hbf]; exact le_of_lt ((hb a b).mp hab))
        (fun _ _ h => h)
        (fun a b c hab hbc => by rw [hbf] at hab hbc ⊢; exact le_trans hbc hab)
        j j' hlt
      exact (hbf _ _).mp h
    · exact le_refl _

end Cert.LibSort
-- ==== Proof.GlueSort.lean ====
import proofs.«419510_j63247688401701_3_alg».proof.Proof.GlueTerms
import proofs.«419510_j63247688401701_3_alg».proof.Proof.LibSort
import Idealize.ShloMosaic.Lib.StableHlo.Predicate

/-!
# The sort stage, decoded

The stable sort of the expert words, carrying the positions, reads the words through one bijection `σ` of the 8192
positions that lists them in non-decreasing order. The carried word at sorted position `j` is the position `σ j`
itself, and the take of the words at those positions is the word at `σ j`: a position is a non-negative word, so the
wrap of a negative index leaves it alone, and it is below 8192, so the take's clamp leaves it alone.
-/

namespace Cert.KernelIdeal.Glue

open Idealize.ShloMosaic Idealize.ShloMosaic.StableHlo.Predicate Cert.KernelIdeal Cert.KernelIdeal.Facts₀ Cert.KernelIdeal.Facts

/-- A word laid on every position reads that word at each. -/
theorem all8192_apply (n : BitVec 32) (j : S8192.Idx) : all8192 n j = n := rfl

/-- A vector kept as a column reads, at row `p`, the vector at `p`. -/
theorem col_apply (v : IVec S8192 32) (p : Fin 8192) : col v (ixP p) = v (Shape.Idx.ofFin p) :=
  bcast_col1 _ v p

/-- The wrap of a negative index is the identity on a word that is not negative. -/
theorem wrap_of_nonneg (n : BitVec 32) (v : IVec S8192 32) (j : S8192.Idx) (h : 0 ≤ (v j).toInt) : wrap n v j = v j := by
  have hc : IntOp.cmpi .slt (v j) 0#32 ≠ 1#1 := by
    rw [Ne, Cert.LibSort.slt_iff_toInt]
    simpa using h
  show Scalar.select (IntOp.cmpi .slt (v j) (all8192 0#32 j)) (IntOp.addi (v j) (all8192 n j)) (v j) = v j
  rw [all8192_apply]
  exact if_neg hc

theorem sort_decode (note : IVec S8192 32) (hnote : ∀ i : Fin 8192, (note (Shape.Idx.ofFin i)).toNat < 8) :
    ∃ σ : Fin 8192 → Fin 8192, Function.Bijective σ
      ∧ (∀ j j' : Fin 8192, j ≤ j' → (note (Shape.Idx.ofFin (σ j))).toNat ≤ (note (Shape.Idx.ofFin (σ j'))).toNat)
      ∧ (∀ j : Fin 8192, sortIdx note (Shape.Idx.ofFin j) = BitVec.ofNat 32 (σ j).val)
      ∧ (∀ j : Fin 8192, sortedNote note (Shape.Idx.ofFin j) = note (Shape.Idx.ofFin (σ j))) := by
  obtain ⟨σ, hσ, _, hcar, hsorted⟩ :=
    Cert.LibSort.argsort_facts (n := 8192) comparator_i32_i32_d0 (fun _ _ => rfl) note (iotaInDim S8192 32 0)
  -- the carried word at sorted position j is the position σ j
  have hidx : ∀ j : Fin 8192, sortIdx note (Shape.Idx.ofFin j) = BitVec.ofNat 32 (σ j).val := by
    intro j
    show (Host.sort2 S8192 0 comparator_i32_i32_d0 note (iotaInDim S8192 32 0)).2 (Shape.Idx.ofFin j) = _
    rw [hcar j]
    exact iota_apply (σ j)
  refine ⟨σ, hσ, ?_, hidx, ?_⟩
  · -- the words are below 8, so their signed and unsigned readings agree
    intro j j' hjj
    have h := hsorted j j' hjj
    have e₁ := toInt_eq_toNat_of_lt (a := note (Shape.Idx.ofFin (σ j))) (by have := hnote (σ j); omega)
    have e₂ := toInt_eq_toNat_of_lt (a := note (Shape.Idx.ofFin (σ j'))) (by have := hnote (σ j'); omega)
    rw [e₁, e₂] at h
    exact_mod_cast h
  · intro j
    have hlt : (σ j).val < 8192 := (σ j).isLt
    have hti : (BitVec.ofNat 32 (σ j).val).toInt = ((σ j).val : Int) := toInt_ofNat_small _ (by omega)
    have hval : (col (wrap 8192#32 (sortIdx note)) (ixP j)).toInt = ((σ j).val : Int) := by
      rw [col_apply, wrap_of_nonneg _ _ _ (by rw [hidx j, hti]; exact Int.natCast_nonneg _), hidx j, hti]
    unfold sortedNote
    rw [gather_take _ rfl rfl rfl rfl note _ j (by omega)]
    refine congrArg note (congrArg Shape.Idx.ofFin (Fin.ext ?_))
    show min (col (wrap 8192#32 (sortIdx note)) (ixP j)).toInt.toNat (8192 - 1) = (σ j).val
    rw [hval, Int.toNat_natCast]
    generalize (σ j).val = m at hlt ⊢
    omega

end Cert.KernelIdeal.Glue
-- ==== Proof.Routing.lean ====
import Mathlib.Algebra.BigOperators.Group.Finset.Basic
import Mathlib.Algebra.Order.BigOperators.Group.Finset
import Mathlib.Data.Finset.Card
import Mathlib.Data.Fintype.Card
import Mathlib.Order.Interval.Finset.Fin

/-!
# Routing rows to expert blocks: the combinatorics

`note i < 8` is the expert of row `i`; `σ` lists the rows in nondecreasing order of expert.
Expert `e` owns `count e` rows, which in sorted order occupy the positions `[off e, off e + count e)`.
Each expert is given `bpe e = ⌈count e / 256⌉` blocks of 256 padded rows, starting at block `cex e`.
Sorted position `j` of expert `e` goes to padded row `cex e * 256 + (j - off e)`.

Facts proved: the padded rows are distinct and below `40 * 256`; the block of a padded row that
is hit belongs to the expert of the row sent there (the table `blockExpert`).
-/

namespace Cert.Routing

open Finset

/-- Number of rows of expert `e`. -/
def count (note : Fin 8192 → ℕ) (e : ℕ) : ℕ := (Finset.univ.filter fun i => note i = e).card

/-- Number of rows of experts below `e`: the first sorted position of expert `e`. -/
def off (note : Fin 8192 → ℕ) (e : ℕ) : ℕ := ∑ e' ∈ Finset.range e, count note e'

/-- Blocks of 256 rows given to expert `e`: `⌈count e / 256⌉`. -/
def bpe (note : Fin 8192 → ℕ) (e : ℕ) : ℕ := (count note e + 255) / 256

/-- First block of expert `e`. -/
def cex (note : Fin 8192 → ℕ) (e : ℕ) : ℕ := ∑ e' ∈ Finset.range e, bpe note e'

/-- Padded row of sorted position `j`. -/
def dest (note : Fin 8192 → ℕ) (σ : Fin 8192 → Fin 8192) (j : Fin 8192) : ℕ :=
  cex note (note (σ j)) * 256 + (j.val - off note (note (σ j)))

/-- Expert of block `b`: (number of experts whose first block is `≤ b`) minus one, clipped to `[0, 7]`. -/
def blockExpert (note : Fin 8192 → ℕ) (b : ℕ) : ℕ :=
  min 7 (((Finset.range 8).filter fun e => cex note e ≤ b).card - 1)

theorem off_succ (note : Fin 8192 → ℕ) (e : ℕ) : off note (e + 1) = off note e + count note e := by
  unfold off; rw [Finset.sum_range_succ]

theorem cex_succ (note : Fin 8192 → ℕ) (e : ℕ) : cex note (e + 1) = cex note e + bpe note e := by
  unfold cex; rw [Finset.sum_range_succ]

/-- `off e` counts the rows whose expert is below `e`. -/
theorem off_eq_card_lt (note : Fin 8192 → ℕ) (e : ℕ) :
    off note e = (Finset.univ.filter fun i => note i < e).card := by
  induction e with
  | zero => simp [off]
  | succ e ih =>
    rw [off_succ, ih, count, ← Finset.card_union_of_disjoint]
    · congr 1
      ext i
      simp only [mem_union, mem_filter, mem_univ, true_and]
      omega
    · rw [Finset.disjoint_filter]
      intro i _ h1 h2
      omega

theorem count_le (note : Fin 8192 → ℕ) (e : ℕ) : count note e ≤ 8192 := by
  unfold count
  refine (Finset.card_filter_le _ _).trans ?_
  simp

theorem off_le_8192 (note : Fin 8192 → ℕ) (e : ℕ) : e ≤ 8 → off note e ≤ 8192 := by
  intro _
  rw [off_eq_card_lt]
  refine (Finset.card_filter_le _ _).trans ?_
  simp

theorem bpe_le (note : Fin 8192 → ℕ) (e : ℕ) : bpe note e ≤ 32 := by
  have := count_le note e
  unfold bpe
  omega

theorem cex_mono (note : Fin 8192 → ℕ) : Monotone (cex note) := by
  intro a b hab
  unfold cex
  exact Finset.sum_le_sum_of_subset (Finset.range_mono hab)

/-- A block inside the block range `[cex e, cex (e + 1))` of an expert `e < 8` belongs to `e`:
as `cex` is monotone, the experts whose first block is at most `b` are exactly those up to `e`. -/
theorem blockExpert_of_mem (note : Fin 8192 → ℕ) (b e : ℕ) (he : e < 8)
    (hlo : cex note e ≤ b) (hhi : b < cex note (e + 1)) : blockExpert note b = e := by
  have hset : ((Finset.range 8).filter fun e' => cex note e' ≤ b) = Finset.range (e + 1) := by
    ext e'
    simp only [mem_filter, mem_range]
    constructor
    · rintro ⟨_, hle⟩
      by_contra hgt
      have := cex_mono note (show e + 1 ≤ e' by omega)
      omega
    · intro h
      exact ⟨by omega, (cex_mono note (show e' ≤ e by omega)).trans hlo⟩
  unfold blockExpert
  rw [hset, Finset.card_range]
  omega

/-- The blocks of an expert hold all its rows. -/
theorem count_le_bpe (note : Fin 8192 → ℕ) (e : ℕ) : count note e ≤ bpe note e * 256 := by
  unfold bpe
  omega

section
variable (note : Fin 8192 → ℕ) (hnote : ∀ i, note i < 8)
include hnote

/-- Every row has an expert below 8, so the counts add up to the number of rows. -/
theorem count_sum : ∑ e ∈ Finset.range 8, count note e = 8192 := by
  have h := off_eq_card_lt note 8
  unfold off at h
  rw [h, Finset.filter_true_of_mem (fun i _ => hnote i)]
  simp

/-- `∑ ⌈c e / 256⌉ ≤ (∑ c e) / 256 + 8`. -/
theorem cex_le_32 : cex note 8 ≤ 40 := by
  have h := count_sum note hnote
  unfold cex bpe
  simp only [Finset.sum_range_succ, Finset.sum_range_zero] at h ⊢
  omega

theorem cex_le (e : ℕ) : e ≤ 8 → cex note e ≤ 40 :=
  fun h => (cex_mono note h).trans (cex_le_32 note hnote)

end

/-- Counting along a bijection. -/
theorem card_comp (σ : Fin 8192 → Fin 8192) (hσ : Function.Bijective σ)
    (P : Fin 8192 → Prop) [DecidablePred P] :
    (Finset.univ.filter fun j => P (σ j)).card = (Finset.univ.filter fun i => P i).card :=
  Finset.card_bijective σ hσ (by intro i; simp)

section
variable (note : Fin 8192 → ℕ) (σ : Fin 8192 → Fin 8192) (hσ : Function.Bijective σ)
  (hsorted : ∀ j j' : Fin 8192, j ≤ j' → note (σ j) ≤ note (σ j'))
include hσ hsorted

/-- The sorted positions holding an expert below that of position `j` all lie before `j`. -/
theorem off_le (j : Fin 8192) : off note (note (σ j)) ≤ j.val := by
  rw [off_eq_card_lt, ← card_comp σ hσ (fun i => note i < note (σ j)), ← Fin.card_Iio j]
  apply Finset.card_le_card
  intro j' hj'
  simp only [mem_filter, mem_univ, true_and] at hj'
  rw [mem_Iio]
  by_contra h
  exact absurd (hsorted j j' (not_lt.mp h)) (not_le.mpr hj')

/-- The sorted positions up to `j` all hold an expert at most that of position `j`. -/
theorem lt_off_succ (j : Fin 8192) : j.val < off note (note (σ j) + 1) := by
  rw [off_eq_card_lt, ← card_comp σ hσ (fun i => note i < note (σ j) + 1)]
  have h : (Finset.Iic j).card ≤
      (Finset.univ.filter fun j' => note (σ j') < note (σ j) + 1).card := by
    apply Finset.card_le_card
    intro j' hj'
    rw [mem_Iic] at hj'
    simp only [mem_filter, mem_univ, true_and]
    exact Nat.lt_succ_of_le (hsorted j' j hj')
  rw [Fin.card_Iic] at h
  omega

theorem rank_lt (j : Fin 8192) : j.val - off note (note (σ j)) < count note (note (σ j)) := by
  have h1 := lt_off_succ note σ hσ hsorted j
  rw [off_succ] at h1
  have h2 := off_le note σ hσ hsorted j
  omega

variable (hnote : ∀ i, note i < 8)
include hnote

theorem dest_lt (j : Fin 8192) : dest note σ j < 10240 := by
  have hr := rank_lt note σ hσ hsorted j
  have h1 : cex note (note (σ j) + 1) ≤ 40 := cex_le note hnote _ (hnote (σ j))
  rw [cex_succ] at h1
  unfold bpe at h1
  unfold dest
  omega

/-- The block of the padded row of position `j` lies in the block range of that position's expert. -/
theorem blockExpert_dest (j : Fin 8192) :
    blockExpert note (dest note σ j / 256) = note (σ j) := by
  have hr := rank_lt note σ hσ hsorted j
  refine blockExpert_of_mem note _ _ (hnote (σ j)) ?_ ?_
  · unfold dest; omega
  · rw [cex_succ]; unfold bpe dest; omega

theorem dest_div_lt (j : Fin 8192) : dest note σ j / 256 < 40 := by
  have := dest_lt note σ hσ hsorted hnote j
  omega

theorem dest_inj : Function.Injective (dest note σ) := by
  intro j j' h
  have e1 := blockExpert_dest note σ hσ hsorted hnote j
  have e2 := blockExpert_dest note σ hσ hsorted hnote j'
  rw [h] at e1
  have he : note (σ j') = note (σ j) := e2.symm.trans e1
  have o1 := off_le note σ hσ hsorted j
  have o2 := off_le note σ hσ hsorted j'
  unfold dest at h
  rw [he] at h o2
  apply Fin.ext
  omega

end

theorem blockExpert_lt (note : Fin 8192 → ℕ) (b : ℕ) : blockExpert note b < 8 := by
  unfold blockExpert
  omega

end Cert.Routing
-- ==== Proof.LibScatter.lean ====
/-
  A scatter into a vector, one update per index word.

  The operand is a vector of extent `N`, the scatter indices an [n × 1] column of words, the updates a vector of extent
  `n`; the operand's one axis is an inserted window axis and the one the index vector addresses, and the updates have
  no window axes (the four dimension numbers, each a hypothesis). Update `p` then lands at the position its index
  word names, read signed, and is dropped when that position is outside the operand. Where every word names a position
  `pos p` of the operand, the scatter is the left fold, over the updates in order, of "rewrite the element at `pos p`":

  * SET (the body returns the update) with `pos` injective: the element at `pos p` ends as update `p`
    (`scatter_set_hit`), and an element no update names keeps the operand's value (`scatter_set_miss`);
  * ADD of ones onto zeros: the element at `e` ends as the NUMBER of updates whose word names `e`
    (`scatter_add_count`), the count being below 2³² because there are fewer than 2³² updates.

  The fold is never evaluated: each fact is an induction over a list of update positions without repetition.
-/
import Mathlib.Data.Finset.Card
import Mathlib.Data.Fintype.Card
import Mathlib.Data.List.FinRange
import Idealize.ShloMosaic.Lib.StableHlo.Predicate

namespace Cert.LibScatter

open Idealize.ShloMosaic
open Idealize.ShloMosaic.StableHlo.Predicate (ixP)

/-! ## Where one update lands -/

section dims
variable {N n w : Nat} (d : ScatterDims ⟨1, ![N]⟩ ⟨2, ![n, 1]⟩ ⟨1, ![n]⟩)

set_option maxHeartbeats 400000 in
/-- The start on the operand's one axis is the index word in the update's row of the column, read signed: the index
    vector lies along axis 1, so component 0 of update `j`'s start index is read at (`j 0`, 0). -/
private theorem start_eq (hsd : d.scatterDimsToOperandDims = [0]) (hivd : d.indexVectorDim = 1)
    (j : (⟨1, ![n]⟩ : Shape).Idx) (idx : IVec ⟨2, ![n, 1]⟩ w) :
    d.start j idx 0 = (idx (ixP (j 0))).toInt := by
  have hm : (0 : Fin 1) ∈ d.scatterDimsToOperandDims := by rw [hsd]; exact List.mem_singleton.mpr rfl
  unfold ScatterDims.start
  rw [dif_pos hm]
  refine congrArg (fun z => (idx z).toInt) ?_
  funext b
  match b with
  | ⟨0, _⟩ =>
    -- axis 0 of the column: the update's coordinate on its one scatter axis
    unfold ScatterDims.siIdx
    rw [dif_neg (by rw [hivd]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    -- axis 1, the index vector's: the component's number, which is 0
    unfold ScatterDims.siIdx
    rw [dif_pos (by rw [hivd])]
    apply Fin.ext
    show List.idxOf (0 : Fin 1) d.scatterDimsToOperandDims = 0
    rw [hsd]; simp

set_option maxHeartbeats 400000 in
/-- The operand's one axis is an inserted window axis: no window coordinate is added on it. -/
private theorem window_eq (hins : d.insertedWindowDims = [0]) (j : (⟨1, ![n]⟩ : Shape).Idx) : d.window j 0 = 0 := by
  have hk : (0 : Fin 1) ∉ d.sKept := by
    simp [ScatterDims.sKept, Shape.kept, hins]
  unfold ScatterDims.window
  rw [dif_neg hk]

set_option maxHeartbeats 400000 in
/-- An update whose index word names position `q` of the operand lands at `q`. -/
private theorem resultIdx_eq (hins : d.insertedWindowDims = [0]) (hsd : d.scatterDimsToOperandDims = [0])
    (hivd : d.indexVectorDim = 1) (idx : IVec ⟨2, ![n, 1]⟩ w) (j : (⟨1, ![n]⟩ : Shape).Idx) (q : Fin N)
    (hq : (idx (ixP (j 0))).toInt = (q.val : Int)) :
    d.resultIdx? j idx = some (Shape.Idx.ofFin q) := by
  have hsum : ∀ a : Fin 1, d.start j idx a + d.window j a = (q.val : Int) := fun a => by
    have ha : a = 0 := Subsingleton.elim _ _
    subst ha
    rw [start_eq d hsd hivd, window_eq d hins, hq]; simp
  have hall : ∀ a : Fin 1, 0 ≤ d.start j idx a + d.window j a
      ∧ d.start j idx a + d.window j a < (⟨1, ![N]⟩ : Shape).size a := fun a => by
    have ha : a = 0 := Subsingleton.elim _ _
    rw [hsum a]
    subst ha
    refine ⟨Int.natCast_nonneg _, ?_⟩
    show (q.val : Int) < (N : Int)
    exact Int.ofNat_lt.mpr q.isLt
  unfold ScatterDims.resultIdx?
  rw [dif_pos hall]
  refine congrArg some ?_
  funext a
  apply Fin.ext
  show (d.start j idx a + d.window j a).toNat = _
  rw [hsum a]
  have ha : a = 0 := Subsingleton.elim _ _
  subst ha
  simp

end dims

/-! ## The scatter as a fold over the update positions -/

/-- Row-major position `p` of a vector's indices is the index at coordinate `p`. -/
private theorem rowMajor_symm_cast {n : Nat} (h : n = (⟨1, ![n]⟩ : Shape).numel) (p : Fin n) :
    (⟨1, ![n]⟩ : Shape).rowMajor.symm (Fin.cast h p) = Shape.Idx.ofFin p := by
  apply (⟨1, ![n]⟩ : Shape).rowMajor.injective
  rw [Equiv.apply_symm_apply]
  apply Fin.ext
  rw [Shape.rowMajor_val_one]
  simp

/-- The numbers below `m` in order are the numbers below `n` in order, when `n = m`. -/
private theorem finRange_cast {n m : Nat} (h : n = m) : List.finRange m = (List.finRange n).map (Fin.cast h) := by
  subst h
  simp

section fold
variable {α : Type} {N n w : Nat} (d : ScatterDims ⟨1, ![N]⟩ ⟨2, ![n, 1]⟩ ⟨1, ![n]⟩)

set_option maxHeartbeats 400000 in
/-- The scatter is the fold, over the update positions `0, …, n - 1` in order, of the step that replaces the element
    at `pos p` by the body applied to it and update `p`. -/
private theorem scatter_eq_fold (hins : d.insertedWindowDims = [0]) (hsd : d.scatterDimsToOperandDims = [0])
    (hivd : d.indexVectorDim = 1) (f : α → α → α) (x : (⟨1, ![N]⟩ : Shape).Idx → α) (idx : IVec ⟨2, ![n, 1]⟩ w)
    (upd : (⟨1, ![n]⟩ : Shape).Idx → α) (pos : Fin n → Fin N)
    (hpos : ∀ p, (idx (ixP p)).toInt = ((pos p).val : Int)) :
    Host.scatter d f x idx upd
      = (List.finRange n).foldl (fun r p => fun i' =>
          if i' = Shape.Idx.ofFin (pos p) then f (r (Shape.Idx.ofFin (pos p))) (upd (Shape.Idx.ofFin p)) else r i') x := by
  have hnum : n = (⟨1, ![n]⟩ : Shape).numel := by rw [Shape.numel_rank1]; rfl
  unfold Host.scatter
  rw [finRange_cast hnum, List.foldl_map]
  refine congrArg (fun F => List.foldl F x (List.finRange n)) ?_
  funext r p
  rw [rowMajor_symm_cast hnum p,
    resultIdx_eq d hins hsd hivd idx (Shape.Idx.ofFin p) (pos p) (by rw [Shape.Idx.ofFin_zero]; exact hpos p)]

end fold

/-! ## Folds of "rewrite one element", over any list of updates -/

section lists
variable {ι β α : Type} [DecidableEq ι]

/-- An index that no update of the list names keeps the value it started with. -/
private theorem foldl_set_miss (f : α → α → α) (g : β → ι) (v : β → α) (l : List β) (x : ι → α) (i : ι)
    (hi : ∀ k ∈ l, g k ≠ i) :
    l.foldl (fun r k => fun i' => if i' = g k then f (r (g k)) (v k) else r i') x i = x i := by
  induction l generalizing x with
  | nil => rfl
  | cons a l ih =>
    rw [List.foldl_cons, ih _ (fun k hk => hi k (List.mem_cons_of_mem _ hk))]
    exact if_neg (fun h => hi a List.mem_cons_self h.symm)

/-- SET: over a list without repetition, with distinct updates naming distinct indices, the index update `k` names
    ends with `k`'s value: `k`'s step writes it, and every later update names another index. -/
private theorem foldl_set_hit (f : α → α → α) (hf : ∀ a b, f a b = b) (g : β → ι) (hg : Function.Injective g) (v : β → α)
    (l : List β) (hl : l.Nodup) (x : ι → α) (k : β) (hk : k ∈ l) :
    l.foldl (fun r k => fun i' => if i' = g k then f (r (g k)) (v k) else r i') x (g k) = v k := by
  induction l generalizing x with
  | nil => exact absurd hk List.not_mem_nil
  | cons a l ih =>
    rw [List.foldl_cons]
    rcases List.mem_cons.1 hk with hka | hk'
    · subst hka
      have hnot : k ∉ l := (List.nodup_cons.1 hl).1
      rw [foldl_set_miss f g v l _ (g k) (fun b hb h => hnot (hg h ▸ hb)), if_pos rfl, hf]
    · exact ih (List.nodup_cons.1 hl).2 _ hk'

/-- ADD of ones: each index gains, in 32-bit arithmetic, the number of updates of the list that name it. -/
private theorem foldl_add_count (g : β → ι) (v : β → BitVec 32) (hv : ∀ k, v k = 1#32) (l : List β)
    (x : ι → BitVec 32) (i : ι) :
    l.foldl (fun r k => fun i' => if i' = g k then IntOp.addi (r (g k)) (v k) else r i') x i
      = x i + BitVec.ofNat 32 (l.countP fun k => g k = i) := by
  induction l generalizing x with
  | nil => simp
  | cons a l ih =>
    rw [List.foldl_cons, ih, List.countP_cons]
    by_cases h : i = g a
    · subst h
      rw [if_pos rfl, hv]
      simp only [decide_true, if_true]
      show x (g a) + 1#32 + _ = _
      rw [BitVec.ofNat_add, BitVec.add_assoc]
      refine congrArg (x (g a) + ·) ?_
      exact BitVec.add_comm _ _
    · rw [if_neg h]
      have h' : ¬ g a = i := fun e => h e.symm
      simp [h']

end lists

/-- Distinct coordinates give distinct indices of a vector. -/
private theorem ofFin_injective {n : Nat} :
    Function.Injective (Shape.Idx.ofFin : Fin n → (⟨1, ![n]⟩ : Shape).Idx) := fun a b h => by
  have := congrFun h 0
  rwa [Shape.Idx.ofFin_zero, Shape.Idx.ofFin_zero] at this

/-- Counting along the list of all numbers below `n` is the cardinality of the set of those with the property. -/
private theorem countP_finRange {n : Nat} (P : Fin n → Prop) [DecidablePred P] :
    (List.finRange n).countP (fun p => P p) = (Finset.univ.filter fun p : Fin n => P p).card := by
  have h : (Finset.univ.filter fun p : Fin n => P p) = ((List.finRange n).filter fun p => decide (P p)).toFinset := by
    ext p; simp
  rw [h, List.toFinset_card_of_nodup ((List.nodup_finRange n).filter _), List.countP_eq_length_filter]

/-! ## The three facts -/

/-- SET at distinct positions: the element at `pos p` is update `p`. -/
theorem scatter_set_hit {α : Type} {N n w : Nat} (d : ScatterDims ⟨1, ![N]⟩ ⟨2, ![n, 1]⟩ ⟨1, ![n]⟩)
    (huw : d.updateWindowDims = []) (hins : d.insertedWindowDims = [0]) (hsd : d.scatterDimsToOperandDims = [0])
    (hivd : d.indexVectorDim = 1) (x : (⟨1, ![N]⟩ : Shape).Idx → α) (idx : IVec ⟨2, ![n, 1]⟩ w)
    (upd : (⟨1, ![n]⟩ : Shape).Idx → α) (pos : Fin n → Fin N)
    (hpos : ∀ p, (idx (StableHlo.Predicate.ixP p)).toInt = ((pos p).val : Int)) (hinj : Function.Injective pos)
    (p : Fin n) :
    Host.scatter d (fun _ b => b) x idx upd (Shape.Idx.ofFin (pos p)) = upd (Shape.Idx.ofFin p) := by
  rw [scatter_eq_fold d hins hsd hivd _ x idx upd pos hpos]
  exact foldl_set_hit (fun _ b => b) (fun _ _ => rfl) (fun p => Shape.Idx.ofFin (pos p)) (ofFin_injective.comp hinj)
    (fun p => upd (Shape.Idx.ofFin p)) (List.finRange n) (List.nodup_finRange n) x p (List.mem_finRange p)

/-- SET: an element whose position no index word names is the operand's. -/
theorem scatter_set_miss {α : Type} {N n w : Nat} (d : ScatterDims ⟨1, ![N]⟩ ⟨2, ![n, 1]⟩ ⟨1, ![n]⟩)
    (huw : d.updateWindowDims = []) (hins : d.insertedWindowDims = [0]) (hsd : d.scatterDimsToOperandDims = [0])
    (hivd : d.indexVectorDim = 1) (x : (⟨1, ![N]⟩ : Shape).Idx → α) (idx : IVec ⟨2, ![n, 1]⟩ w)
    (upd : (⟨1, ![n]⟩ : Shape).Idx → α) (pos : Fin n → Fin N)
    (hpos : ∀ p, (idx (StableHlo.Predicate.ixP p)).toInt = ((pos p).val : Int)) (i : Fin N) (hi : ∀ p, pos p ≠ i) :
    Host.scatter d (fun _ b => b) x idx upd (Shape.Idx.ofFin i) = x (Shape.Idx.ofFin i) := by
  rw [scatter_eq_fold d hins hsd hivd _ x idx upd pos hpos]
  exact foldl_set_miss (fun _ b => b) (fun p => Shape.Idx.ofFin (pos p)) (fun p => upd (Shape.Idx.ofFin p))
    (List.finRange n) x (Shape.Idx.ofFin i) (fun p _ h => hi p (ofFin_injective h))

/-- ADD of ones onto zeros: the element at `e` is the number of updates whose index word names `e`. -/
theorem scatter_add_count {N n : Nat} (d : ScatterDims ⟨1, ![N]⟩ ⟨2, ![n, 1]⟩ ⟨1, ![n]⟩)
    (huw : d.updateWindowDims = []) (hins : d.insertedWindowDims = [0]) (hsd : d.scatterDimsToOperandDims = [0])
    (hivd : d.indexVectorDim = 1) (x : IVec ⟨1, ![N]⟩ 32) (idx : IVec ⟨2, ![n, 1]⟩ 32) (upd : IVec ⟨1, ![n]⟩ 32)
    (hx : ∀ i, x i = 0#32) (hupd : ∀ p, upd p = 1#32) (pos : Fin n → Fin N)
    (hpos : ∀ p, (idx (StableHlo.Predicate.ixP p)).toInt = ((pos p).val : Int)) (hn : n < 2 ^ 32) (e : Fin N) :
    (Host.scatter d IntOp.addi x idx upd (Shape.Idx.ofFin e)).toNat
      = (Finset.univ.filter fun p : Fin n => pos p = e).card := by
  rw [scatter_eq_fold d hins hsd hivd _ x idx upd pos hpos,
    foldl_add_count (fun p => Shape.Idx.ofFin (pos p)) (fun p => upd (Shape.Idx.ofFin p)) (fun p => hupd _)
      (List.finRange n) x,
    hx, BitVec.zero_add, BitVec.toNat_ofNat]
  have hc : (List.finRange n).countP (fun p => decide (Shape.Idx.ofFin (pos p) = Shape.Idx.ofFin e))
      = (Finset.univ.filter fun p : Fin n => pos p = e).card := by
    rw [← countP_finRange]
    exact List.countP_congr fun p _ => by simp [ofFin_injective.eq_iff]
  rw [hc]
  exact Nat.mod_eq_of_lt (lt_of_le_of_lt (Finset.card_le_univ _) (by simpa using hn))

end Cert.LibScatter
-- ==== Proof.LibWindow.lean ====
/-
  General facts about host operations on 32-bit words, stated over variables of literal shapes.

  1. Words that do not wrap: the sum, the difference and the product of two words are those of their values.
  2. A running sum: the window reduction by word addition from zero, with a window of 8 positions, stride 1 and 7
     positions of padding before the table, applied to a table of 8 words. Window position `n` of result `j` reads
     table position `j + n - 7`, or the initial zero where that is before the table; so result `j` is the sum of
     table positions `0 … j`, provided the table's total does not wrap.
  3. Floor division of a non-negative word by 256, as it is written over truncating division (the quotient, less one
     where the signs differ and the remainder is not zero): its value is the quotient of the values.
-/
import Idealize.ShloMosaic.Lib.StableHlo.Predicate
import Mathlib.Algebra.BigOperators.Fin
import Mathlib.Algebra.Order.BigOperators.Group.Finset

namespace Cert.LibWindow

open Idealize.ShloMosaic

/-! ## Word arithmetic that does not wrap -/

theorem addi_toNat (a b : BitVec 32) (h : a.toNat + b.toNat < 2 ^ 32) : (IntOp.addi a b).toNat = a.toNat + b.toNat := by
  show (a + b).toNat = _
  rw [BitVec.toNat_add]; exact Nat.mod_eq_of_lt h

theorem subi_toNat (a b : BitVec 32) (h : b.toNat ≤ a.toNat) : (IntOp.subi a b).toNat = a.toNat - b.toNat := by
  show (a - b).toNat = _
  rw [BitVec.toNat_sub]; have := a.isLt; have := b.isLt; omega

theorem muli_toNat (a b : BitVec 32) (h : a.toNat * b.toNat < 2 ^ 32) : (IntOp.muli a b).toNat = a.toNat * b.toNat := by
  show (a * b).toNat = _
  rw [BitVec.toNat_mul]; exact Nat.mod_eq_of_lt h

/-! ## Rank-one shapes -/

theorem numel_rank1 (m : Nat) : (⟨1, ![m]⟩ : Shape).numel = m := by
  simp [Shape.numel]

theorem rowMajor_symm_rank1 (m : Nat) (n : Fin (⟨1, ![m]⟩ : Shape).numel) (a : Fin 1) :
    (((⟨1, ![m]⟩ : Shape).rowMajor.symm n) a).val = n.val := by
  have h := Shape.rowMajorPi_succ_val (⟨1, ![m]⟩ : Shape).size ((⟨1, ![m]⟩ : Shape).rowMajor.symm n)
  have h2 : (Shape.rowMajorPi (⟨1, ![m]⟩ : Shape).size ((⟨1, ![m]⟩ : Shape).rowMajor.symm n)) = n :=
    (⟨1, ![m]⟩ : Shape).rowMajor.apply_symm_apply n
  rw [h2] at h
  obtain rfl : a = 0 := Subsingleton.elim _ _
  have hlt := ((Shape.rowMajorPi fun a : Fin 0 => (⟨1, ![m]⟩ : Shape).size a.succ) fun a =>
    (⟨1, ![m]⟩ : Shape).rowMajor.symm n a.succ).isLt
  simp only [Finset.univ_eq_empty, Finset.prod_empty] at h hlt
  omega

theorem toNat_foldl_addi {ι : Type} (l : List ι) (g : ι → BitVec 32) (v : BitVec 32)
    (h : v.toNat + (l.map fun n => (g n).toNat).sum < 2 ^ 32) :
    (l.foldl (fun r n => IntOp.addi r (g n)) v).toNat = v.toNat + (l.map fun n => (g n).toNat).sum := by
  induction l generalizing v with
  | nil => simp
  | cons a l ih =>
    simp only [List.map_cons, List.sum_cons] at h
    have ha : (IntOp.addi v (g a)).toNat = v.toNat + (g a).toNat := addi_toNat _ _ (by omega)
    rw [List.foldl_cons, ih _ (by rw [ha]; omega), ha]
    simp only [List.map_cons, List.sum_cons]; omega

/-- The word at a natural position of an 8-word table, read as a number; zero outside the table. -/
def xN (x : IVec ⟨1, ![8]⟩ 32) (k : ℕ) : ℕ := if hk : k < 8 then (x (Shape.Idx.ofFin ⟨k, hk⟩)).toNat else 0

theorem xN_of_lt (x : IVec ⟨1, ![8]⟩ 32) (k : Fin 8) : xN x k.val = (x (Shape.Idx.ofFin k)).toNat := by
  unfold xN; rw [dif_pos k.isLt]

/-- A window of 8 positions ending at `j`, the positions before the table contributing nothing, sums the table's
    first `j + 1` words: position `n` of the window is table position `j + n - 7`. -/
theorem window_sum (x : IVec ⟨1, ![8]⟩ 32) (j : Fin 8) :
    ∑ n ∈ Finset.range 8, (if 7 ≤ j.val + n then xN x (j.val + n - 7) else 0)
      = ∑ k ∈ Finset.univ.filter (fun k : Fin 8 => k.val ≤ j.val), (x (Shape.Idx.ofFin k)).toNat := by
  rw [Finset.sum_filter]
  simp_rw [← xN_of_lt]
  rw [Fin.sum_univ_eq_sum_range (fun i => if i ≤ j.val then xN x i else 0) 8]
  fin_cases j <;> simp [Finset.sum_range_succ]

theorem foldl_window (x : IVec ⟨1, ![8]⟩ 32) (hsum : (∑ k : Fin 8, (x (Shape.Idx.ofFin k)).toNat) < 2 ^ 32) (j : Fin 8)
    (G : Fin (⟨1, ![8]⟩ : Shape).numel → BitVec 32)
    (hG : ∀ n, (G n).toNat = if 7 ≤ j.val + n.val then xN x (j.val + n.val - 7) else 0) :
    ((List.finRange (⟨1, ![8]⟩ : Shape).numel).foldl (fun r n => IntOp.addi r (G n)) 0#32).toNat
      = ∑ k ∈ Finset.univ.filter (fun k : Fin 8 => k.val ≤ j.val), (x (Shape.Idx.ofFin k)).toNat := by
  have hlist : ((List.finRange (⟨1, ![8]⟩ : Shape).numel).map fun n => (G n).toNat).sum
      = ∑ k ∈ Finset.univ.filter (fun k : Fin 8 => k.val ≤ j.val), (x (Shape.Idx.ofFin k)).toNat := by
    rw [← Fin.sum_univ_def]
    simp_rw [hG]
    rw [Fin.sum_univ_eq_sum_range (fun n => if 7 ≤ j.val + n then xN x (j.val + n - 7) else 0), numel_rank1]
    exact window_sum x j
  have hle : ∑ k ∈ Finset.univ.filter (fun k : Fin 8 => k.val ≤ j.val), (x (Shape.Idx.ofFin k)).toNat
      ≤ ∑ k : Fin 8, (x (Shape.Idx.ofFin k)).toNat :=
    Finset.sum_le_sum_of_subset (Finset.filter_subset _ _)
  have h0 : (0#32 : BitVec 32).toNat = 0 := rfl
  rw [toNat_foldl_addi _ _ _ (by rw [hlist, h0]; omega), hlist, h0, Nat.zero_add]

theorem cumsum8_toNat (x : IVec ⟨1, ![8]⟩ 32) (v : IVec ⟨0, ![]⟩ 32) (hv : ∀ i, v i = 0#32)
    (h : (⟨1, ![8]⟩ : Shape).ReduceWindows (![8] : Fin 1 → Nat) ![1] ![7] ![0] ⟨1, ![8]⟩)
    (hu : 0 < (⟨0, ![]⟩ : Shape).numel)
    (hsum : (∑ k : Fin 8, (x (Shape.Idx.ofFin k)).toNat) < 2 ^ 32) (j : Fin 8) :
    (Host.reduceWindow IntOp.addi ![8] ![1] ![7] ![0] x v h hu (Shape.Idx.ofFin j)).toNat
      = ∑ k ∈ Finset.univ.filter (fun k : Fin 8 => k.val ≤ j.val), (x (Shape.Idx.ofFin k)).toNat := by
  simp only [Host.reduceWindow, hv]
  refine foldl_window x hsum j _ ?_
  intro n
  have hn : n.val < 8 := lt_of_lt_of_eq n.isLt (numel_rank1 8)
  have hp : ∀ a : Fin 1, (Shape.Idx.ofFin j (Fin.cast h.1.symm a)).val * (![1] : Fin 1 → ℕ) a
      + ((⟨1, ![8]⟩ : Shape).rowMajor.symm n a).val = j.val + n.val := by
    intro a; obtain rfl : a = 0 := Subsingleton.elim _ _
    rw [rowMajor_symm_rank1]; simp
  by_cases c : 7 ≤ j.val + n.val
  · rw [if_pos c]
    split
    · rw [xN, dif_pos (show j.val + n.val - 7 < 8 by omega)]
      refine congrArg (fun i => (x i).toNat) (funext fun a => Fin.ext ?_)
      obtain rfl : a = 0 := Subsingleton.elim _ _
      show _ - 7 = j.val + n.val - 7
      rw [hp 0]
    · rename_i hnot
      refine absurd (fun a => ?_) hnot
      rw [hp a]
      obtain rfl : a = 0 := Subsingleton.elim _ _
      exact ⟨c, show j.val + n.val - 7 < 8 by omega⟩
  · rw [if_neg c]
    split
    · rename_i hall
      have h7 := (hall 0).1
      rw [hp 0] at h7
      exact absurd h7 c
    · rfl

/-! ## Floor division of a non-negative word by 256 -/

/-- The sign of a 32-bit word as a word: 0, -1 or 1. -/
def signWord (x : BitVec 32) : BitVec 32 := if x = 0 then 0 else if x.msb then -1 else 1

theorem signi_apply {s : Shape} (x : IVec s 32) (i : s.Idx) : signi x i = signWord (x i) := rfl

theorem signWord_256 : signWord 256#32 = 1#32 := by decide

/-- A non-negative word divided by 256, signed, rounding toward zero: the quotient of the values. -/
theorem divsi_256 (u : ArithUnit) (a : BitVec 32) (ha : a.toNat < 2 ^ 31) : (IntOp.divsi u a 256#32).toNat = a.toNat / 256 := by
  have hcorner : ¬ IntOp.SDivCorner a 256#32 := by
    intro hc; rcases hc with hc | ⟨_, hc⟩ <;> exact absurd hc (by decide)
  have hm : a.msb = false := BitVec.msb_eq_false_iff_two_mul_lt.mpr (by omega)
  simp only [IntOp.divsi, if_neg hcorner, BitVec.sdiv_eq, hm, show (256#32 : BitVec 32).msb = false from by decide, BitVec.udiv_eq,
    BitVec.toNat_udiv, BitVec.toNat_ofNat]

/-- Floor division as it is written over truncating division: the quotient, less one where the operands' signs differ and
    the remainder is not zero. For a non-negative dividend and the divisor 256 the correction never applies — a zero
    dividend has remainder zero, a positive one has the divisor's sign — so the value is the quotient of the values. -/
theorem floorDiv256_toNat (a : BitVec 32) (ha : a.toNat < 2 ^ 31) :
    (Scalar.select
      (IntOp.andi (IntOp.cmpi .ne (signWord a) (signWord 256#32)) (IntOp.cmpi .ne (IntOp.remsi .host a 256#32) 0#32))
      (IntOp.subi (IntOp.divsi .host a 256#32) 1#32) (IntOp.divsi .host a 256#32)).toNat = a.toNat / 256 := by
  have hmask : IntOp.andi (IntOp.cmpi .ne (signWord a) (signWord 256#32)) (IntOp.cmpi .ne (IntOp.remsi .host a 256#32) 0#32) = 0#1 := by
    by_cases h0 : a = (0 : BitVec 32)
    · subst h0; decide
    · have hm : a.msb = false := BitVec.msb_eq_false_iff_two_mul_lt.mpr (by omega)
      have hs : signWord a = 1#32 := by unfold signWord; rw [if_neg h0, hm]; rfl
      rw [hs, signWord_256]
      show (BitVec.ofBool ((1#32 : BitVec 32) != 1#32)) &&& _ = 0#1
      rw [show ((1#32 : BitVec 32) != 1#32) = false from by decide]
      exact BitVec.zero_and
  rw [hmask]
  unfold Scalar.select
  rw [if_neg (show ¬ ((0#1 : BitVec 1) = 1) by decide)]
  exact divsi_256 .host a ha

/-- The same with the literals as variables, as they arrive from broadcasts. -/
theorem floorDiv256_toNat_of (a d d' sd z one : BitVec 32) (hd : d = 256#32) (hd' : d' = 256#32) (hsd : sd = signWord 256#32)
    (hz : z = 0#32) (ho : one = 1#32) (ha : a.toNat < 2 ^ 31) :
    (Scalar.select (IntOp.andi (IntOp.cmpi .ne (signWord a) sd) (IntOp.cmpi .ne (IntOp.remsi .host a d') z))
      (IntOp.subi (IntOp.divsi .host a d) one) (IntOp.divsi .host a d)).toNat = a.toNat / 256 := by
  subst hd hd' hsd hz ho; exact floorDiv256_toNat a ha

/-- The same at one element of the vector operations. -/
theorem floorDiv256_vec_toNat {s : Shape} (a d d' sd z one : IVec s 32) (i : s.Idx) (hd : d i = 256#32) (hd' : d' i = 256#32)
    (hsd : sd i = signWord 256#32) (hz : z i = 0#32) (ho : one i = 1#32) (ha : (a i).toNat < 2 ^ 31) :
    (select (andi (cmpi .ne (signi a) sd) (cmpi .ne (Host.remsi a d') z)) (subi (Host.divsi a d) one) (Host.divsi a d) i).toNat
      = (a i).toNat / 256 :=
  floorDiv256_toNat_of (a i) (d i) (d' i) (sd i) (z i) (one i) hd hd' hsd hz ho ha

end Cert.LibWindow
-- ==== Proof.GlueCounts.lean ====
import proofs.«419510_j63247688401701_3_alg».proof.Proof.GlueTerms
import proofs.«419510_j63247688401701_3_alg».proof.Proof.Routing
import proofs.«419510_j63247688401701_3_alg».proof.Proof.LibScatter
import proofs.«419510_j63247688401701_3_alg».proof.Proof.LibWindow
import Idealize.ShloMosaic.Lib.StableHlo.Predicate
import Mathlib.Algebra.BigOperators.Fin

/-!
# The routing tables of the host program, decoded

Under the precondition that every expert word lies in `[0, 8)`, the four tables the host program computes from the
expert words — how many rows name each expert, where each expert's rows start among the sorted rows, how many blocks
of 256 rows each expert needs, and each expert's first block — are, read as natural numbers, the functions
`count`, `off`, `bpe`, `cex` of the routing combinatorics.
-/

noncomputable section

namespace Cert.KernelIdeal.Glue

open Idealize.ShloMosaic Cert.KernelIdeal Cert.KernelIdeal.Facts₀ Cert.KernelIdeal.Facts
open Idealize.ShloMosaic.StableHlo.Predicate (ixP)

/-! ## Words: a word in `[0, 2³¹)` passes the clip at zero and the wrap of negative indices unchanged -/

private theorem maxsi_zero_of_nonneg (w : BitVec 32) (hw : w.toNat < 2 ^ 31) : IntOp.maxsi 0#32 w = w := by
  have hti : w.toInt = w.toNat := StableHlo.Predicate.toInt_eq_toNat_of_lt hw
  have h0 : (0#32 : BitVec 32).toInt = 0 := by decide
  unfold IntOp.maxsi
  rw [if_neg]
  simp only [BitVec.slt, hti, h0, decide_eq_true_eq]
  omega

private theorem clip0_apply (note : IVec S8192 32) (i : S8192.Idx) (h : (note i).toNat < 2 ^ 31) : clip0 note i = note i :=
  maxsi_zero_of_nonneg (note i) h

private theorem wrap_apply (n : BitVec 32) (v : IVec S8192 32) (i : S8192.Idx) (h : (v i).toNat < 2 ^ 31) : wrap n v i = v i := by
  have hc : IntOp.cmpi .slt (v i) 0#32 ≠ 1#1 := by
    rw [Ne, StableHlo.Predicate.slt_iff_toNat h (by decide)]
    simp
  show Scalar.select (IntOp.cmpi .slt (v i) 0#32) _ (v i) = v i
  exact if_neg hc

/-- The column of scatter positions reads, at row `p`, the expert word of row `p`. -/
private theorem countsIdx_apply (note : IVec S8192 32) (p : Fin 8192) (h : (note (Shape.Idx.ofFin p)).toNat < 2 ^ 31) :
    col (wrap 8#32 (clip0 note)) (ixP p) = note (Shape.Idx.ofFin p) := by
  unfold col
  rw [StableHlo.Predicate.bcast_col1, wrap_apply _ _ _ (by rw [clip0_apply _ _ h]; exact h), clip0_apply _ _ h]

/-! ## Sums over the first experts -/

private theorem sum_filter_le_eq_range (f : ℕ → ℕ) (j : Fin 8) :
    ∑ k ∈ Finset.univ.filter (fun k : Fin 8 => k.val ≤ j.val), f k.val = ∑ e' ∈ Finset.range (j.val + 1), f e' := by
  rw [Finset.sum_filter, Fin.sum_univ_eq_sum_range (fun i => if i ≤ j.val then f i else 0) 8, ← Finset.sum_filter]
  congr 1
  ext i
  simp only [Finset.mem_filter, Finset.mem_range]
  omega

section
variable (note : IVec S8192 32) (hnote : ∀ i : Fin 8192, (note (Shape.Idx.ofFin i)).toNat < 8)
include hnote

/-- The scatter adds a one at each row's expert: the result counts the rows of each expert. -/
theorem counts_toNat (e : Fin 8) :
    (counts note (Shape.Idx.ofFin e)).toNat
      = Cert.Routing.count (fun i => (note (Shape.Idx.ofFin i)).toNat) e.val := by
  unfold counts
  rw [Cert.LibScatter.scatter_add_count scatter_S8_S8192x1_S8192_n_0_0_1 rfl rfl rfl rfl (all8 0#32)
    (col (wrap 8#32 (clip0 note))) (all8192 1#32) (fun _ => rfl) (fun _ => rfl)
    (fun p => ⟨(note (Shape.Idx.ofFin p)).toNat, hnote p⟩)
    (fun p => by
      rw [countsIdx_apply note p (by have := hnote p; omega)]
      exact StableHlo.Predicate.toInt_eq_toNat_of_lt (by have := hnote p; omega))
    (by omega) e]
  unfold Cert.Routing.count
  congr 1
  ext p
  simp only [Finset.mem_filter, Finset.mem_univ, true_and, Fin.ext_iff]

/-- The eight counts add up to the number of rows. -/
theorem sum_counts :
    ∑ k : Fin 8, (counts note (Shape.Idx.ofFin k)).toNat = 8192 := by
  rw [Finset.sum_congr rfl (fun k _ => counts_toNat note hnote k),
    Fin.sum_univ_eq_sum_range (fun e => Cert.Routing.count (fun i => (note (Shape.Idx.ofFin i)).toNat) e) 8]
  exact Cert.Routing.count_sum _ hnote

/-- The running sum of the counts up to and including expert `e`. -/
theorem cumsum_counts_toNat (e : Fin 8) :
    (cumsum (counts note) (Shape.Idx.ofFin e)).toNat
      = Cert.Routing.off (fun i => (note (Shape.Idx.ofFin i)).toNat) (e.val + 1) := by
  unfold cumsum
  rw [Cert.LibWindow.cumsum8_toNat (counts note) (broadcastInDim S_ ![] bcast_S_S_ (constantI S_ 32 0#32)) (fun _ => rfl) reduceWindows_S8_S8_w8s1p7_0 h_S_
    (by rw [sum_counts note hnote]; omega) e,
    Finset.sum_congr rfl (fun k _ => counts_toNat note hnote k),
    sum_filter_le_eq_range (fun e' => Cert.Routing.count (fun i => (note (Shape.Idx.ofFin i)).toNat) e') e]
  rfl

/-- Where an expert's rows start: the running sum less the expert's own count. -/
theorem offs_toNat (e : Fin 8) :
    (offs note (Shape.Idx.ofFin e)).toNat
      = Cert.Routing.off (fun i => (note (Shape.Idx.ofFin i)).toNat) e.val := by
  show (IntOp.subi (cumsum (counts note) (Shape.Idx.ofFin e)) (counts note (Shape.Idx.ofFin e))).toNat = _
  have h1 := cumsum_counts_toNat note hnote e
  have h2 := counts_toNat note hnote e
  rw [Cert.Routing.off_succ] at h1
  rw [Cert.LibWindow.subi_toNat _ _ (by omega), h1, h2]
  omega

/-- Blocks per expert: the floor-divide of `count + 256 - 1` by 256. Neither the sum nor the difference wraps,
the count being at most 8192. -/
theorem bpe_toNat (e : Fin 8) :
    (bpe note (Shape.Idx.ofFin e)).toNat
      = Cert.Routing.bpe (fun i => (note (Shape.Idx.ofFin i)).toNat) e.val := by
  have hc := counts_toNat note hnote e
  have hle := Cert.Routing.count_le (fun i => (note (Shape.Idx.ofFin i)).toNat) e.val
  have h256 : (256#32 : BitVec 32).toNat = 256 := rfl
  have h1 : (1#32 : BitVec 32).toNat = 1 := rfl
  have hadd : (IntOp.addi (counts note (Shape.Idx.ofFin e)) 256#32).toNat
      = Cert.Routing.count (fun i => (note (Shape.Idx.ofFin i)).toNat) e.val + 256 := by
    rw [Cert.LibWindow.addi_toNat _ _ (by rw [hc, h256]; omega), hc, h256]
  have ha : (subi (addi (counts note) (all8 256#32)) (all8 1#32) (Shape.Idx.ofFin e)).toNat
      = Cert.Routing.count (fun i => (note (Shape.Idx.ofFin i)).toNat) e.val + 255 := by
    show (IntOp.subi (IntOp.addi (counts note (Shape.Idx.ofFin e)) 256#32) 1#32).toNat = _
    rw [Cert.LibWindow.subi_toNat _ _ (by rw [hadd, h1]; omega), hadd, h1]
    omega
  unfold bpe floorDiv256
  rw [Cert.LibWindow.floorDiv256_vec_toNat (subi (addi (counts note) (all8 256#32)) (all8 1#32)) (all8 256#32) (all8 256#32)
    (broadcastInDim S8 ![] bcast_S_S8 (signi (constantI S_ 32 256#32))) (all8 0#32) (all8 1#32) (Shape.Idx.ofFin e)
    rfl rfl rfl rfl rfl (by rw [ha]; omega), ha]
  rfl

/-- The eight block counts add up to the first block past the last expert. -/
theorem sum_bpe :
    ∑ k : Fin 8, (bpe note (Shape.Idx.ofFin k)).toNat
      = Cert.Routing.cex (fun i => (note (Shape.Idx.ofFin i)).toNat) 8 := by
  rw [Finset.sum_congr rfl (fun k _ => bpe_toNat note hnote k),
    Fin.sum_univ_eq_sum_range (fun e => Cert.Routing.bpe (fun i => (note (Shape.Idx.ofFin i)).toNat) e) 8]
  rfl

/-- The running sum of the block counts up to and including expert `e`. -/
theorem cumsum_bpe_toNat (e : Fin 8) :
    (cumsum (bpe note) (Shape.Idx.ofFin e)).toNat
      = Cert.Routing.cex (fun i => (note (Shape.Idx.ofFin i)).toNat) (e.val + 1) := by
  have h40 := Cert.Routing.cex_le_32 (fun i => (note (Shape.Idx.ofFin i)).toNat) hnote
  unfold cumsum
  rw [Cert.LibWindow.cumsum8_toNat (bpe note) (broadcastInDim S_ ![] bcast_S_S_ (constantI S_ 32 0#32)) (fun _ => rfl)
    reduceWindows_S8_S8_w8s1p7_0 h_S_ (by rw [sum_bpe note hnote]; omega) e,
    Finset.sum_congr rfl (fun k _ => bpe_toNat note hnote k),
    sum_filter_le_eq_range (fun e' => Cert.Routing.bpe (fun i => (note (Shape.Idx.ofFin i)).toNat) e') e]
  rfl

/-- An expert's first block: the running sum less the expert's own block count. -/
theorem cex_toNat (e : Fin 8) :
    (cex note (Shape.Idx.ofFin e)).toNat
      = Cert.Routing.cex (fun i => (note (Shape.Idx.ofFin i)).toNat) e.val := by
  show (IntOp.subi (cumsum (bpe note) (Shape.Idx.ofFin e)) (bpe note (Shape.Idx.ofFin e))).toNat = _
  have h1 := cumsum_bpe_toNat note hnote e
  have h2 := bpe_toNat note hnote e
  rw [Cert.Routing.cex_succ] at h1
  rw [Cert.LibWindow.subi_toNat _ _ (by omega), h1, h2]
  omega

end

end Cert.KernelIdeal.Glue

end
-- ==== Proof.GlueDest.lean ====
/-
  The padded row of each sorted row and the expert of each block, read as natural numbers.

  With N the expert words of the rows (each below 8) and σ the order of the sorted rows, the word the kernel
  computes for sorted position j is   cex[N (σ j)] · 256 + (j - off[N (σ j)]):
  both table reads are takes at a word below 8, where wrapping a negative index and clamping into the table do
  nothing; the difference does not go below zero because the first sorted position of an expert is at most j;
  and nothing exceeds 10240, so no product or sum wraps around 2³².

  For block b the kernel counts the experts e with cex[e] ≤ b (a sum over e of the widened comparison bit),
  takes one off and clips into [0, 7]. The count is between 1 and 8 (expert 0 starts at block 0), so the clip
  is min 7 (count - 1).
-/
import proofs.«419510_j63247688401701_3_alg».proof.Proof.GlueTerms
import proofs.«419510_j63247688401701_3_alg».proof.Proof.Routing
import Idealize.ShloMosaic.Lib.StableHlo.Predicate

noncomputable section

namespace Cert.KernelIdeal.Glue

open Idealize.ShloMosaic Idealize.ShloMosaic.StableHlo.Predicate Cert.KernelIdeal Cert.KernelIdeal.Facts₀ Cert.KernelIdeal.Facts

namespace DestLemmas

/-! ## Words: sums, differences and products that stay inside 32 bits -/

theorem word_add_toNat (a b : BitVec 32) (h : a.toNat + b.toNat < 2 ^ 32) : (IntOp.addi a b).toNat = a.toNat + b.toNat := by
  show (a + b).toNat = _
  rw [BitVec.toNat_add]; exact Nat.mod_eq_of_lt h

theorem word_sub_toNat (a b : BitVec 32) (h : b.toNat ≤ a.toNat) : (IntOp.subi a b).toNat = a.toNat - b.toNat := by
  show (a - b).toNat = _
  rw [BitVec.toNat_sub]; have := a.isLt; have := b.isLt; omega

theorem word_mul_toNat (a b : BitVec 32) (h : a.toNat * b.toNat < 2 ^ 32) : (IntOp.muli a b).toNat = a.toNat * b.toNat := by
  show (a * b).toNat = _
  rw [BitVec.toNat_mul]; exact Nat.mod_eq_of_lt h

/-- Clipping a small non-negative word into [0, 7]: the lower bound does nothing, the upper one is a minimum. -/
theorem clip7_toNat (r : BitVec 32) (hr : r.toNat < 2 ^ 31) : (IntOp.minsi 7#32 (IntOp.maxsi 0#32 r)).toNat = min 7 r.toNat := by
  have hti : r.toInt = r.toNat := toInt_eq_toNat_of_lt hr
  have h0 : (0#32 : BitVec 32).toInt = 0 := by decide
  have h7 : (7#32 : BitVec 32).toInt = 7 := by decide
  have hmax : IntOp.maxsi 0#32 r = r := by
    unfold IntOp.maxsi
    rw [if_neg]
    simp only [BitVec.slt, hti, h0, decide_eq_true_eq]; omega
  rw [hmax]
  unfold IntOp.minsi
  split <;> rename_i hc <;> simp only [BitVec.slt, hti, h7, decide_eq_true_eq] at hc
  · show (7 : ℕ) = _; omega
  · omega

/-! ## Reads: a word on every position, the wrap of a non-negative index, the take at a word below 8 -/

theorem all40_apply (n : BitVec 32) (i : S40.Idx) : all40 n i = n := rfl

/-- Wrapping leaves a non-negative index alone. -/
theorem wrap_apply (n : BitVec 32) (v : IVec S8192 32) (i : S8192.Idx) (h : (v i).toNat < 2 ^ 31) : wrap n v i = v i := by
  have hc : ¬ IntOp.cmpi .slt (v i) 0#32 = 1#1 := by
    intro e
    have := (slt_iff_toNat h (by decide)).1 e
    simp at this
  show Scalar.select (IntOp.cmpi .slt (v i) 0#32) _ (v i) = v i
  unfold Scalar.select
  exact if_neg hc

/-- A take from a table of eight at an index word whose value is m < 8 reads entry m. -/
theorem take8 (tbl : IVec S8 32) (v : IVec S8192 32) (j : Fin 8192) (m : Fin 8) (hv : (v (Shape.Idx.ofFin j)).toNat = m.val) :
    Host.gather gather_S8_S8192x1_S8192_n_0_n_n_0_1_1 tbl (col (wrap 8#32 v)) (Shape.Idx.ofFin j) = tbl (Shape.Idx.ofFin m) := by
  have hm := m.isLt
  rw [gather_take _ rfl rfl rfl rfl tbl _ j (by decide)]
  refine congrArg tbl (congrArg Shape.Idx.ofFin (Fin.ext ?_))
  show min ((col (wrap 8#32 v)) (ixP j)).toInt.toNat (8 - 1) = m.val
  have e1 : col (wrap 8#32 v) (ixP j) = v (Shape.Idx.ofFin j) := by
    unfold col; rw [bcast_col1]; exact wrap_apply _ _ _ (by rw [hv]; omega)
  rw [e1, toInt_eq_toNat_of_lt (by rw [hv]; omega), hv]
  simp only [Int.toNat_natCast]; omega

/-- Counting the indices below n with a property, over the finite type or over the range. -/
theorem card_fin_filter (n : ℕ) (p : ℕ → Prop) [DecidablePred p] :
    (Finset.univ.filter fun q : Fin n => p q.val).card = ((Finset.range n).filter p).card := by
  refine Finset.card_bij (fun q _ => q.val) ?_ ?_ ?_
  · intro q hq
    simp only [Finset.mem_filter, Finset.mem_univ, true_and] at hq
    simp only [Finset.mem_filter, Finset.mem_range]; exact ⟨q.isLt, hq⟩
  · intro a _ b _ h; exact Fin.ext h
  · intro e he
    simp only [Finset.mem_filter, Finset.mem_range] at he
    exact ⟨⟨e, he.1⟩, by simp only [Finset.mem_filter, Finset.mem_univ, true_and]; exact he.2, rfl⟩

end DestLemmas

open DestLemmas

/-! ## The padded row of sorted position j -/

theorem destRow_toNat (note : IVec S8192 32) (N : Fin 8192 → ℕ)
    (hN : ∀ i, (note (Shape.Idx.ofFin i)).toNat = N i) (hN8 : ∀ i, N i < 8)
    (σ : Fin 8192 → Fin 8192) (hσ : Function.Bijective σ)
    (hsorted : ∀ j j' : Fin 8192, j ≤ j' → N (σ j) ≤ N (σ j'))
    (hsn : ∀ j : Fin 8192, sortedNote note (Shape.Idx.ofFin j) = note (Shape.Idx.ofFin (σ j)))
    (hoff : ∀ e : Fin 8, (offs note (Shape.Idx.ofFin e)).toNat = Cert.Routing.off N e.val)
    (hcex : ∀ e : Fin 8, (cex note (Shape.Idx.ofFin e)).toNat = Cert.Routing.cex N e.val)
    (j : Fin 8192) : (destRow note (Shape.Idx.ofFin j)).toNat = Cert.Routing.dest N σ j := by
  -- the expert of sorted position j, as an index below 8
  let m : Fin 8 := ⟨N (σ j), hN8 (σ j)⟩
  have hv : (sortedNote note (Shape.Idx.ofFin j)).toNat = m.val := by rw [hsn, hN]
  have hjlt := j.isLt
  -- the two takes
  have hc : (Host.gather gather_S8_S8192x1_S8192_n_0_n_n_0_1_1 (cex note) (col (wrap 8#32 (sortedNote note))) (Shape.Idx.ofFin j)).toNat
      = Cert.Routing.cex N (N (σ j)) := by rw [take8 _ _ j m hv, hcex]
  have ho : (Host.gather gather_S8_S8192x1_S8192_n_0_n_n_0_1_1 (offs note) (col (wrap 8#32 (sortedNote note))) (Shape.Idx.ofFin j)).toNat
      = Cert.Routing.off N (N (σ j)) := by rw [take8 _ _ j m hv, hoff]
  -- the position itself
  have hi : (iotaInDim S8192 32 0 (Shape.Idx.ofFin j)).toNat = j.val := by
    rw [iota_apply, BitVec.toNat_ofNat]; exact Nat.mod_eq_of_lt (by omega)
  -- bounds from the combinatorics
  have hole : Cert.Routing.off N (N (σ j)) ≤ j.val := Cert.Routing.off_le N σ hσ hsorted j
  have hcle : Cert.Routing.cex N (N (σ j)) ≤ 40 := Cert.Routing.cex_le N hN8 _ (Nat.le_of_lt (hN8 (σ j)))
  -- the rank among the expert's rows
  have hr : (localRank note (Shape.Idx.ofFin j)).toNat = j.val - Cert.Routing.off N (N (σ j)) := by
    show (IntOp.subi (iotaInDim S8192 32 0 (Shape.Idx.ofFin j)) _).toNat = _
    rw [word_sub_toNat _ _ (by rw [ho, hi]; exact hole), ho, hi]
  show (IntOp.addi (IntOp.muli _ (all8192 256#32 (Shape.Idx.ofFin j))) (localRank note (Shape.Idx.ofFin j))).toNat = _
  have h256 : (all8192 256#32 (Shape.Idx.ofFin j)).toNat = 256 := rfl
  have hmul : (IntOp.muli (Host.gather gather_S8_S8192x1_S8192_n_0_n_n_0_1_1 (cex note) (col (wrap 8#32 (sortedNote note))) (Shape.Idx.ofFin j))
      (all8192 256#32 (Shape.Idx.ofFin j))).toNat = Cert.Routing.cex N (N (σ j)) * 256 := by
    rw [word_mul_toNat _ _ (by rw [hc, h256]; omega), hc, h256]
  rw [word_add_toNat _ _ (by rw [hmul, hr]; omega), hmul, hr]
  rfl

/-! ## The expert of block b -/

theorem table_toNat (note : IVec S8192 32) (N : Fin 8192 → ℕ) (hN8 : ∀ i, N i < 8)
    (hcex : ∀ e : Fin 8, (cex note (Shape.Idx.ofFin e)).toNat = Cert.Routing.cex N e.val)
    (b : Fin 40) : (table note (Shape.Idx.ofFin b)).toNat = Cert.Routing.blockExpert N b.val := by
  have hb := b.isLt
  -- the comparison bit at (b, e): expert e starts at or before block b
  have hbit : ∀ q : Fin 8,
      (cmpi .sle (broadcastInDim S40x8 ![0, 1] bcast_S1x8_S40x8_0_1 (broadcastInDim S1x8 ![1] bcast_S8_S1x8_1 (cex note)))
        (broadcastInDim S40x8 ![0, 1] bcast_S40x1_S40x8_0_1 (broadcastInDim S40x1 ![0] bcast_S40_S40x1_0 (iotaInDim S40 32 0)))) (ij b q) = 1#1
      ↔ Cert.Routing.cex N q.val ≤ b.val := by
    intro q
    have hq := q.isLt
    have hcl : Cert.Routing.cex N q.val ≤ 40 := Cert.Routing.cex_le N hN8 _ (Nat.le_of_lt hq)
    show IntOp.cmpi .sle _ _ = 1#1 ↔ _
    rw [bcast_cols, bcast_rows, iota_apply]
    rw [sle_iff_toNat (by rw [hcex]; omega) (by rw [BitVec.toNat_ofNat]; omega), hcex, BitVec.toNat_ofNat, Nat.mod_eq_of_lt (by omega)]
  -- the count
  have hcount : (Host.reduce IntOp.addi
      (extui 32 (cmpi .sle (broadcastInDim S40x8 ![0, 1] bcast_S1x8_S40x8_0_1 (broadcastInDim S1x8 ![1] bcast_S8_S1x8_1 (cex note)))
        (broadcastInDim S40x8 ![0, 1] bcast_S40x1_S40x8_0_1 (broadcastInDim S40x1 ![0] bcast_S40_S40x1_0 (iotaInDim S40 32 0)))) natLt_1_32)
      (constantI S_ 32 0#32) reducesTo_S40x8_S40_d1 h_S_ (Shape.Idx.ofFin b)).toNat
      = ((Finset.range 8).filter fun e => Cert.Routing.cex N e ≤ b.val).card := by
    rw [toNat_reduce_count_cols (by decide), ← card_fin_filter 8 (fun e => Cert.Routing.cex N e ≤ b.val)]
    refine congrArg Finset.card (Finset.filter_congr ?_)
    intro q _
    rw [Shape.Idx.ofFin_zero]
    exact hbit q
  -- the count is between 1 and 8: expert 0 starts at block 0
  have hpos : 1 ≤ ((Finset.range 8).filter fun e => Cert.Routing.cex N e ≤ b.val).card := by
    apply Finset.card_pos.2
    refine ⟨0, Finset.mem_filter.2 ⟨Finset.mem_range.2 (by omega), ?_⟩⟩
    show Cert.Routing.cex N 0 ≤ b.val
    unfold Cert.Routing.cex
    rw [Finset.range_zero, Finset.sum_empty]
    exact Nat.zero_le _
  have hle8 : ((Finset.range 8).filter fun e => Cert.Routing.cex N e ≤ b.val).card ≤ 8 := by
    refine (Finset.card_filter_le _ _).trans ?_; simp
  have hraw : (blockRaw note (Shape.Idx.ofFin b)).toNat = ((Finset.range 8).filter fun e => Cert.Routing.cex N e ≤ b.val).card - 1 := by
    show (IntOp.subi _ (all40 1#32 (Shape.Idx.ofFin b))).toNat = _
    have h1 : (all40 1#32 (Shape.Idx.ofFin b)).toNat = 1 := rfl
    rw [word_sub_toNat _ _ (by rw [hcount, h1]; exact hpos), hcount, h1]
  show (IntOp.minsi (all40 7#32 (Shape.Idx.ofFin b)) (IntOp.maxsi (all40 0#32 (Shape.Idx.ofFin b)) (blockRaw note (Shape.Idx.ofFin b)))).toNat = _
  rw [all40_apply, all40_apply, clip7_toNat _ (by rw [hraw]; omega), hraw]
  rfl

end Cert.KernelIdeal.Glue

end
-- ==== Proof.LibGather.lean ====
/-
  The row take: reading whole rows of a rank-2 table at a column of row numbers (`table[idx]` with `idx` a vector),
  as the gather it prints to, at one result position.
-/
import Idealize.ShloMosaic.Lib.StableHlo.Predicate
import Idealize.ShloMosaic.Lib.ValueIdx

namespace Cert.LibGather

open Idealize.ShloMosaic
open Idealize.ShloMosaic.StableHlo.Predicate (ixP)

/-- THE ROW TAKE. `table[idx]` over a rank-2 table of N rows of C prints as a gather whose start indices are the
    [n × 1] column of row numbers: operand axis 0 collapsed and start-indexed, operand axis 1 carried whole as the
    result's offset axis 1, the index vector on axis 1. Result position (p, q) reads the table at row = position p's
    start index read signed and clamped into [0, N − 1], column q. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ValueIdx.ix2 p q)
      = x (ValueIdx.ix2 ⟨min (idx (ixP p)).toInt.toNat (N - 1), by omega⟩ q) := by
  unfold Host.gather
  refine congrArg x ?_
  funext a
  apply Fin.ext
  have hb : ∀ a : Fin 2, a ∉ d.operandBatchingDims := fun a => by rw [hob]; exact List.not_mem_nil
  -- a batch axis of the result is not an offset axis, so it is axis 0: the result index reads `p` there
  have key0 : ∀ k : Fin 2, k ∈ d.batchDims → ((ValueIdx.ix2 p q : (⟨2, ![n, C]⟩ : Shape).Idx) k).val = p.val := by
    intro k hk
    have hk' : k ∉ d.offsetDims := by
      have := (List.mem_filter.1 hk).2
      simpa using this
    rw [hoff] at hk'
    match k with
    | ⟨0, _⟩ => rfl
    | ⟨1, _⟩ => exact absurd (List.mem_singleton.mpr rfl) hk'
  -- an offset axis of the result is axis 1: the result index reads `q` there
  have key1 : ∀ k : Fin 2, k ∈ d.offsetDims → ((ValueIdx.ix2 p q : (⟨2, ![n, C]⟩ : Shape).Idx) k).val = q.val := by
    intro k hk
    rw [hoff] at hk
    have hk1 : k = 1 := List.mem_singleton.1 hk
    subst hk1
    rfl
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ValueIdx.ix2 p q) idx 0 + d.batchCoord (ValueIdx.ix2 p q) 0 + d.offCoord (ValueIdx.ix2 p q) 0
      = min (idx (ixP p)).toInt.toNat (N - 1)
    rw [GatherDims.batchCoord_eq_zero _ _ _ (hb 0), GatherDims.offCoord_eq_zero _ _ _ hk]
    simp only [Nat.add_zero, GatherDims.start, dif_pos hm]
    show min (idx _).toInt.toNat (N - d.sliceSizes 0) = min (idx (ixP p)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact key0 _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll]; exact ⟨by simp, hb 1⟩
    have hm : (1 : Fin 2) ∉ d.startIndexMap := by rw [hsim]; simp
    show d.start (ValueIdx.ix2 p q) idx 1 + d.batchCoord (ValueIdx.ix2 p q) 1 + d.offCoord (ValueIdx.ix2 p q) 1 = q.val
    rw [GatherDims.batchCoord_eq_zero _ _ _ (hb 1)]
    simp only [GatherDims.start, dif_neg hm, GatherDims.offCoord, dif_pos hk, Nat.add_zero, Nat.zero_add]
    exact key1 _ (List.getElem_mem _)

end Cert.LibGather
-- ==== Proof.GluePad.lean ====
/-
  The padded rows of the kernel's host program, read where a sorted row was sent.

  paddedSrc   every padded row holds -1, except that padded row destRow[j] holds sortIdx[j]
  validIn     paddedSrc ≥ 0
  srcClipped  paddedSrc clipped into [0, 8191]
  xGather     the rows of x at the (wrapped, clamped) clipped source rows
  xMasked     the gathered row where validIn holds, zero elsewhere
  xPadded     the change of format, which at the extended reals is the identity

  Let the sorted rows' source rows be sortIdx[j] = σ j < 8192 and their padded rows destRow[j] = D j < 10240, with D injective.
  The scatter's index column reads, at position p, the word of D p: the column is the wrapped destRow, and the wrap
  v < 0 ? v + n : v leaves a word that reads non-negative alone. With distinct positions, the scatter that SETS sortIdx[p] at
  D p holds sortIdx[j] = σ j at D j. That word reads σ j ≥ 0: the test ≥ 0 passes, the clip into [0, 8191] and the wrap leave it,
  and the row gather, whose start index is clamped into [0, 8191], reads row σ j of x. The select on the mask, which is
  constant along each padded row, keeps the gathered row.
-/
import proofs.«419510_j63247688401701_3_alg».proof.Proof.GlueTerms
import proofs.«419510_j63247688401701_3_alg».proof.Proof.LibScatter
import proofs.«419510_j63247688401701_3_alg».proof.Proof.LibGather
import Idealize.ShloMosaic.Lib.StableHlo.Predicate
import Idealize.ShloMosaic.Lib.ValueIdx
import Idealize.ShloMosaic.PureOps.Ideal

noncomputable section

namespace Cert.KernelIdeal.Glue

open Idealize.ShloMosaic Idealize.ShloMosaic.ValueIdx Idealize.ShloMosaic.StableHlo.Predicate
open Cert.KernelIdeal Cert.KernelIdeal.Facts₀ Cert.KernelIdeal.Facts

namespace Pad

/-! ## Words -/

/-- The two names of an index of a rectangle by its coordinates agree. -/
theorem ij_eq_ix2 {n m : Nat} (p : Fin n) (q : Fin m) : ij p q = ix2 p q := by
  funext a
  match a with
  | ⟨0, _⟩ => rfl
  | ⟨1, _⟩ => rfl

/-- A word that reads non-negative is not below zero. -/
theorem slt_zero_of_nonneg (v : BitVec 32) (hv : 0 ≤ v.toInt) : v.slt 0#32 = false := by
  have h0 : (0#32 : BitVec 32).toInt = 0 := by decide
  simp only [BitVec.slt, h0, decide_eq_false_iff_not]
  omega

/-- The wrap of a negative index, `v < 0 ? v + n : v`, leaves a word that reads non-negative alone. -/
theorem wrap_word (n v : BitVec 32) (hv : 0 ≤ v.toInt) :
    Scalar.select (IntOp.cmpi .slt v 0#32) (IntOp.addi v n) v = v := by
  have h : IntOp.cmpi .slt v 0#32 = 0#1 := by
    show BitVec.ofBool (v.slt 0#32) = 0#1
    rw [slt_zero_of_nonneg v hv]; rfl
  rw [h]
  exact select_zero _ _

/-- A word that reads non-negative passes the test `≥ 0`. -/
theorem sge_zero_of_nonneg (v : BitVec 32) (hv : 0 ≤ v.toInt) : IntOp.cmpi .sge v 0#32 = 1#1 := by
  show BitVec.ofBool ((0#32 : BitVec 32).sle v) = 1#1
  have h0 : (0#32 : BitVec 32).toInt = 0 := by decide
  have h : (0#32 : BitVec 32).sle v = true := by
    simp only [BitVec.sle, h0, decide_eq_true_eq]
    exact hv
  rw [h]; rfl

/-- Clipping into [0, 8191] leaves a word that reads in that range alone. -/
theorem clip_word (v : BitVec 32) (h0 : 0 ≤ v.toInt) (h1 : v.toInt ≤ 8191) :
    IntOp.minsi 8191#32 (IntOp.maxsi 0#32 v) = v := by
  have e1 : IntOp.maxsi 0#32 v = v := by
    unfold IntOp.maxsi
    rw [slt_zero_of_nonneg v h0]; rfl
  rw [e1]
  unfold IntOp.minsi
  have hc : (8191#32 : BitVec 32).toInt = 8191 := by decide
  have h : (8191#32 : BitVec 32).slt v = false := by
    simp only [BitVec.slt, hc, decide_eq_false_iff_not]
    omega
  rw [h]; rfl

/-! ## The wraps at an index -/

/-- The wrap over 8192 positions, at a position whose word reads non-negative. -/
theorem wrap_at (n : BitVec 32) (v : IVec S8192 32) (i : S8192.Idx) (hv : 0 ≤ (v i).toInt) : wrap n v i = v i :=
  wrap_word n (v i) hv

/-- The wrap over 10240 positions, at a position whose word reads non-negative. -/
theorem wrapL_at (n : BitVec 32) (v : IVec S10240 32) (i : S10240.Idx) (hv : 0 ≤ (v i).toInt) : wrapL n v i = v i :=
  wrap_word n (v i) hv

/-! ## The source row held by a padded row that a sorted row is sent to -/

set_option maxHeartbeats 400000 in
/-- Padded row `D j` holds the word of `σ j`, the j-th sorted row's source row: the scatter sets `sortIdx[p]` at position
    `D p`, the positions are distinct, and its index column reads the word of `D p` at `p`. -/
theorem paddedSrc_hit (note : IVec S8192 32) (σ : Fin 8192 → Fin 8192) (D : Fin 8192 → Fin 10240) (hD : Function.Injective D)
    (hsort : ∀ j : Fin 8192, sortIdx note (Shape.Idx.ofFin j) = BitVec.ofNat 32 (σ j).val)
    (hdest : ∀ j : Fin 8192, destRow note (Shape.Idx.ofFin j) = BitVec.ofNat 32 (D j).val) (j : Fin 8192) :
    paddedSrc note (Shape.Idx.ofFin (D j)) = BitVec.ofNat 32 (σ j).val := by
  have hpos : ∀ p : Fin 8192, (col (wrap 10240#32 (destRow note)) (ixP p)).toInt = ((D p).val : Int) := by
    intro p
    have hp : (D p).val < 10240 := (D p).isLt
    have hi : (destRow note (Shape.Idx.ofFin p)).toInt = ((D p).val : Int) := by
      rw [hdest p]; exact toInt_ofNat_small _ (by omega)
    have h1 : col (wrap 10240#32 (destRow note)) (ixP p) = wrap 10240#32 (destRow note) (Shape.Idx.ofFin p) :=
      bcast_col1 _ _ p
    rw [h1, wrap_at _ _ _ (by rw [hi]; omega), hi]
  have h := Cert.LibScatter.scatter_set_hit scatter_S10240_S8192x1_S8192_n_0_0_1 rfl rfl rfl rfl
    (all10240 4294967295#32) (col (wrap 10240#32 (destRow note))) (sortIdx note) D hpos hD j
  exact h.trans (hsort j)

end Pad

open Pad

set_option maxHeartbeats 400000 in
/-- THE PADDED ROWS WHERE A ROW WAS SENT. If the j-th sorted row's source row is `σ j` and it is sent to padded row `D j`,
    distinct rows to distinct padded rows, then padded row `D j` is row `σ j` of `x`. -/
theorem xPadded_hit (x : FVec Ideal S8192x1024 .f32) (note : IVec S8192 32) (σ : Fin 8192 → Fin 8192) (D : Fin 8192 → Fin 10240)
    (hD : Function.Injective D)
    (hsort : ∀ j : Fin 8192, sortIdx note (Shape.Idx.ofFin j) = BitVec.ofNat 32 (σ j).val)
    (hdest : ∀ j : Fin 8192, destRow note (Shape.Idx.ofFin j) = BitVec.ofNat 32 (D j).val)
    (j : Fin 8192) (k : Fin 1024) :
    xPadded (F := Ideal) x note (ValueIdx.ix2 (D j) k) = x (ValueIdx.ix2 (σ j) k) := by
  have hsrc := paddedSrc_hit note σ D hD hsort hdest j
  have hσ : (σ j).val < 8192 := (σ j).isLt
  have hw : (BitVec.ofNat 32 (σ j).val).toInt = ((σ j).val : Int) := toInt_ofNat_small _ (by omega)
  have hint : (paddedSrc note (Shape.Idx.ofFin (D j))).toInt = ((σ j).val : Int) := by rw [hsrc]; exact hw
  -- the mask is set there
  have hvalid : validIn note (Shape.Idx.ofFin (D j)) = 1#1 :=
    sge_zero_of_nonneg (paddedSrc note (Shape.Idx.ofFin (D j))) (by rw [hint]; omega)
  -- the clip leaves the word
  have hclip : srcClipped note (Shape.Idx.ofFin (D j)) = BitVec.ofNat 32 (σ j).val :=
    (clip_word (paddedSrc note (Shape.Idx.ofFin (D j))) (by rw [hint]; omega) (by rw [hint]; omega)).trans hsrc
  -- so does the wrap, and the column of start indices reads it
  have hidx : colL (wrapL 8192#32 (srcClipped note)) (ixP (D j)) = BitVec.ofNat 32 (σ j).val := by
    have h1 : colL (wrapL 8192#32 (srcClipped note)) (ixP (D j)) = wrapL 8192#32 (srcClipped note) (Shape.Idx.ofFin (D j)) :=
      bcast_col1 _ _ (D j)
    rw [h1, wrapL_at _ _ _ (by rw [hclip, hw]; omega), hclip]
  -- the gathered row is row σ j: the start index σ j is already inside [0, 8191]
  have hg : xGather x note (ix2 (D j) k) = x (ix2 (σ j) k) := by
    refine (Cert.LibGather.gather_rows gather_S8192x1024_S10240x1_S10240x1024_1_0_n_n_0_1_11024 rfl rfl rfl rfl rfl x _ (D j) k
      (by decide)).trans (congrArg x ?_)
    have hrow : (⟨min (colL (wrapL 8192#32 (srcClipped note)) (ixP (D j))).toInt.toNat (8192 - 1), by omega⟩ : Fin 8192) = σ j := by
      apply Fin.ext
      show min (colL (wrapL 8192#32 (srcClipped note)) (ixP (D j))).toInt.toNat (8192 - 1) = (σ j).val
      rw [hidx, hw]
      simp only [Int.toNat_natCast]
      omega
    rw [hrow]
  -- the change of format is the identity, and the select on the row's mask keeps the gathered row
  rw [xPadded, truncf_apply, xMasked, select_apply, ← ij_eq_ix2, bcast_rows _ _ (validIn note) (D j) k, hvalid, select_one, ij_eq_ix2, hg]

end Cert.KernelIdeal.Glue

end
-- ==== Proof.GlueTail.lean ====
/-
  The host operations after the forty blocks: every row is read back from the padded row it was sent to.

  invSort     zeros, with j SET at position sortIdx[j]: the inverse of the sorting permutation
  outRowSrc   destRow read at invSort: the padded row of each source row
  result      the rows of the padded result read at outRowSrc

  With sortIdx[j] = σ j for a bijection σ and destRow[j] = D j < 10240, row σ j of the result is row D j of the
  padded result. Each index word is a small natural, so the wrap of a negative index and the clamp of a gather
  leave it alone.
-/
import proofs.«419510_j63247688401701_3_alg».proof.Proof.GlueTerms
import proofs.«419510_j63247688401701_3_alg».proof.Proof.LibScatter
import proofs.«419510_j63247688401701_3_alg».proof.Proof.LibGather
import Idealize.ShloMosaic.Lib.StableHlo.Predicate
import Idealize.ShloMosaic.Lib.ValueIdx

noncomputable section

namespace Cert.KernelIdeal.Glue

open Idealize.ShloMosaic Cert.KernelIdeal Cert.KernelIdeal.Facts₀ Cert.KernelIdeal.Facts
open Idealize.ShloMosaic.StableHlo.Predicate (ixP gather_take bcast_col1 toInt_ofNat_small)

/-! ## Index words: the wrap and the column -/

/-- The wrap of a negative index (`v < 0 ? v + n : v`) leaves a word alone where it reads, signed, as ≥ 0. -/
private theorem wrapNonneg (n : BitVec 32) (v : IVec S8192 32) (i : S8192.Idx) (h : 0 ≤ (v i).toInt) :
    wrap n v i = v i := by
  have hlt : (v i).slt 0#32 = false := by
    simp only [BitVec.slt, BitVec.toInt_zero]
    exact decide_eq_false (by omega)
  have hc : IntOp.cmpi .slt (v i) 0#32 = 0#1 := by
    show BitVec.ofBool ((v i).slt 0#32) = 0#1
    rw [hlt]; rfl
  show Scalar.select (IntOp.cmpi .slt (v i) 0#32) (IntOp.addi (v i) n) (v i) = v i
  rw [hc]
  exact ValueIdx.select_zero _ _

/-- A vector of indices laid as the column a gather or a scatter reads: row p holds the vector's word at p. -/
private theorem colAt (v : IVec S8192 32) (p : Fin 8192) : col v (ixP p) = v (Shape.Idx.ofFin p) :=
  bcast_col1 bcast_S8192_S8192x1_0 v p

/-- The wrapped column at row p, where the vector's word at p is the natural k < 2^31: it reads k. -/
private theorem colWrapToInt (n : BitVec 32) (v : IVec S8192 32) (p : Fin 8192) (k : ℕ) (hk : k < 2 ^ 31)
    (hv : v (Shape.Idx.ofFin p) = BitVec.ofNat 32 k) : (col (wrap n v) (ixP p)).toInt = (k : Int) := by
  have hs : (v (Shape.Idx.ofFin p)).toInt = (k : Int) := by rw [hv]; exact toInt_ofNat_small k hk
  rw [colAt, wrapNonneg n v _ (by rw [hs]; exact Int.natCast_nonneg k)]
  exact hs

/-! ## The three stages -/

/-- The inverse of the sorting permutation: position σ j holds j. -/
theorem invSort_at (note : IVec S8192 32) (σ : Fin 8192 → Fin 8192) (hσ : Function.Injective σ)
    (hsort : ∀ j : Fin 8192, sortIdx note (Shape.Idx.ofFin j) = BitVec.ofNat 32 (σ j).val) (j : Fin 8192) :
    invSort note (Shape.Idx.ofFin (σ j)) = BitVec.ofNat 32 j.val := by
  have hidx : ∀ p : Fin 8192, (col (wrap 8192#32 (sortIdx note)) (ixP p)).toInt = ((σ p).val : Int) := fun p =>
    colWrapToInt _ _ p _ (by have := (σ p).isLt; omega) (hsort p)
  unfold invSort
  exact Cert.LibScatter.scatter_set_hit scatter_S8192_S8192x1_S8192_n_0_0_1 rfl rfl rfl rfl (all8192 0#32)
    (col (wrap 8192#32 (sortIdx note))) (iotaInDim S8192 32 0) σ hidx hσ j

/-- The padded row of source row σ j is the padded row the j-th sorted row was sent to. -/
theorem outRowSrc_at (note : IVec S8192 32) (σ : Fin 8192 → Fin 8192) (hσ : Function.Injective σ)
    (hsort : ∀ j : Fin 8192, sortIdx note (Shape.Idx.ofFin j) = BitVec.ofNat 32 (σ j).val) (j : Fin 8192) :
    outRowSrc note (Shape.Idx.ofFin (σ j)) = destRow note (Shape.Idx.ofFin j) := by
  unfold outRowSrc
  refine (gather_take gather_S8192_S8192x1_S8192_n_0_n_n_0_1_1 rfl rfl rfl rfl (destRow note)
    (col (wrap 8192#32 (invSort note))) (σ j) (by omega)).trans ?_
  refine congrArg (destRow note) (congrArg Shape.Idx.ofFin (Fin.ext ?_))
  show min (col (wrap 8192#32 (invSort note)) (ixP (σ j))).toInt.toNat (8192 - 1) = j.val
  rw [colWrapToInt _ _ (σ j) j.val (by have := j.isLt; omega) (invSort_at note σ hσ hsort j), Int.toNat_natCast]
  have := j.isLt
  omega

/-- Row σ j of the result is row D j of the padded result. -/
theorem result_at {F : FTy → Type} [FloatOps F] (op : FVec F S10240x1024 .f32) (note : IVec S8192 32)
    (σ : Fin 8192 → Fin 8192) (hσ : Function.Bijective σ) (D : Fin 8192 → Fin 10240)
    (hsort : ∀ j : Fin 8192, sortIdx note (Shape.Idx.ofFin j) = BitVec.ofNat 32 (σ j).val)
    (hdest : ∀ j : Fin 8192, destRow note (Shape.Idx.ofFin j) = BitVec.ofNat 32 (D j).val)
    (j : Fin 8192) (q : Fin 1024) :
    result (F := F) op note (ValueIdx.ix2 (σ j) q) = op (ValueIdx.ix2 (D j) q) := by
  unfold result
  refine (Cert.LibGather.gather_rows gather_S10240x1024_S8192x1_S8192x1024_1_0_n_n_0_1_11024 rfl rfl rfl rfl rfl op
    (col (wrap 10240#32 (outRowSrc note))) (σ j) q (by omega)).trans ?_
  refine congrArg op (congrArg (fun r => ValueIdx.ix2 r q) (Fin.ext ?_))
  show min (col (wrap 10240#32 (outRowSrc note)) (ixP (σ j))).toInt.toNat (10240 - 1) = (D j).val
  rw [colWrapToInt _ _ (σ j) (D j).val (by have := (D j).isLt; omega)
    ((outRowSrc_at note σ hσ.injective hsort j).trans (hdest j)), Int.toNat_natCast]
  have := (D j).isLt
  omega

end Cert.KernelIdeal.Glue

end
-- ==== Proof.GlueAll.lean ====
import proofs.«419510_j63247688401701_3_alg».proof.Proof.GlueTerms
import proofs.«419510_j63247688401701_3_alg».proof.Proof.GlueSort
import proofs.«419510_j63247688401701_3_alg».proof.Proof.GlueCounts
import proofs.«419510_j63247688401701_3_alg».proof.Proof.GlueDest
import proofs.«419510_j63247688401701_3_alg».proof.Proof.GluePad
import proofs.«419510_j63247688401701_3_alg».proof.Proof.GlueTail
import proofs.«419510_j63247688401701_3_alg».proof.Proof.Routing
import proofs.«419510_j63247688401701_3_alg».proof.Proof.SpecPad

/-!
# The routed result

Every stage of the host program, decoded, meets here around ONE order `σ` of the sorted rows.
Row `r` is the sorted row `j` with `σ j = r`. It is sent to padded row `D j` (first block of its expert times 256, plus its
rank among its expert's rows), and read back from there. The padded row `D j` holds row `σ j` of `x`, and the block it
lies in belongs to the expert of row `σ j`; so the perceptron applied to padded row `D j` is the perceptron of
row `r`'s expert applied to row `r`.
-/

noncomputable section

namespace Cert.KernelIdeal.Glue

open Idealize.ShloMosaic Idealize.ShloMosaic.StableHlo.Predicate Cert.KernelIdeal Cert.KernelIdeal.Facts₀ Cert.KernelIdeal.Facts

/-- The two spellings of a rank-1 index are one function. -/
theorem ix1_eq_ofFin {n : Nat} (k : Fin n) : (ValueIdx.ix1 k : (⟨1, ![n]⟩ : Shape).Idx) = Shape.Idx.ofFin k := by
  funext d
  match d with
  | ⟨0, _⟩ => rfl

/-- A padded row that holds row `r` of `x`, in a block whose expert is row `r`'s, goes through the same perceptron. -/
theorem outPad_eq_G (T : (⟨1, ![40]⟩ : Shape).Idx → BitVec 32) (xp : (⟨2, ![10240, 1024]⟩ : Shape).Idx → EReal)
    (x : (⟨2, ![8192, 1024]⟩ : Shape).Idx → EReal) (note : (⟨1, ![8192]⟩ : Shape).Idx → BitVec 32)
    (W1 : (⟨3, ![8, 1024, 4096]⟩ : Shape).Idx → EReal) (b1 : (⟨2, ![8, 4096]⟩ : Shape).Idx → EReal)
    (W2 : (⟨3, ![8, 4096, 1024]⟩ : Shape).Idx → EReal) (b2 : (⟨2, ![8, 1024]⟩ : Shape).Idx → EReal)
    (p : Fin 10240) (r : Fin 8192) (q : Fin 1024)
    (hx : ∀ k : Fin 1024, xp (ValueIdx.ix2 p k) = x (ValueIdx.ix2 r k))
    (he : Cert.Spec.expertOf (T (Shape.Idx.ofFin (Cert.Spec.blockOf p))) = Cert.Spec.expertOf (note (ValueIdx.ix1 r))) :
    Cert.Spec.outPad T xp W1 b1 W2 b2 p q = Cert.Spec.G x note W1 b1 W2 b2 r q := by
  unfold Cert.Spec.outPad Cert.Spec.G
  rw [he, funext hx]

theorem routed (x : FVec Ideal S8192x1024 .f32) (note : IVec S8192 32)
    (hnote : ∀ i : Fin 8192, (note (Shape.Idx.ofFin i)).toNat < 8)
    (W1 : (⟨3, ![8, 1024, 4096]⟩ : Shape).Idx → EReal) (b1 : (⟨2, ![8, 4096]⟩ : Shape).Idx → EReal)
    (W2 : (⟨3, ![8, 4096, 1024]⟩ : Shape).Idx → EReal) (b2 : (⟨2, ![8, 1024]⟩ : Shape).Idx → EReal)
    (op : FVec Ideal S10240x1024 .f32)
    (hop : ∀ (p : Fin 10240) (q : Fin 1024), op (ValueIdx.ix2 p q)
      = Cert.Spec.outPad (table note) (xPadded (F := Ideal) x note) W1 b1 W2 b2 p q)
    (r : Fin 8192) (q : Fin 1024) :
    result (F := Ideal) op note (ValueIdx.ix2 r q) = Cert.Spec.G x note W1 b1 W2 b2 r q := by
  -- the one order of the sorted rows
  obtain ⟨σ, hσ, hsorted', hsort, hsn⟩ := sort_decode note hnote
  -- the expert of each row as a number, kept opaque
  obtain ⟨N, hN⟩ : ∃ N : Fin 8192 → ℕ, ∀ i, (note (Shape.Idx.ofFin i)).toNat = N i := ⟨_, fun _ => rfl⟩
  have hNf : (fun i => (note (Shape.Idx.ofFin i)).toNat) = N := funext hN
  have hN8 : ∀ i, N i < 8 := fun i => hN i ▸ hnote i
  have hsorted : ∀ j j' : Fin 8192, j ≤ j' → N (σ j) ≤ N (σ j') := fun j j' h => by
    rw [← hN, ← hN]; exact hsorted' j j' h
  have hoff : ∀ e : Fin 8, (offs note (Shape.Idx.ofFin e)).toNat = Cert.Routing.off N e.val := fun e =>
    hNf ▸ offs_toNat note hnote e
  have hcex : ∀ e : Fin 8, (cex note (Shape.Idx.ofFin e)).toNat = Cert.Routing.cex N e.val := fun e =>
    hNf ▸ cex_toNat note hnote e
  -- the padded row of each sorted row: below 10240, and no two alike
  have hDlt : ∀ j, Cert.Routing.dest N σ j < 10240 := Cert.Routing.dest_lt N σ hσ hsorted hN8
  obtain ⟨D, hDv⟩ : ∃ D : Fin 8192 → Fin 10240, ∀ j, (D j).val = Cert.Routing.dest N σ j :=
    ⟨fun j => ⟨_, hDlt j⟩, fun _ => rfl⟩
  have hD : Function.Injective D := fun j j' h =>
    Cert.Routing.dest_inj N σ hσ hsorted hN8 (by rw [← hDv, ← hDv, h])
  have hdest : ∀ j : Fin 8192, destRow note (Shape.Idx.ofFin j) = BitVec.ofNat 32 (D j).val := by
    intro j
    apply BitVec.eq_of_toNat_eq
    rw [destRow_toNat note N hN hN8 σ hσ hsorted hsn hoff hcex j, BitVec.toNat_ofNat, hDv j]
    have := hDlt j
    exact (Nat.mod_eq_of_lt (by omega)).symm
  -- row r is some sorted row
  obtain ⟨j, rfl⟩ := hσ.surjective r
  rw [result_at (F := Ideal) op note σ hσ D hsort hdest j q, hop (D j) q]
  refine outPad_eq_G _ _ x note W1 b1 W2 b2 (D j) (σ j) q (xPadded_hit x note σ D hD hsort hdest j) ?_
  -- the block of padded row D j belongs to the expert of row σ j
  have hb : (Cert.Spec.blockOf (D j)).val = Cert.Routing.dest N σ j / 256 := by
    show (D j).val / 256 = _
    rw [hDv j]
  have ht : (table note (Shape.Idx.ofFin (Cert.Spec.blockOf (D j)))).toNat = N (σ j) := by
    rw [table_toNat note N hN8 hcex (Cert.Spec.blockOf (D j)), hb]
    exact Cert.Routing.blockExpert_dest N σ hσ hsorted hN8 j
  have hn : (note (ValueIdx.ix1 (σ j))).toNat = N (σ j) := by rw [ix1_eq_ofFin]; exact hN (σ j)
  apply Fin.ext
  rw [Cert.Spec.expertOf_val _ (by rw [ht]; exact hN8 _), Cert.Spec.expertOf_val _ (by rw [hn]; exact hN8 _), ht, hn]

end Cert.KernelIdeal.Glue

end
-- ==== Proof.KernelValue.lean ====
/-
  The kernel's run, with its result named.

  The generated frame says where every buffer ends when the kernel's program has run: each array of the pipeline at what
  the pipeline computes from its blocks, every other buffer at what the host operations after the region make of the
  region's exit contents. Read at the result buffer, that is the rows of the pipeline's OUTPUT array — the padded
  result, 10240 rows in 40 blocks of 256 — read back through the routing arithmetic of the expert words. Three facts
  are put together here:

  * the output array is the padded result: padded row `p`, in block `p / 256`, went through the perceptron of the
    expert the block table names, the table and the padded rows being the routing arithmetic's own, and the weights
    the launch arguments' (a change of float format is the identity on extended reals);
  * the host operations after the region read row `r` of the result from the padded row `r` was sent to;
  * a row sent to a padded row of its own expert's blocks and read back from there has gone through its own
    expert's perceptron — under the hypothesis that every expert word is below 8.

  So the result is, element by element, the routed perceptron of the launch arguments, and the arguments are unchanged.
-/
import proofs.«419510_j63247688401701_3_alg».proof.Proof.Gen.KernelIdeal.Frame
import proofs.«419510_j63247688401701_3_alg».proof.Proof.Blocks
import proofs.«419510_j63247688401701_3_alg».proof.Proof.GlueRun
import proofs.«419510_j63247688401701_3_alg».proof.Proof.GlueAll
import proofs.«419510_j63247688401701_3_alg».proof.Proof.OkKernelIdeal
import proofs.«419510_j63247688401701_3_alg».proof.Proof.SpecPad

set_option maxRecDepth 16384

noncomputable section

namespace Cert.KernelIdeal.KernelValue

open Idealize.ShloMosaic Idealize.ShloMosaic.TcCoe Idealize.SL.Sem
open Cert.KernelIdeal Cert.KernelIdeal.Gen

/-- On extended reals a change of float format is the identity, array by array. -/
private theorem truncf_ideal {s : Shape} (v : FVec Ideal s .f32) (h : FTy.bf16.bits < FTy.f32.bits) :
    truncf (F := Ideal) .bf16 v h = v := rfl

variable (m : (ℓ : Loc nD τ sig) → Buf (Elt Ideal) ℓ) (ρ : Dev nD → PrngReg)

set_option maxHeartbeats 400000 in
/-- The pipeline's output array is the padded result of the launch arguments' contents at the region's entry: the
    block table is the routing arithmetic's table of the expert words, the padded rows its padded rows, and the two
    weight arrays, which the program narrows to the shorter format first, are the arguments themselves. -/
private theorem padded (hO : Gen.Ok m) (c : Dev nD) (p : Fin 10240) (q : Fin 1024) :
    (dats m hO 0 c).arrAt 5 (cfgM m hO).N (ValueIdx.ix2 p q)
      = Cert.Spec.outPad (Glue.table (V m c main_arg1)) (Glue.xPadded (F := Ideal) (V m c main_arg0) (V m c main_arg1))
          (V m c main_arg2) (V m c main_arg3) (V m c main_arg4) (V m c main_arg5) p q := by
  have hT : tbl m 0 = Glue.table (V m c main_arg1) := (V_pre m c 0).symm.trans (GlueRun.V_v56 m c)
  refine (BlocksValue.final5 m hO c (OkProof.tbl_lt m) p q).trans ?_
  rw [hT, GlueRun.V_v77 m c, GlueRun.V_v78 m c, GlueRun.V_v79 m c, truncf_ideal, truncf_ideal]

set_option maxHeartbeats 400000 in
/-- From any memory whose expert words are below 8, with zero counters: every weakly fair execution of the program
    terminates, and in every final state the result buffer holds the routed perceptron of the six arguments — row
    `i 0`, column `i 1` through the perceptron of the expert row `i 0` names — and the six arguments are as launched. -/
theorem run (hnote : ∀ (c : Dev nD) (i : Fin 8192), (m ((c.tc : Thread nD τ).loc main_arg1) (Shape.Idx.ofFin i)).toNat < 8) :
    θ_run (defs (F := Ideal)) (onTc (τ := τ) (main (F := Ideal))) ⟨m, fun _ => 0, ρ⟩ (fun r => ∀ c : Dev nD,
      r.2.mem ((c.tc : Thread nD τ).loc main_v103)
          = (fun i => Cert.Spec.G (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have hO : Gen.Ok m := OkProof.ok m
  -- the six arguments: a buffer no window stages ends as the host operations after the region leave it, which is as
  -- launched; a staged input ends at its contents at the region's entry, which are as launched too
  refine (θ_run defs _ _).mono (fun r h c => ⟨?_,
      (((h c).2 main_arg0 (by decide : main_arg0 ∈ Pipeline.restRefs sig spec0)).trans (W_main_arg0 m hO (dats m hO) c)),
      (((h c).2 main_arg1 (by decide : main_arg1 ∈ Pipeline.restRefs sig spec0)).trans (W_main_arg1 m hO (dats m hO) c)),
      (((h c).2 main_arg2 (by decide : main_arg2 ∈ Pipeline.restRefs sig spec0)).trans (W_main_arg2 m hO (dats m hO) c)),
      ((h c).1 2).trans (((dats m hO 0 c).arrAt_in 2 rfl _).trans ((A_eq m hO c 2).trans (V_main_arg3 m c))),
      (((h c).2 main_arg4 (by decide : main_arg4 ∈ Pipeline.restRefs sig spec0)).trans (W_main_arg4 m hO (dats m hO) c)),
      ((h c).1 4).trans (((dats m hO 0 c).arrAt_in 4 rfl _).trans ((A_eq m hO c 4).trans (V_main_arg5 m c)))⟩)
    (run_main m ρ hO)
  -- the result: the rows of the padded result read back, each through its own expert's perceptron
  have h103 := (h c).2 main_v103 (by decide : main_v103 ∈ Pipeline.restRefs sig spec0)
  rw [h103, GlueRun.tail_v103 m hO c]
  funext i
  have hn : ∀ k : Fin 8192, ((V m c main_arg1) (Shape.Idx.ofFin k)).toNat < 8 := fun k => by
    rw [V_main_arg1 m c]; exact hnote c k
  have key := Glue.routed (V m c main_arg0) (V m c main_arg1) hn (V m c main_arg2) (V m c main_arg3) (V m c main_arg4)
    (V m c main_arg5) ((dats m hO 0 c).arrAt 5 (cfgM m hO).N) (padded m hO c) (i 0) (i 1)
  rw [V_main_arg0 m c, V_main_arg1 m c, V_main_arg2 m c, V_main_arg3 m c, V_main_arg4 m c, V_main_arg5 m c] at key
  rw [V_main_arg1 m c]
  exact (congrArg (Glue.result (F := Ideal) ((dats m hO 0 c).arrAt 5 (cfgM m hO).N) (m ((c.tc : Thread nD τ).loc main_arg1)))
    (ValueIdx.eq_ix2 i)).trans key

end Cert.KernelIdeal.KernelValue

end
-- ==== Proof.RefValue.lean ====
/-
  The reference program computes the routed two-layer perceptron of the specification.

  For each expert `e = 0, …, 7` the reference slices that expert's weights and biases, forms the hidden layer
  `max (x · W1[e] + b1[e]) 0` for every row, the output `hidden · W2[e] + b2[e]`, and keeps the result at the rows whose note word
  equals `e`, starting from an array of zeros. Read at one row `r` and one column `q`:

  * each expert's stage is `Cert.Spec.mlp` of row `r` of `x` with the weights and biases of slice `e` (`y0`, …, `y7`): the slices,
    reshapes and broadcasts only move indices, and each composed index map is identified, coordinate by coordinate, with the
    index `(e, k, f)`, `(e, f)`, `(e, f, q)` or `(e, q)` it reads; the two contractions are the two sums; the rectifier is the
    maximum with the zero word's value `0`;
  * each select's condition is the comparison of the note word of row `r` with the literal `e` (`mask0`, …, `mask7`);
  * a note word below 8 is one of the literals `0, …, 7`, so exactly one condition of the chain holds, and it picks the stage of
    the expert the specification names (`ref_eq`).
-/
import proofs.«419510_j63247688401701_3_alg».proof.Proof.Gen.ReferenceIdeal.Read
import proofs.«419510_j63247688401701_3_alg».proof.Proof.Spec
import Idealize.ShloMosaic.Lib.StableHlo.Predicate

noncomputable section

namespace Cert.ReferenceIdeal.RefValue

open Cert.ReferenceIdeal Cert.ReferenceIdeal.Read Idealize.ShloMosaic Idealize.ShloMosaic.ValueIdx Idealize.ShloMosaic.StableHlo

/-- A select on a word comparison for equality is the conditional on the equality itself. -/
theorem select_cmpi_eq {α : Type} (a b : BitVec 32) (u v : α) :
    Scalar.select (IntOp.cmpi .eq a b) u v = if a = b then u else v := by
  unfold Scalar.select
  exact if_congr Predicate.cmpi_eq_iff rfl rfl

/-- A word whose value is below 8 is one of the eight literals. -/
theorem word_cases (w : BitVec 32) (h : w.toNat < 8) :
    w = 0#32 ∨ w = 1#32 ∨ w = 2#32 ∨ w = 3#32 ∨ w = 4#32 ∨ w = 5#32 ∨ w = 6#32 ∨ w = 7#32 := by
  obtain h0 | h0 | h0 | h0 | h0 | h0 | h0 | h0 : w.toNat = 0 ∨ w.toNat = 1 ∨ w.toNat = 2 ∨ w.toNat = 3 ∨ w.toNat = 4 ∨
      w.toNat = 5 ∨ w.toNat = 6 ∨ w.toNat = 7 := by omega
  · exact Or.inl (BitVec.eq_of_toNat_eq h0)
  · exact Or.inr (Or.inl (BitVec.eq_of_toNat_eq h0))
  · exact Or.inr (Or.inr (Or.inl (BitVec.eq_of_toNat_eq h0)))
  · exact Or.inr (Or.inr (Or.inr (Or.inl (BitVec.eq_of_toNat_eq h0))))
  · exact Or.inr (Or.inr (Or.inr (Or.inr (Or.inl (BitVec.eq_of_toNat_eq h0)))))
  · exact Or.inr (Or.inr (Or.inr (Or.inr (Or.inr (Or.inl (BitVec.eq_of_toNat_eq h0))))))
  · exact Or.inr (Or.inr (Or.inr (Or.inr (Or.inr (Or.inr (Or.inl (BitVec.eq_of_toNat_eq h0)))))))
  · exact Or.inr (Or.inr (Or.inr (Or.inr (Or.inr (Or.inr (Or.inr (BitVec.eq_of_toNat_eq h0)))))))

/-- Expert 0's stage at row `r`, column `q`: the two-layer perceptron of row `r` of `x0` with the weights and biases of
    slice 0. The output bias is read through slice, reshape and two broadcasts at `(0, q)`; the hidden unit `f` reads its
    bias at `(0, f)`, its first-layer weights at `(0, k, f)` (the reshape's row-major index `k * 4096 + f` splits back into
    `k` and `f`), and the second-layer weight at `(0, f, q)` (row-major index `f * 1024 + q`). -/
theorem y0 (x0 : (⟨S8192x1024, .f32⟩ : BufTy).Contents (Elt Ideal)) (x2 : (⟨S8x1024x4096, .f32⟩ : BufTy).Contents (Elt Ideal))
    (x3 : (⟨S8x4096, .f32⟩ : BufTy).Contents (Elt Ideal)) (x4 : (⟨S8x4096x1024, .f32⟩ : BufTy).Contents (Elt Ideal))
    (x5 : (⟨S8x1024, .f32⟩ : BufTy).Contents (Elt Ideal)) (r : Fin 8192) (q : Fin 1024) :
    val_main_v17 (F := Ideal) x0 x2 x3 x4 x5 (ix2 r q) =
      Cert.Spec.mlp (fun k => x0 (ix2 r k)) (fun k f => x2 (ix3 (0 : Fin 8) k f)) (fun f => x3 (ix2 (0 : Fin 8) f))
        (fun f q' => x4 (ix3 (0 : Fin 8) f q')) (fun q' => x5 (ix2 (0 : Fin 8) q')) q := by
  have e5 : idx_main_v13 (idx_main_v14 (idx_main_v15 (idx_main_v16 (ix2 r q)))) = ix2 (0 : Fin 8) q :=
    funext fun a => Fin.ext (by
      match a with
      | ⟨0, _⟩ => rfl
      | ⟨1, _⟩ => exact Nat.mod_eq_of_lt q.isLt)
  rw [val_main_v17_apply, val_main_v12_apply, val_main_v16_apply, val_main_v15_apply, val_main_v14_apply, val_main_v13_apply, e5]
  unfold Cert.Spec.mlp
  rw [Ideal.addf_def]
  refine congrArg (· + x5 (ix2 (0 : Fin 8) q)) (Finset.sum_congr rfl fun f _ => ?_)
  have e3 : idx_main_v4 (idx_main_v5 (idx_main_v6 (idx_main_v7 (lidx_main_v12 (ix2 r q) f)))) = ix2 (0 : Fin 8) f :=
    funext fun a => Fin.ext (by
      match a with
      | ⟨0, _⟩ => rfl
      | ⟨1, _⟩ => exact Nat.mod_eq_of_lt f.isLt)
  have e4 : idx_main_v10 (idx_main_v11 (ridx_main_v12 (ix2 r q) f)) = ix3 (0 : Fin 8) f q :=
    funext fun a => Fin.ext (by
      have hf := f.isLt; have hq := q.isLt
      match a with
      | ⟨0, _⟩ => rfl
      | ⟨1, _⟩ => show (f.val * 1024 + q.val) / 1024 % 4096 = f.val; omega
      | ⟨2, _⟩ => show (f.val * 1024 + q.val) % 1024 = q.val; omega)
  have e0 : ∀ k : Fin 1024, lidx_main_v3 (lidx_main_v12 (ix2 r q) f) k = ix2 r k := fun k =>
    funext fun a => Fin.ext (by
      match a with
      | ⟨0, _⟩ => rfl
      | ⟨1, _⟩ => rfl)
  have e2 : ∀ k : Fin 1024, idx_main_v1 (idx_main_v2 (ridx_main_v3 (lidx_main_v12 (ix2 r q) f) k)) = ix3 (0 : Fin 8) k f := fun k =>
    funext fun a => Fin.ext (by
      have hf := f.isLt; have hk := k.isLt
      match a with
      | ⟨0, _⟩ => rfl
      | ⟨1, _⟩ => show (k.val * 4096 + f.val) / 4096 % 1024 = k.val; omega
      | ⟨2, _⟩ => show (k.val * 4096 + f.val) % 4096 = f.val; omega)
  rw [val_main_v9_apply, val_main_v8_apply, val_main_v3_apply, val_main_call0_v0_apply, val_main_call0_cst_apply,
    val_main_v7_apply, val_main_v6_apply, val_main_v5_apply, val_main_v4_apply, val_main_v11_apply, val_main_v10_apply, e3, e4]
  simp only [val_main_v2_apply, val_main_v1_apply, e0, e2, Ideal.maximumf_def, Ideal.addf_def, Ideal.ofBits_def, Ideal.ofBits_zero_f32]

/-- Expert 1's stage at row `r`, column `q`: the two-layer perceptron of row `r` of `x0` with the weights and biases of
    slice 1. The output bias is read through slice, reshape and two broadcasts at `(1, q)`; the hidden unit `f` reads its
    bias at `(1, f)`, its first-layer weights at `(1, k, f)` (the reshape's row-major index `k * 4096 + f` splits back into
    `k` and `f`), and the second-layer weight at `(1, f, q)` (row-major index `f * 1024 + q`). -/
theorem y1 (x0 : (⟨S8192x1024, .f32⟩ : BufTy).Contents (Elt Ideal)) (x2 : (⟨S8x1024x4096, .f32⟩ : BufTy).Contents (Elt Ideal))
    (x3 : (⟨S8x4096, .f32⟩ : BufTy).Contents (Elt Ideal)) (x4 : (⟨S8x4096x1024, .f32⟩ : BufTy).Contents (Elt Ideal))
    (x5 : (⟨S8x1024, .f32⟩ : BufTy).Contents (Elt Ideal)) (r : Fin 8192) (q : Fin 1024) :
    val_main_v38 (F := Ideal) x0 x2 x3 x4 x5 (ix2 r q) =
      Cert.Spec.mlp (fun k => x0 (ix2 r k)) (fun k f => x2 (ix3 (1 : Fin 8) k f)) (fun f => x3 (ix2 (1 : Fin 8) f))
        (fun f q' => x4 (ix3 (1 : Fin 8) f q')) (fun q' => x5 (ix2 (1 : Fin 8) q')) q := by
  have e5 : idx_main_v34 (idx_main_v35 (idx_main_v36 (idx_main_v37 (ix2 r q)))) = ix2 (1 : Fin 8) q :=
    funext fun a => Fin.ext (by
      match a with
      | ⟨0, _⟩ => rfl
      | ⟨1, _⟩ => exact Nat.mod_eq_of_lt q.isLt)
  rw [val_main_v38_apply, val_main_v33_apply, val_main_v37_apply, val_main_v36_apply, val_main_v35_apply, val_main_v34_apply, e5]
  unfold Cert.Spec.mlp
  rw [Ideal.addf_def]
  refine congrArg (· + x5 (ix2 (1 : Fin 8) q)) (Finset.sum_congr rfl fun f _ => ?_)
  have e3 : idx_main_v25 (idx_main_v26 (idx_main_v27 (idx_main_v28 (lidx_main_v33 (ix2 r q) f)))) = ix2 (1 : Fin 8) f :=
    funext fun a => Fin.ext (by
      match a with
      | ⟨0, _⟩ => rfl
      | ⟨1, _⟩ => exact Nat.mod_eq_of_lt f.isLt)
  have e4 : idx_main_v31 (idx_main_v32 (ridx_main_v33 (ix2 r q) f)) = ix3 (1 : Fin 8) f q :=
    funext fun a => Fin.ext (by
      have hf := f.isLt; have hq := q.isLt
      match a with
      | ⟨0, _⟩ => rfl
      | ⟨1, _⟩ => show (f.val * 1024 + q.val) / 1024 % 4096 = f.val; omega
      | ⟨2, _⟩ => show (f.val * 1024 + q.val) % 1024 = q.val; omega)
  have e0 : ∀ k : Fin 1024, lidx_main_v24 (lidx_main_v33 (ix2 r q) f) k = ix2 r k := fun k =>
    funext fun a => Fin.ext (by
      match a with
      | ⟨0, _⟩ => rfl
      | ⟨1, _⟩ => rfl)
  have e2 : ∀ k : Fin 1024, idx_main_v22 (idx_main_v23 (ridx_main_v24 (lidx_main_v33 (ix2 r q) f) k)) = ix3 (1 : Fin 8) k f := fun k =>
    funext fun a => Fin.ext (by
      have hf := f.isLt; have hk := k.isLt
      match a with
      | ⟨0, _⟩ => rfl
      | ⟨1, _⟩ => show (k.val * 4096 + f.val) / 4096 % 1024 = k.val; omega
      | ⟨2, _⟩ => show (k.val * 4096 + f.val) % 4096 = f.val; omega)
  rw [val_main_v30_apply, val_main_v29_apply, val_main_v24_apply, val_main_call2_v0_apply, val_main_call2_cst_apply,
    val_main_v28_apply, val_main_v27_apply, val_main_v26_apply, val_main_v25_apply, val_main_v32_apply, val_main_v31_apply, e3, e4]
  simp only [val_main_v23_apply, val_main_v22_apply, e0, e2, Ideal.maximumf_def, Ideal.addf_def, Ideal.ofBits_def, Ideal.ofBits_zero_f32]

/-- Expert 2's stage at row `r`, column `q`: the two-layer perceptron of row `r` of `x0` with the weights and biases of
    slice 2. The output bias is read through slice, reshape and two broadcasts at `(2, q)`; the hidden unit `f` reads its
    bias at `(2, f)`, its first-layer weights at `(2, k, f)` (the reshape's row-major index `k * 4096 + f` splits back into
    `k` and `f`), and the second-layer weight at `(2, f, q)` (row-major index `f * 1024 + q`). -/
theorem y2 (x0 : (⟨S8192x1024, .f32⟩ : BufTy).Contents (Elt Ideal)) (x2 : (⟨S8x1024x4096, .f32⟩ : BufTy).Contents (Elt Ideal))
    (x3 : (⟨S8x4096, .f32⟩ : BufTy).Contents (Elt Ideal)) (x4 : (⟨S8x4096x1024, .f32⟩ : BufTy).Contents (Elt Ideal))
    (x5 : (⟨S8x1024, .f32⟩ : BufTy).Contents (Elt Ideal)) (r : Fin 8192) (q : Fin 1024) :
    val_main_v59 (F := Ideal) x0 x2 x3 x4 x5 (ix2 r q) =
      Cert.Spec.mlp (fun k => x0 (ix2 r k)) (fun k f => x2 (ix3 (2 : Fin 8) k f)) (fun f => x3 (ix2 (2 : Fin 8) f))
        (fun f q' => x4 (ix3 (2 : Fin 8) f q')) (fun q' => x5 (ix2 (2 : Fin 8) q')) q := by
  have e5 : idx_main_v55 (idx_main_v56 (idx_main_v57 (idx_main_v58 (ix2 r q)))) = ix2 (2 : Fin 8) q :=
    funext fun a => Fin.ext (by
      match a with
      | ⟨0, _⟩ => rfl
      | ⟨1, _⟩ => exact Nat.mod_eq_of_lt q.isLt)
  rw [val_main_v59_apply, val_main_v54_apply, val_main_v58_apply, val_main_v57_apply, val_main_v56_apply, val_main_v55_apply, e5]
  unfold Cert.Spec.mlp
  rw [Ideal.addf_def]
  refine congrArg (· + x5 (ix2 (2 : Fin 8) q)) (Finset.sum_congr rfl fun f _ => ?_)
  have e3 : idx_main_v46 (idx_main_v47 (idx_main_v48 (idx_main_v49 (lidx_main_v54 (ix2 r q) f)))) = ix2 (2 : Fin 8) f :=
    funext fun a => Fin.ext (by
      match a with
      | ⟨0, _⟩ => rfl
      | ⟨1, _⟩ => exact Nat.mod_eq_of_lt f.isLt)
  have e4 : idx_main_v52 (idx_main_v53 (ridx_main_v54 (ix2 r q) f)) = ix3 (2 : Fin 8) f q :=
    funext fun a => Fin.ext (by
      have hf := f.isLt; have hq := q.isLt
      match a with
      | ⟨0, _⟩ => rfl
      | ⟨1, _⟩ => show (f.val * 1024 + q.val) / 1024 % 4096 = f.val; omega
      | ⟨2, _⟩ => show (f.val * 1024 + q.val) % 1024 = q.val; omega)
  have e0 : ∀ k : Fin 1024, lidx_main_v45 (lidx_main_v54 (ix2 r q) f) k = ix2 r k := fun k =>
    funext fun a => Fin.ext (by
      match a with
      | ⟨0, _⟩ => rfl
      | ⟨1, _⟩ => rfl)
  have e2 : ∀ k : Fin 1024, idx_main_v43 (idx_main_v44 (ridx_main_v45 (lidx_main_v54 (ix2 r q) f) k)) = ix3 (2 : Fin 8) k f := fun k =>
    funext fun a => Fin.ext (by
      have hf := f.isLt; have hk := k.isLt
      match a with
      | ⟨0, _⟩ => rfl
      | ⟨1, _⟩ => show (k.val * 4096 + f.val) / 4096 % 1024 = k.val; omega
      | ⟨2, _⟩ => show (k.val * 4096 + f.val) % 4096 = f.val; omega)
  rw [val_main_v51_apply, val_main_v50_apply, val_main_v45_apply, val_main_call4_v0_apply, val_main_call4_cst_apply,
    val_main_v49_apply, val_main_v48_apply, val_main_v47_apply, val_main_v46_apply, val_main_v53_apply, val_main_v52_apply, e3, e4]
  simp only [val_main_v44_apply, val_main_v43_apply, e0, e2, Ideal.maximumf_def, Ideal.addf_def, Ideal.ofBits_def, Ideal.ofBits_zero_f32]

/-- Expert 3's stage at row `r`, column `q`: the two-layer perceptron of row `r` of `x0` with the weights and biases of
    slice 3. The output bias is read through slice, reshape and two broadcasts at `(3, q)`; the hidden unit `f` reads its
    bias at `(3, f)`, its first-layer weights at `(3, k, f)` (the reshape's row-major index `k * 4096 + f` splits back into
    `k` and `f`), and the second-layer weight at `(3, f, q)` (row-major index `f * 1024 + q`). -/
theorem y3 (x0 : (⟨S8192x1024, .f32⟩ : BufTy).Contents (Elt Ideal)) (x2 : (⟨S8x1024x4096, .f32⟩ : BufTy).Contents (Elt Ideal))
    (x3 : (⟨S8x4096, .f32⟩ : BufTy).Contents (Elt Ideal)) (x4 : (⟨S8x4096x1024, .f32⟩ : BufTy).Contents (Elt Ideal))
    (x5 : (⟨S8x1024, .f32⟩ : BufTy).Contents (Elt Ideal)) (r : Fin 8192) (q : Fin 1024) :
    val_main_v80 (F := Ideal) x0 x2 x3 x4 x5 (ix2 r q) =
      Cert.Spec.mlp (fun k => x0 (ix2 r k)) (fun k f => x2 (ix3 (3 : Fin 8) k f)) (fun f => x3 (ix2 (3 : Fin 8) f))
        (fun f q' => x4 (ix3 (3 : Fin 8) f q')) (fun q' => x5 (ix2 (3 : Fin 8) q')) q := by
  have e5 : idx_main_v76 (idx_main_v77 (idx_main_v78 (idx_main_v79 (ix2 r q)))) = ix2 (3 : Fin 8) q :=
    funext fun a => Fin.ext (by
      match a with
      | ⟨0, _⟩ => rfl
      | ⟨1, _⟩ => exact Nat.mod_eq_of_lt q.isLt)
  rw [val_main_v80_apply, val_main_v75_apply, val_main_v79_apply, val_main_v78_apply, val_main_v77_apply, val_main_v76_apply, e5]
  unfold Cert.Spec.mlp
  rw [Ideal.addf_def]
  refine congrArg (· + x5 (ix2 (3 : Fin 8) q)) (Finset.sum_congr rfl fun f _ => ?_)
  have e3 : idx_main_v67 (idx_main_v68 (idx_main_v69 (idx_main_v70 (lidx_main_v75 (ix2 r q) f)))) = ix2 (3 : Fin 8) f :=
    funext fun a => Fin.ext (by
      match a with
      | ⟨0, _⟩ => rfl
      | ⟨1, _⟩ => exact Nat.mod_eq_of_lt f.isLt)
  have e4 : idx_main_v73 (idx_main_v74 (ridx_main_v75 (ix2 r q) f)) = ix3 (3 : Fin 8) f q :=
    funext fun a => Fin.ext (by
      have hf := f.isLt; have hq := q.isLt
      match a with
      | ⟨0, _⟩ => rfl
      | ⟨1, _⟩ => show (f.val * 1024 + q.val) / 1024 % 4096 = f.val; omega
      | ⟨2, _⟩ => show (f.val * 1024 + q.val) % 1024 = q.val; omega)
  have e0 : ∀ k : Fin 1024, lidx_main_v66 (lidx_main_v75 (ix2 r q) f) k = ix2 r k := fun k =>
    funext fun a => Fin.ext (by
      match a with
      | ⟨0, _⟩ => rfl
      | ⟨1, _⟩ => rfl)
  have e2 : ∀ k : Fin 1024, idx_main_v64 (idx_main_v65 (ridx_main_v66 (lidx_main_v75 (ix2 r q) f) k)) = ix3 (3 : Fin 8) k f := fun k =>
    funext fun a => Fin.ext (by
      have hf := f.isLt; have hk := k.isLt
      match a with
      | ⟨0, _⟩ => rfl
      | ⟨1, _⟩ => show (k.val * 4096 + f.val) / 4096 % 1024 = k.val; omega
      | ⟨2, _⟩ => show (k.val * 4096 + f.val) % 4096 = f.val; omega)
  rw [val_main_v72_apply, val_main_v71_apply, val_main_v66_apply, val_main_call6_v0_apply, val_main_call6_cst_apply,
    val_main_v70_apply, val_main_v69_apply, val_main_v68_apply, val_main_v67_apply, val_main_v74_apply, val_main_v73_apply, e3, e4]
  simp only [val_main_v65_apply, val_main_v64_apply, e0, e2, Ideal.maximumf_def, Ideal.addf_def, Ideal.ofBits_def, Ideal.ofBits_zero_f32]

/-- Expert 4's stage at row `r`, column `q`: the two-layer perceptron of row `r` of `x0` with the weights and biases of
    slice 4. The output bias is read through slice, reshape and two broadcasts at `(4, q)`; the hidden unit `f` reads its
    bias at `(4, f)`, its first-layer weights at `(4, k, f)` (the reshape's row-major index `k * 4096 + f` splits back into
    `k` and `f`), and the second-layer weight at `(4, f, q)` (row-major index `f * 1024 + q`). -/
theorem y4 (x0 : (⟨S8192x1024, .f32⟩ : BufTy).Contents (Elt Ideal)) (x2 : (⟨S8x1024x4096, .f32⟩ : BufTy).Contents (Elt Ideal))
    (x3 : (⟨S8x4096, .f32⟩ : BufTy).Contents (Elt Ideal)) (x4 : (⟨S8x4096x1024, .f32⟩ : BufTy).Contents (Elt Ideal))
    (x5 : (⟨S8x1024, .f32⟩ : BufTy).Contents (Elt Ideal)) (r : Fin 8192) (q : Fin 1024) :
    val_main_v101 (F := Ideal) x0 x2 x3 x4 x5 (ix2 r q) =
      Cert.Spec.mlp (fun k => x0 (ix2 r k)) (fun k f => x2 (ix3 (4 : Fin 8) k f)) (fun f => x3 (ix2 (4 : Fin 8) f))
        (fun f q' => x4 (ix3 (4 : Fin 8) f q')) (fun q' => x5 (ix2 (4 : Fin 8) q')) q := by
  have e5 : idx_main_v97 (idx_main_v98 (idx_main_v99 (idx_main_v100 (ix2 r q)))) = ix2 (4 : Fin 8) q :=
    funext fun a => Fin.ext (by
      match a with
      | ⟨0, _⟩ => rfl
      | ⟨1, _⟩ => exact Nat.mod_eq_of_lt q.isLt)
  rw [val_main_v101_apply, val_main_v96_apply, val_main_v100_apply, val_main_v99_apply, val_main_v98_apply, val_main_v97_apply, e5]
  unfold Cert.Spec.mlp
  rw [Ideal.addf_def]
  refine congrArg (· + x5 (ix2 (4 : Fin 8) q)) (Finset.sum_congr rfl fun f _ => ?_)
  have e3 : idx_main_v88 (idx_main_v89 (idx_main_v90 (idx_main_v91 (lidx_main_v96 (ix2 r q) f)))) = ix2 (4 : Fin 8) f :=
    funext fun a => Fin.ext (by
      match a with
      | ⟨0, _⟩ => rfl
      | ⟨1, _⟩ => exact Nat.mod_eq_of_lt f.isLt)
  have e4 : idx_main_v94 (idx_main_v95 (ridx_main_v96 (ix2 r q) f)) = ix3 (4 : Fin 8) f q :=
    funext fun a => Fin.ext (by
      have hf := f.isLt; have hq := q.isLt
      match a with
      | ⟨0, _⟩ => rfl
      | ⟨1, _⟩ => show (f.val * 1024 + q.val) / 1024 % 4096 = f.val; omega
      | ⟨2, _⟩ => show (f.val * 1024 + q.val) % 1024 = q.val; omega)
  have e0 : ∀ k : Fin 1024, lidx_main_v87 (lidx_main_v96 (ix2 r q) f) k = ix2 r k := fun k =>
    funext fun a => Fin.ext (by
      match a with
      | ⟨0, _⟩ => rfl
      | ⟨1, _⟩ => rfl)
  have e2 : ∀ k : Fin 1024, idx_main_v85 (idx_main_v86 (ridx_main_v87 (lidx_main_v96 (ix2 r q) f) k)) = ix3 (4 : Fin 8) k f := fun k =>
    funext fun a => Fin.ext (by
      have hf := f.isLt; have hk := k.isLt
      match a with
      | ⟨0, _⟩ => rfl
      | ⟨1, _⟩ => show (k.val * 4096 + f.val) / 4096 % 1024 = k.val; omega
      | ⟨2, _⟩ => show (k.val * 4096 + f.val) % 4096 = f.val; omega)
  rw [val_main_v93_apply, val_main_v92_apply, val_main_v87_apply, val_main_call8_v0_apply, val_main_call8_cst_apply,
    val_main_v91_apply, val_main_v90_apply, val_main_v89_apply, val_main_v88_apply, val_main_v95_apply, val_main_v94_apply, e3, e4]
  simp only [val_main_v86_apply, val_main_v85_apply, e0, e2, Ideal.maximumf_def, Ideal.addf_def, Ideal.ofBits_def, Ideal.ofBits_zero_f32]

/-- Expert 5's stage at row `r`, column `q`: the two-layer perceptron of row `r` of `x0` with the weights and biases of
    slice 5. The output bias is read through slice, reshape and two broadcasts at `(5, q)`; the hidden unit `f` reads its
    bias at `(5, f)`, its first-layer weights at `(5, k, f)` (the reshape's row-major index `k * 4096 + f` splits back into
    `k` and `f`), and the second-layer weight at `(5, f, q)` (row-major index `f * 1024 + q`). -/
theorem y5 (x0 : (⟨S8192x1024, .f32⟩ : BufTy).Contents (Elt Ideal)) (x2 : (⟨S8x1024x4096, .f32⟩ : BufTy).Contents (Elt Ideal))
    (x3 : (⟨S8x4096, .f32⟩ : BufTy).Contents (Elt Ideal)) (x4 : (⟨S8x4096x1024, .f32⟩ : BufTy).Contents (Elt Ideal))
    (x5 : (⟨S8x1024, .f32⟩ : BufTy).Contents (Elt Ideal)) (r : Fin 8192) (q : Fin 1024) :
    val_main_v122 (F := Ideal) x0 x2 x3 x4 x5 (ix2 r q) =
      Cert.Spec.mlp (fun k => x0 (ix2 r k)) (fun k f => x2 (ix3 (5 : Fin 8) k f)) (fun f => x3 (ix2 (5 : Fin 8) f))
        (fun f q' => x4 (ix3 (5 : Fin 8) f q')) (fun q' => x5 (ix2 (5 : Fin 8) q')) q := by
  have e5 : idx_main_v118 (idx_main_v119 (idx_main_v120 (idx_main_v121 (ix2 r q)))) = ix2 (5 : Fin 8) q :=
    funext fun a => Fin.ext (by
      match a with
      | ⟨0, _⟩ => rfl
      | ⟨1, _⟩ => exact Nat.mod_eq_of_lt q.isLt)
  rw [val_main_v122_apply, val_main_v117_apply, val_main_v121_apply, val_main_v120_apply, val_main_v119_apply, val_main_v118_apply, e5]
  unfold Cert.Spec.mlp
  rw [Ideal.addf_def]
  refine congrArg (· + x5 (ix2 (5 : Fin 8) q)) (Finset.sum_congr rfl fun f _ => ?_)
  have e3 : idx_main_v109 (idx_main_v110 (idx_main_v111 (idx_main_v112 (lidx_main_v117 (ix2 r q) f)))) = ix2 (5 : Fin 8) f :=
    funext fun a => Fin.ext (by
      match a with
      | ⟨0, _⟩ => rfl
      | ⟨1, _⟩ => exact Nat.mod_eq_of_lt f.isLt)
  have e4 : idx_main_v115 (idx_main_v116 (ridx_main_v117 (ix2 r q) f)) = ix3 (5 : Fin 8) f q :=
    funext fun a => Fin.ext (by
      have hf := f.isLt; have hq := q.isLt
      match a with
      | ⟨0, _⟩ => rfl
      | ⟨1, _⟩ => show (f.val * 1024 + q.val) / 1024 % 4096 = f.val; omega
      | ⟨2, _⟩ => show (f.val * 1024 + q.val) % 1024 = q.val; omega)
  have e0 : ∀ k : Fin 1024, lidx_main_v108 (lidx_main_v117 (ix2 r q) f) k = ix2 r k := fun k =>
    funext fun a => Fin.ext (by
      match a with
      | ⟨0, _⟩ => rfl
      | ⟨1, _⟩ => rfl)
  have e2 : ∀ k : Fin 1024, idx_main_v106 (idx_main_v107 (ridx_main_v108 (lidx_main_v117 (ix2 r q) f) k)) = ix3 (5 : Fin 8) k f := fun k =>
    funext fun a => Fin.ext (by
      have hf := f.isLt; have hk := k.isLt
      match a with
      | ⟨0, _⟩ => rfl
      | ⟨1, _⟩ => show (k.val * 4096 + f.val) / 4096 % 1024 = k.val; omega
      | ⟨2, _⟩ => show (k.val * 4096 + f.val) % 4096 = f.val; omega)
  rw [val_main_v114_apply, val_main_v113_apply, val_main_v108_apply, val_main_call10_v0_apply, val_main_call10_cst_apply,
    val_main_v112_apply, val_main_v111_apply, val_main_v110_apply, val_main_v109_apply, val_main_v116_apply, val_main_v115_apply, e3, e4]
  simp only [val_main_v107_apply, val_main_v106_apply, e0, e2, Ideal.maximumf_def, Ideal.addf_def, Ideal.ofBits_def, Ideal.ofBits_zero_f32]

/-- Expert 6's stage at row `r`, column `q`: the two-layer perceptron of row `r` of `x0` with the weights and biases of
    slice 6. The output bias is read through slice, reshape and two broadcasts at `(6, q)`; the hidden unit `f` reads its
    bias at `(6, f)`, its first-layer weights at `(6, k, f)` (the reshape's row-major index `k * 4096 + f` splits back into
    `k` and `f`), and the second-layer weight at `(6, f, q)` (row-major index `f * 1024 + q`). -/
theorem y6 (x0 : (⟨S8192x1024, .f32⟩ : BufTy).Contents (Elt Ideal)) (x2 : (⟨S8x1024x4096, .f32⟩ : BufTy).Contents (Elt Ideal))
    (x3 : (⟨S8x4096, .f32⟩ : BufTy).Contents (Elt Ideal)) (x4 : (⟨S8x4096x1024, .f32⟩ : BufTy).Contents (Elt Ideal))
    (x5 : (⟨S8x1024, .f32⟩ : BufTy).Contents (Elt Ideal)) (r : Fin 8192) (q : Fin 1024) :
    val_main_v143 (F := Ideal) x0 x2 x3 x4 x5 (ix2 r q) =
      Cert.Spec.mlp (fun k => x0 (ix2 r k)) (fun k f => x2 (ix3 (6 : Fin 8) k f)) (fun f => x3 (ix2 (6 : Fin 8) f))
        (fun f q' => x4 (ix3 (6 : Fin 8) f q')) (fun q' => x5 (ix2 (6 : Fin 8) q')) q := by
  have e5 : idx_main_v139 (idx_main_v140 (idx_main_v141 (idx_main_v142 (ix2 r q)))) = ix2 (6 : Fin 8) q :=
    funext fun a => Fin.ext (by
      match a with
      | ⟨0, _⟩ => rfl
      | ⟨1, _⟩ => exact Nat.mod_eq_of_lt q.isLt)
  rw [val_main_v143_apply, val_main_v138_apply, val_main_v142_apply, val_main_v141_apply, val_main_v140_apply, val_main_v139_apply, e5]
  unfold Cert.Spec.mlp
  rw [Ideal.addf_def]
  refine congrArg (· + x5 (ix2 (6 : Fin 8) q)) (Finset.sum_congr rfl fun f _ => ?_)
  have e3 : idx_main_v130 (idx_main_v131 (idx_main_v132 (idx_main_v133 (lidx_main_v138 (ix2 r q) f)))) = ix2 (6 : Fin 8) f :=
    funext fun a => Fin.ext (by
      match a with
      | ⟨0, _⟩ => rfl
      | ⟨1, _⟩ => exact Nat.mod_eq_of_lt f.isLt)
  have e4 : idx_main_v136 (idx_main_v137 (ridx_main_v138 (ix2 r q) f)) = ix3 (6 : Fin 8) f q :=
    funext fun a => Fin.ext (by
      have hf := f.isLt; have hq := q.isLt
      match a with
      | ⟨0, _⟩ => rfl
      | ⟨1, _⟩ => show (f.val * 1024 + q.val) / 1024 % 4096 = f.val; omega
      | ⟨2, _⟩ => show (f.val * 1024 + q.val) % 1024 = q.val; omega)
  have e0 : ∀ k : Fin 1024, lidx_main_v129 (lidx_main_v138 (ix2 r q) f) k = ix2 r k := fun k =>
    funext fun a => Fin.ext (by
      match a with
      | ⟨0, _⟩ => rfl
      | ⟨1, _⟩ => rfl)
  have e2 : ∀ k : Fin 1024, idx_main_v127 (idx_main_v128 (ridx_main_v129 (lidx_main_v138 (ix2 r q) f) k)) = ix3 (6 : Fin 8) k f := fun k =>
    funext fun a => Fin.ext (by
      have hf := f.isLt; have hk := k.isLt
      match a with
      | ⟨0, _⟩ => rfl
      | ⟨1, _⟩ => show (k.val * 4096 + f.val) / 4096 % 1024 = k.val; omega
      | ⟨2, _⟩ => show (k.val * 4096 + f.val) % 4096 = f.val; omega)
  rw [val_main_v135_apply, val_main_v134_apply, val_main_v129_apply, val_main_call12_v0_apply, val_main_call12_cst_apply,
    val_main_v133_apply, val_main_v132_apply, val_main_v131_apply, val_main_v130_apply, val_main_v137_apply, val_main_v136_apply, e3, e4]
  simp only [val_main_v128_apply, val_main_v127_apply, e0, e2, Ideal.maximumf_def, Ideal.addf_def, Ideal.ofBits_def, Ideal.ofBits_zero_f32]

/-- Expert 7's stage at row `r`, column `q`: the two-layer perceptron of row `r` of `x0` with the weights and biases of
    slice 7. The output bias is read through slice, reshape and two broadcasts at `(7, q)`; the hidden unit `f` reads its
    bias at `(7, f)`, its first-layer weights at `(7, k, f)` (the reshape's row-major index `k * 4096 + f` splits back into
    `k` and `f`), and the second-layer weight at `(7, f, q)` (row-major index `f * 1024 + q`). -/
theorem y7 (x0 : (⟨S8192x1024, .f32⟩ : BufTy).Contents (Elt Ideal)) (x2 : (⟨S8x1024x4096, .f32⟩ : BufTy).Contents (Elt Ideal))
    (x3 : (⟨S8x4096, .f32⟩ : BufTy).Contents (Elt Ideal)) (x4 : (⟨S8x4096x1024, .f32⟩ : BufTy).Contents (Elt Ideal))
    (x5 : (⟨S8x1024, .f32⟩ : BufTy).Contents (Elt Ideal)) (r : Fin 8192) (q : Fin 1024) :
    val_main_v164 (F := Ideal) x0 x2 x3 x4 x5 (ix2 r q) =
      Cert.Spec.mlp (fun k => x0 (ix2 r k)) (fun k f => x2 (ix3 (7 : Fin 8) k f)) (fun f => x3 (ix2 (7 : Fin 8) f))
        (fun f q' => x4 (ix3 (7 : Fin 8) f q')) (fun q' => x5 (ix2 (7 : Fin 8) q')) q := by
  have e5 : idx_main_v160 (idx_main_v161 (idx_main_v162 (idx_main_v163 (ix2 r q)))) = ix2 (7 : Fin 8) q :=
    funext fun a => Fin.ext (by
      match a with
      | ⟨0, _⟩ => rfl
      | ⟨1, _⟩ => exact Nat.mod_eq_of_lt q.isLt)
  rw [val_main_v164_apply, val_main_v159_apply, val_main_v163_apply, val_main_v162_apply, val_main_v161_apply, val_main_v160_apply, e5]
  unfold Cert.Spec.mlp
  rw [Ideal.addf_def]
  refine congrArg (· + x5 (ix2 (7 : Fin 8) q)) (Finset.sum_congr rfl fun f _ => ?_)
  have e3 : idx_main_v151 (idx_main_v152 (idx_main_v153 (idx_main_v154 (lidx_main_v159 (ix2 r q) f)))) = ix2 (7 : Fin 8) f :=
    funext fun a => Fin.ext (by
      match a with
      | ⟨0, _⟩ => rfl
      | ⟨1, _⟩ => exact Nat.mod_eq_of_lt f.isLt)
  have e4 : idx_main_v157 (idx_main_v158 (ridx_main_v159 (ix2 r q) f)) = ix3 (7 : Fin 8) f q :=
    funext fun a => Fin.ext (by
      have hf := f.isLt; have hq := q.isLt
      match a with
      | ⟨0, _⟩ => rfl
      | ⟨1, _⟩ => show (f.val * 1024 + q.val) / 1024 % 4096 = f.val; omega
      | ⟨2, _⟩ => show (f.val * 1024 + q.val) % 1024 = q.val; omega)
  have e0 : ∀ k : Fin 1024, lidx_main_v150 (lidx_main_v159 (ix2 r q) f) k = ix2 r k := fun k =>
    funext fun a => Fin.ext (by
      match a with
      | ⟨0, _⟩ => rfl
      | ⟨1, _⟩ => rfl)
  have e2 : ∀ k : Fin 1024, idx_main_v148 (idx_main_v149 (ridx_main_v150 (lidx_main_v159 (ix2 r q) f) k)) = ix3 (7 : Fin 8) k f := fun k =>
    funext fun a => Fin.ext (by
      have hf := f.isLt; have hk := k.isLt
      match a with
      | ⟨0, _⟩ => rfl
      | ⟨1, _⟩ => show (k.val * 4096 + f.val) / 4096 % 1024 = k.val; omega
      | ⟨2, _⟩ => show (k.val * 4096 + f.val) % 4096 = f.val; omega)
  rw [val_main_v156_apply, val_main_v155_apply, val_main_v150_apply, val_main_call14_v0_apply, val_main_call14_cst_apply,
    val_main_v154_apply, val_main_v153_apply, val_main_v152_apply, val_main_v151_apply, val_main_v158_apply, val_main_v157_apply, e3, e4]
  simp only [val_main_v149_apply, val_main_v148_apply, e0, e2, Ideal.maximumf_def, Ideal.addf_def, Ideal.ofBits_def, Ideal.ofBits_zero_f32]

/-- The condition of expert 0's select at `(r, q)`: the word comparison of row `r`'s note with 0, carried unchanged through
    the two broadcasts. -/
theorem mask0 (x1 : (⟨S8192, .i32⟩ : BufTy).Contents (Elt Ideal)) (r : Fin 8192) (q : Fin 1024) :
    val_main_call1_v0 (F := Ideal) x1 (ix2 r q) = IntOp.cmpi .eq (x1 (ix1 r)) 0#32 := by
  have e1 : idx_main_v20 (idx_main_call1_v0 (ix2 r q)) = ix1 r :=
    funext fun a => Fin.ext (by
      match a with
      | ⟨0, _⟩ => rfl)
  rw [val_main_call1_v0_apply, val_main_v20_apply, val_main_v19_apply, val_main_v18_apply, val_main_c_apply, e1]

/-- The condition of expert 1's select at `(r, q)`: the word comparison of row `r`'s note with 1, carried unchanged through
    the two broadcasts. -/
theorem mask1 (x1 : (⟨S8192, .i32⟩ : BufTy).Contents (Elt Ideal)) (r : Fin 8192) (q : Fin 1024) :
    val_main_call3_v0 (F := Ideal) x1 (ix2 r q) = IntOp.cmpi .eq (x1 (ix1 r)) 1#32 := by
  have e1 : idx_main_v41 (idx_main_call3_v0 (ix2 r q)) = ix1 r :=
    funext fun a => Fin.ext (by
      match a with
      | ⟨0, _⟩ => rfl)
  rw [val_main_call3_v0_apply, val_main_v41_apply, val_main_v40_apply, val_main_v39_apply, val_main_c_0_apply, e1]

/-- The condition of expert 2's select at `(r, q)`: the word comparison of row `r`'s note with 2, carried unchanged through
    the two broadcasts. -/
theorem mask2 (x1 : (⟨S8192, .i32⟩ : BufTy).Contents (Elt Ideal)) (r : Fin 8192) (q : Fin 1024) :
    val_main_call5_v0 (F := Ideal) x1 (ix2 r q) = IntOp.cmpi .eq (x1 (ix1 r)) 2#32 := by
  have e1 : idx_main_v62 (idx_main_call5_v0 (ix2 r q)) = ix1 r :=
    funext fun a => Fin.ext (by
      match a with
      | ⟨0, _⟩ => rfl)
  rw [val_main_call5_v0_apply, val_main_v62_apply, val_main_v61_apply, val_main_v60_apply, val_main_c_1_apply, e1]

/-- The condition of expert 3's select at `(r, q)`: the word comparison of row `r`'s note with 3, carried unchanged through
    the two broadcasts. -/
theorem mask3 (x1 : (⟨S8192, .i32⟩ : BufTy).Contents (Elt Ideal)) (r : Fin 8192) (q : Fin 1024) :
    val_main_call7_v0 (F := Ideal) x1 (ix2 r q) = IntOp.cmpi .eq (x1 (ix1 r)) 3#32 := by
  have e1 : idx_main_v83 (idx_main_call7_v0 (ix2 r q)) = ix1 r :=
    funext fun a => Fin.ext (by
      match a with
      | ⟨0, _⟩ => rfl)
  rw [val_main_call7_v0_apply, val_main_v83_apply, val_main_v82_apply, val_main_v81_apply, val_main_c_2_apply, e1]

/-- The condition of expert 4's select at `(r, q)`: the word comparison of row `r`'s note with 4, carried unchanged through
    the two broadcasts. -/
theorem mask4 (x1 : (⟨S8192, .i32⟩ : BufTy).Contents (Elt Ideal)) (r : Fin 8192) (q : Fin 1024) :
    val_main_call9_v0 (F := Ideal) x1 (ix2 r q) = IntOp.cmpi .eq (x1 (ix1 r)) 4#32 := by
  have e1 : idx_main_v104 (idx_main_call9_v0 (ix2 r q)) = ix1 r :=
    funext fun a => Fin.ext (by
      match a with
      | ⟨0, _⟩ => rfl)
  rw [val_main_call9_v0_apply, val_main_v104_apply, val_main_v103_apply, val_main_v102_apply, val_main_c_3_apply, e1]

/-- The condition of expert 5's select at `(r, q)`: the word comparison of row `r`'s note with 5, carried unchanged through
    the two broadcasts. -/
theorem mask5 (x1 : (⟨S8192, .i32⟩ : BufTy).Contents (Elt Ideal)) (r : Fin 8192) (q : Fin 1024) :
    val_main_call11_v0 (F := Ideal) x1 (ix2 r q) = IntOp.cmpi .eq (x1 (ix1 r)) 5#32 := by
  have e1 : idx_main_v125 (idx_main_call11_v0 (ix2 r q)) = ix1 r :=
    funext fun a => Fin.ext (by
      match a with
      | ⟨0, _⟩ => rfl)
  rw [val_main_call11_v0_apply, val_main_v125_apply, val_main_v124_apply, val_main_v123_apply, val_main_c_4_apply, e1]

/-- The condition of expert 6's select at `(r, q)`: the word comparison of row `r`'s note with 6, carried unchanged through
    the two broadcasts. -/
theorem mask6 (x1 : (⟨S8192, .i32⟩ : BufTy).Contents (Elt Ideal)) (r : Fin 8192) (q : Fin 1024) :
    val_main_call13_v0 (F := Ideal) x1 (ix2 r q) = IntOp.cmpi .eq (x1 (ix1 r)) 6#32 := by
  have e1 : idx_main_v146 (idx_main_call13_v0 (ix2 r q)) = ix1 r :=
    funext fun a => Fin.ext (by
      match a with
      | ⟨0, _⟩ => rfl)
  rw [val_main_call13_v0_apply, val_main_v146_apply, val_main_v145_apply, val_main_v144_apply, val_main_c_5_apply, e1]

/-- The condition of expert 7's select at `(r, q)`: the word comparison of row `r`'s note with 7, carried unchanged through
    the two broadcasts. -/
theorem mask7 (x1 : (⟨S8192, .i32⟩ : BufTy).Contents (Elt Ideal)) (r : Fin 8192) (q : Fin 1024) :
    val_main_call15_v0 (F := Ideal) x1 (ix2 r q) = IntOp.cmpi .eq (x1 (ix1 r)) 7#32 := by
  have e1 : idx_main_v167 (idx_main_call15_v0 (ix2 r q)) = ix1 r :=
    funext fun a => Fin.ext (by
      match a with
      | ⟨0, _⟩ => rfl)
  rw [val_main_call15_v0_apply, val_main_v167_apply, val_main_v166_apply, val_main_v165_apply, val_main_c_6_apply, e1]

/-- The reference's result is the routed perceptron: at row `r` the chain of eight selects, outermost expert 7, keeps the
    stage of the one expert whose number equals the note word of row `r` (a word below 8 is one of the eight literals, and
    distinct literals are distinct words), and that stage is the perceptron with that expert's weights. -/
theorem ref_eq (x0 : (⟨S8192x1024, .f32⟩ : BufTy).Contents (Elt Ideal)) (x1 : (⟨S8192, .i32⟩ : BufTy).Contents (Elt Ideal))
    (x2 : (⟨S8x1024x4096, .f32⟩ : BufTy).Contents (Elt Ideal)) (x3 : (⟨S8x4096, .f32⟩ : BufTy).Contents (Elt Ideal))
    (x4 : (⟨S8x4096x1024, .f32⟩ : BufTy).Contents (Elt Ideal)) (x5 : (⟨S8x1024, .f32⟩ : BufTy).Contents (Elt Ideal))
    (hnote : ∀ r : Fin 8192, (x1 (ix1 r)).toNat < 8) (r : Fin 8192) (q : Fin 1024) :
    val_main_v168 (F := Ideal) x0 x1 x2 x3 x4 x5 (ix2 r q) = Cert.Spec.G x0 x1 x2 x3 x4 x5 r q := by
  have hw := hnote r
  rw [val_main_v168_apply, mask7, y7, select_cmpi_eq, val_main_v147_apply, mask6, y6, select_cmpi_eq,
    val_main_v126_apply, mask5, y5, select_cmpi_eq, val_main_v105_apply, mask4, y4, select_cmpi_eq,
    val_main_v84_apply, mask3, y3, select_cmpi_eq, val_main_v63_apply, mask2, y2, select_cmpi_eq,
    val_main_v42_apply, mask1, y1, select_cmpi_eq, val_main_v21_apply, mask0, y0, select_cmpi_eq]
  unfold Cert.Spec.G
  generalize x1 (ix1 r) = w at hw ⊢
  rcases word_cases w hw with rfl | rfl | rfl | rfl | rfl | rfl | rfl | rfl
  · rw [if_neg (by decide), if_neg (by decide), if_neg (by decide), if_neg (by decide), if_neg (by decide), if_neg (by decide),
      if_neg (by decide), if_pos rfl]
    rfl
  · rw [if_neg (by decide), if_neg (by decide), if_neg (by decide), if_neg (by decide), if_neg (by decide), if_neg (by decide),
      if_pos rfl]
    rfl
  · rw [if_neg (by decide), if_neg (by decide), if_neg (by decide), if_neg (by decide), if_neg (by decide), if_pos rfl]
    rfl
  · rw [if_neg (by decide), if_neg (by decide), if_neg (by decide), if_neg (by decide), if_pos rfl]
    rfl
  · rw [if_neg (by decide), if_neg (by decide), if_neg (by decide), if_pos rfl]
    rfl
  · rw [if_neg (by decide), if_neg (by decide), if_pos rfl]
    rfl
  · rw [if_neg (by decide), if_pos rfl]
    rfl
  · rw [if_pos rfl]
    rfl

end Cert.ReferenceIdeal.RefValue

end
-- ==== Proof.lean ====
/-
  The certificate's five claims for the routed expert perceptron.

  Both programs compute, for every row `r`, the two-layer perceptron of the expert `note r` applied to row `r` of `x`
  (`Cert.Spec.G`). The reference evaluates all eight experts and selects by `note r = e`. The kernel sorts the rows by expert,
  lays each expert's rows out in blocks of 256 padded rows, runs one expert per block, and reads every row back from the padded
  row it was sent to; that this is the same function of the arguments needs only that every expert word lies in [0, 8), which is
  what the precondition's last two conjuncts say.

  The frames: the kernel's index maps read a table of forty expert words; the table is clipped into [0, 7] by the program itself,
  so every weight block lies inside its array for every input. The reference has no kernel: its frame is its run with the result dropped.
  The idealization rewrote nothing, so `preserves` is trivial.
-/
import proofs.«419510_j63247688401701_3_alg».proof.Defs
import proofs.«419510_j63247688401701_3_alg».proof.Proof.Gen.Kernel
import proofs.«419510_j63247688401701_3_alg».proof.Proof.Gen.Kernel.Skeleton
import proofs.«419510_j63247688401701_3_alg».proof.Proof.Gen.Kernel.Launch
import proofs.«419510_j63247688401701_3_alg».proof.Proof.Gen.Kernel.Points
import proofs.«419510_j63247688401701_3_alg».proof.Proof.Gen.Kernel.Frame
import proofs.«419510_j63247688401701_3_alg».proof.Proof.Gen.KernelIdeal
import proofs.«419510_j63247688401701_3_alg».proof.Proof.Gen.KernelIdeal.Skeleton
import proofs.«419510_j63247688401701_3_alg».proof.Proof.Gen.KernelIdeal.Launch
import proofs.«419510_j63247688401701_3_alg».proof.Proof.Gen.KernelIdeal.Points
import proofs.«419510_j63247688401701_3_alg».proof.Proof.Gen.KernelIdeal.Frame
import proofs.«419510_j63247688401701_3_alg».proof.Proof.Gen.ReferenceIdeal
import proofs.«419510_j63247688401701_3_alg».proof.Proof.Gen.ReferenceIdeal.Run
import proofs.«419510_j63247688401701_3_alg».proof.Proof.Gen.ReferenceIdeal.Read
import proofs.«419510_j63247688401701_3_alg».proof.Proof.Gen.Pre_finite_inputs
import proofs.«419510_j63247688401701_3_alg».proof.Proof.PreNote
import proofs.«419510_j63247688401701_3_alg».proof.Proof.OkKernel
import proofs.«419510_j63247688401701_3_alg».proof.Proof.OkKernelIdeal
import proofs.«419510_j63247688401701_3_alg».proof.Proof.KernelValue
import proofs.«419510_j63247688401701_3_alg».proof.Proof.RefValue
import Idealize.ShloMosaic.Adequacy
import Idealize.ShloMosaic.Init

noncomputable section

namespace Cert.Proof

open Idealize.ShloMosaic Idealize.ShloMosaic.TcCoe Idealize.SL.Sem

/-- The kernel's frame at the word level: the table's range holds for every input. -/
theorem frame_p : Cert.frame_Kernel := fun m ρ _ => Cert.Kernel.Gen.frame m ρ (Cert.Kernel.OkProof.ok m)

/-- The idealized kernel's frame, likewise. -/
theorem frame_pi : Cert.frame_KernelIdeal := fun m ρ _ => Cert.KernelIdeal.Gen.frame m ρ (Cert.KernelIdeal.OkProof.ok m)

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Under the precondition every expert word of the idealized kernel's launch memory is less than 8. -/
theorem note_lt (m : (ℓ : Loc Cert.KernelIdeal.nD Cert.KernelIdeal.τ Cert.KernelIdeal.sig) → Buf (Elt Ideal) ℓ)
    (hpre : Cert.Pre_KernelIdeal m) (c : Dev Cert.KernelIdeal.nD) (i : Fin 8192) :
    (m ((c.tc : Thread Cert.KernelIdeal.nD Cert.KernelIdeal.τ).loc Cert.KernelIdeal.main_arg1) (Shape.Idx.ofFin i)).toNat < 8 :=
  Cert.PreNote.note_range _ _ _ _ _ _ (hpre c) i

/-- Both idealized programs end at `Cert.Spec.G` of the arguments: the kernel by its routed run, the reference by its generated
    run read stage by stage; the arguments agree, so the results are equal. -/
theorem algebraic : Cert.algebraic_KernelIdeal_ReferenceIdeal := by
  intro m ρ m' ρ' hpre hagree
  refine ⟨_, Cert.KernelIdeal.KernelValue.run m ρ (note_lt m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v168_eq, (hagree c).1, (hagree c).2.1, (hagree c).2.2.1, (hagree c).2.2.2.1,
    (hagree c).2.2.2.2.1, (hagree c).2.2.2.2.2]
  funext i
  rw [ValueIdx.eq_ix2 i]
  exact Cert.ReferenceIdeal.RefValue.ref_eq _ _ _ _ _ _ (fun r => by rw [Cert.KernelIdeal.Glue.ix1_eq_ofFin]; exact note_lt m hpre c r) _ _

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
